-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S625000 : Shape := ⟨1, ![625000]⟩
abbrev S2x625000 : Shape := ⟨2, ![2, 625000]⟩
abbrev S_ : Shape := ⟨0, ![]⟩
abbrev S1x625000 : Shape := ⟨2, ![1, 625000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S625000 : S_.BroadcastsInDim S625000 (![] : Fin 0 → Fin S625000.rank)
  reducesTo_S625000_S_d0 : S625000.ReducesTo [0] S_
  slices_S2x625000_S1x625000_1_0 : S2x625000.Slices ![1, 0] S1x625000
  shapeCasts_S1x625000_S625000 : S1x625000.ShapeCasts S625000

variable [Facts]

def fn_part1 {F : FTy → Type} [FloatOps F] (main_v8 : IVec S_ 1) (main_v17 : IVec S625000 1) : IVec S_ 1 :=
  let main_c_4 : IVec S_ 1 := constantI S_ 1 1#1
  let main_v18 : IVec S_ 1 := (fun x v => Host.reduce IntOp.andi x v reducesTo_S625000_S_d0 h_S_) main_v17 main_c_4
  let main_v19 : IVec S_ 1 := andi main_v8 main_v18
  main_v19

def fn {F : FTy → Type} [FloatOps F] (main_arg0 : FVec F S100000x128 .f32) (main_arg1 : FVec F S625000 .f32) (main_arg2 : IVec S2x625000 32) (main_arg3 : IVec S625000 1) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S625000 .f32 := Host.absf main_arg1
  let main_cst_0 : FVec F S_ .f32 := constant S_ .f32 0x7F800000#32
  let main_v5 : FVec F S625000 .f32 := broadcastInDim S625000 ![] bcast_S_S625000 main_cst_0
  let main_v6 : IVec S625000 1 := cmpf .olt main_v4 main_v5
  let main_c_1 : IVec S_ 1 := constantI S_ 1 1#1
  let main_v7 : IVec S_ 1 := (fun x v => Host.reduce IntOp.andi x v reducesTo_S625000_S_d0 h_S_) main_v6 main_c_1
  let main_v8 : IVec S_ 1 := andi main_v3 main_v7
  let main_v9 : IVec S1x625000 32 := (extractStridedSlice S1x625000 ![1, 0] · slices_S2x625000_S1x625000_1_0) main_arg2
  let main_v10 : IVec S625000 32 := shapeCast S625000 main_v9 shapeCasts_S1x625000_S625000
  let main_c_2 : IVec S_ 32 := constantI S_ 32 0#32
  let main_v11 : IVec S625000 32 := broadcastInDim S625000 ![] bcast_S_S625000 main_c_2
  let main_v12 : IVec S625000 1 := cmpi .sge main_v10 main_v11
  let main_v13 : IVec S1x625000 32 := (extractStridedSlice S1x625000 ![1, 0] · slices_S2x625000_S1x625000_1_0) main_arg2
  let main_v14 : IVec S625000 32 := shapeCast S625000 main_v13 shapeCasts_S1x625000_S625000
  let main_c_3 : IVec S_ 32 := constantI S_ 32 100000#32
  let main_v15 : IVec S625000 32 := broadcastInDim S625000 ![] bcast_S_S625000 main_c_3
  let main_v16 : IVec S625000 1 := cmpi .slt main_v14 main_v15
  let main_v17 : IVec S625000 1 := andi main_v12 main_v16
  fn_part1 (F := F) main_v8 main_v17
-- ==== Kernel.lean ====
abbrev S100000x128 : Shape := ⟨2, ![100000, 128]⟩
abbrev S625000 : Shape := ⟨1, ![625000]⟩
abbrev S2x625000 : Shape := ⟨2, ![2, 625000]⟩
abbrev S_ : Shape := ⟨0, ![]⟩
abbrev S1x625000 : Shape := ⟨2, ![1, 625000]⟩
abbrev S625664 : Shape := ⟨1, ![625664]⟩
abbrev S625664x1 : Shape := ⟨2, ![625664, 1]⟩
abbrev S1x625664 : Shape := ⟨2, ![1, 625664]⟩
abbrev S100352x128 : Shape := ⟨2, ![100352, 128]⟩
abbrev S625664x128 : Shape := ⟨2, ![625664, 128]⟩
abbrev S1024x1 : Shape := ⟨2, ![1024, 1]⟩
abbrev S1024x128 : Shape := ⟨2, ![1024, 128]⟩
abbrev S1024x1024 : Shape := ⟨2, ![1024, 1024]⟩
abbrev S1x1024 : Shape := ⟨2, ![1, 1024]⟩

abbrev nBuf : Space → Nat
  | .hbm => 29
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S625000, .f32⟩
  | .hbm, ⟨2, _⟩ => ⟨S2x625000, .i32⟩
  | .hbm, ⟨3, _⟩ => ⟨S625000, .i1⟩
  | .hbm, ⟨4, _⟩ => ⟨S_, .f32⟩
  | .hbm, ⟨5, _⟩ => ⟨S625000, .f32⟩
  | .hbm, ⟨6, _⟩ => ⟨S625000, .f32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S_, .i32⟩
  | .hbm, ⟨12, _⟩ => ⟨S_, .i32⟩
  | .hbm, ⟨13, _⟩ => ⟨S625664, .i32⟩
  | .hbm, ⟨14, _⟩ => ⟨S625664x1, .i32⟩
  | .hbm, ⟨15, _⟩ => ⟨S_, .i32⟩
  | .hbm, ⟨16, _⟩ => ⟨S_, .f32⟩
  | .hbm, ⟨17, _⟩ => ⟨S625664, .f32⟩
  | .hbm, ⟨18, _⟩ => ⟨S625664x1, .f32⟩
  | .hbm, ⟨19, _⟩ => ⟨S_, .i32⟩
  | .hbm, ⟨20, _⟩ => ⟨S_, .i32⟩
  | .hbm, ⟨21, _⟩ => ⟨S625664, .i32⟩
  | .hbm, ⟨22, _⟩ => ⟨S1x625664, .i32⟩
  | .hbm, ⟨23, _⟩ => ⟨S_, .i32⟩
  | .hbm, ⟨24, _⟩ => ⟨S_, .f32⟩
  | .hbm, ⟨25, _⟩ => ⟨S100352x128, .f32⟩
  | .hbm, ⟨26, _⟩ => ⟨S625664x128, .f32⟩
  | .hbm, ⟨27, _⟩ => ⟨S100352x128, .f32⟩
  | .hbm, ⟨28, _⟩ => ⟨S100000x128, .f32⟩
  | .local _ .vmem, ⟨0, _⟩ => ⟨S1024x1, .i32⟩
  | .local _ .vmem, ⟨1, _⟩ => ⟨S1024x1, .i32⟩
  | .local _ .vmem, ⟨2, _⟩ => ⟨S1024x1, .f32⟩
  | .local _ .vmem, ⟨3, _⟩ => ⟨S1024x1, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x1024, .i32⟩
  | .local _ .vmem, ⟨10, _⟩ => ⟨S1x1024, .i32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_call4_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![611, 98], ![false, false]⟩

def k0_cond2 (i : grid0.Coords) : BitVec 1 :=
  let arg1 : BitVec 32 := BitVec.ofNat 32 (i 1).val
  let c97_i32 : BitVec 32 := 97#32
  let v27 : BitVec 1 := Scalar.cmpi .eq arg1 c97_i32
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![98, 611], ![false, false]⟩

def k1_cond2 (i : grid1.Coords) : BitVec 1 :=
  let arg1 : BitVec 32 := BitVec.ofNat 32 (i 1).val
  let c610_i32 : BitVec 32 := 610#32
  let v24 : BitVec 1 := Scalar.cmpi .eq arg1 c610_i32
  let v25 : BitVec 32 := Scalar.extui v24
  let c0_i32_10 : BitVec 32 := 0#32
  let v26 : BitVec 1 := Scalar.cmpi .ne v25 c0_i32_10
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S625000 : S_.BroadcastsInDim S625000 (![] : Fin 0 → Fin S625000.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  pads_S625000_S625664_06640 : S625000.Pads (![0] : Fin 1 → Nat) ![664] ![0] S625664
  h_S_ : 0 < S_.numel
  shapeCasts_S625664_S625664x1 : S625664.ShapeCasts S625664x1
  shapeCasts_S625664_S1x625664 : S625664.ShapeCasts S1x625664
  pads_S100000x128_S100352x128_03520_000 : S100000x128.Pads (![0, 0] : Fin 2 → Nat) ![352, 0] ![0, 0] S100352x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1024_d0_w32 : S1024x1024.Iotas .tc 32 [0]
  broadcasts_S1x1024_S1024x1024 : S1x1024.Broadcasts S1024x1024
  slices_S100352x128_S100000x128_0_0 : S100352x128.Slices ![0, 0] S100000x128
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S625664x1.size a
  hwx0_0 : ∀ i : grid0.Coords, EltTy.bits .i32 = 32 ∨ (Rect.block (s := S625664x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S625664x1.size a
  hwx0_1 : ∀ i : grid0.Coords, EltTy.bits .f32 = 32 ∨ (Rect.block (s := S625664x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S100352x128.size a
  hwx0_2 : ∀ i : grid0.Coords, EltTy.bits .f32 = 32 ∨ (Rect.block (s := S100352x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S625664x128.size a
  hwx0_3 : ∀ i : grid0.Coords, EltTy.bits .f32 = 32 ∨ (Rect.block (s := S625664x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x625664.size a
  hwx1_0 : ∀ i : grid1.Coords, EltTy.bits .i32 = 32 ∨ (Rect.block (s := S1x625664) S1x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S625664x128.size a
  hwx1_1 : ∀ i : grid1.Coords, EltTy.bits .f32 = 32 ∨ (Rect.block (s := S625664x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S100352x128.size a
  hwx1_2 : ∀ i : grid1.Coords, EltTy.bits .f32 = 32 ∨ (Rect.block (s := S100352x128) S1024x128.size (cc1_transform_2 i) (hinb1_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v6) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v10) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S625000 : Shape := ⟨1, ![625000]⟩
abbrev S2x625000 : Shape := ⟨2, ![2, 625000]⟩
abbrev S_ : Shape := ⟨0, ![]⟩
abbrev S1x625000 : Shape := ⟨2, ![1, 625000]⟩
abbrev S625000x1 : Shape := ⟨2, ![625000, 1]⟩
abbrev S625000x128 : Shape := ⟨2, ![625000, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S625000, .f32⟩
  | .hbm, ⟨2, _⟩ => ⟨S2x625000, .i32⟩
  | .hbm, ⟨3, _⟩ => ⟨S625000, .i1⟩
  | .hbm, ⟨4, _⟩ => ⟨S_, .f32⟩
  | .hbm, ⟨5, _⟩ => ⟨S625000, .f32⟩
  | .hbm, ⟨6, _⟩ => ⟨S625000, .f32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S625000x1, .f32⟩
  | .hbm, ⟨12, _⟩ => ⟨S_, .i32⟩
  | .hbm, ⟨13, _⟩ => ⟨S625000, .i32⟩
  | .hbm, ⟨14, _⟩ => ⟨S625000, .i1⟩
  | .hbm, ⟨15, _⟩ => ⟨S_, .i32⟩
  | .hbm, ⟨16, _⟩ => ⟨S625000, .i32⟩
  | .hbm, ⟨17, _⟩ => ⟨S625000, .i32⟩
  | .hbm, ⟨18, _⟩ => ⟨S625000, .i32⟩
  | .hbm, ⟨19, _⟩ => ⟨S625000x1, .i32⟩
  | .hbm, ⟨20, _⟩ => ⟨S625000x128, .f32⟩
  | .hbm, ⟨21, _⟩ => ⟨S625000x128, .f32⟩
  | .hbm, ⟨22, _⟩ => ⟨S625000x128, .f32⟩
  | .hbm, ⟨23, _⟩ => ⟨S_, .f32⟩
  | .hbm, ⟨24, _⟩ => ⟨S100000x128, .f32⟩
  | .hbm, ⟨25, _⟩ => ⟨S625000x1, .i32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S100000x128 : S_.BroadcastsInDim S100000x128 (![] : Fin 0 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf

class Facts : Prop extends Facts₀ where

variable [Facts]
-- ==== Proof.KSched.lean ====
import proofs.«401368_j71373766525042_1_alg».proof.Proof.Gen.Kernel.Launch

/-!
# The two grids' schedules, by arithmetic

Both grids have two axes and 59878 = 611 * 98 points, run in row-major order, last axis fastest: point t
of the first grid has coordinates (t / 98, t % 98), point t of the second (t / 611, t % 611). Every block
index map returns one coordinate and a zero, so a block index at a point is a quotient or a remainder of
the point's number; the two conditions of each body compare the inner coordinate with zero and with its
last value; and an output block is written back exactly where the outer coordinate is about to change,
that is at the last value of the inner coordinate. Nothing here enumerates the points.
-/

noncomputable section

namespace Cert.Kernel.Hand

open Cert.Kernel Cert.Kernel.Gen Idealize.ShloMosaic Idealize.ShloMosaic.TcCoe
open Idealize.SL Idealize.SL.Sem

variable {F : FTy → Type} [FloatOps F]

/-! ## Words -/

/-- A number below 2^32 is the value of its 32-bit word. -/
theorem toNat_ofNat32 (a : Nat) (ha : a < 4294967296) : (BitVec.ofNat 32 a).toNat = a := by
  rw [BitVec.toNat_ofNat]
  exact Nat.mod_eq_of_lt ha

/-- Two numbers below 2^32 with the same 32-bit word are equal. -/
theorem ofNat32_eq_iff (a c : Nat) (ha : a < 4294967296) (hc : c < 4294967296) :
    BitVec.ofNat 32 a = BitVec.ofNat 32 c ↔ a = c := by
  constructor
  · intro h
    have h' := congrArg BitVec.toNat h
    rwa [toNat_ofNat32 a ha, toNat_ofNat32 c hc] at h'
  · rintro rfl
    rfl

/-- The one-bit chain "x equals y, widened, is not zero" is set exactly when x = y. -/
theorem chain_iff (x y : BitVec 32) :
    Scalar.cmpi .ne (Scalar.extui (Scalar.cmpi .eq x y)) 0#32 = 1#1 ↔ x = y := by
  show BitVec.ofBool ((BitVec.ofBool (x == y)).setWidth 32 != 0#32) = 1#1 ↔ x = y
  by_cases h : x = y
  · have hb : (x == y) = true := by simpa using h
    rw [hb]
    exact ⟨fun _ => h, fun _ => by decide⟩
  · have hb : (x == y) = false := by simpa using h
    rw [hb]
    exact ⟨fun h' => absurd h' (by decide), fun h' => absurd h' h⟩

/-! ## The conditions of the two bodies -/

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

/-! ## Coordinates of a point -/

theorem stride0_0 : grid0.stride 0 = 98 := by decide
theorem stride0_1 : grid0.stride 1 = 1 := by decide
theorem stride1_0 : grid1.stride 0 = 611 := by decide
theorem stride1_1 : grid1.stride 1 = 1 := by decide

theorem lt0 (t : Fin grid0.N) : t.val < 59878 := Nat.lt_of_lt_of_eq t.isLt N_0

theorem lt1 (t : Fin grid1.N) : t.val < 59878 := Nat.lt_of_lt_of_eq t.isLt N_1

theorem coords0_0 (t : Fin grid0.N) : (grid0.coords t 0).val = t.val / 98 := by
  have h := lt0 t
  show t.val / grid0.stride 0 % 611 = t.val / 98
  rw [stride0_0]
  omega

theorem coords0_1 (t : Fin grid0.N) : (grid0.coords t 1).val = t.val % 98 := by
  show t.val / grid0.stride 1 % 98 = t.val % 98
  rw [stride0_1, Nat.div_one]

theorem coords1_0 (t : Fin grid1.N) : (grid1.coords t 0).val = t.val / 611 := by
  have h := lt1 t
  show t.val / grid1.stride 0 % 98 = t.val / 611
  rw [stride1_0]
  omega

theorem coords1_1 (t : Fin grid1.N) : (grid1.coords t 1).val = t.val % 611 := by
  show t.val / grid1.stride 1 % 611 = t.val % 611
  rw [stride1_1, Nat.div_one]

/-! ## The conditions at a point -/

theorem hcond0_0 : ∀ t : Fin cfg0.N, cond0_0 (grid0.coords t) ↔ t.val % 98 = 0 := by
  intro t
  refine (chain_iff _ _).trans ?_
  rw [coords0_1]
  exact ofNat32_eq_iff _ 0 (by omega) (by omega)

theorem hcond0_1 : ∀ t : Fin cfg0.N, cond0_1 (grid0.coords t) ↔ t.val % 98 = 97 := by
  intro t
  show Scalar.cmpi .ne (Scalar.extui (Scalar.cmpi .eq (BitVec.ofNat 32 (grid0.coords t 1).val) 97#32)) 0#32 = 1#1 ↔ _
  refine (chain_iff _ _).trans ?_
  rw [coords0_1]
  exact ofNat32_eq_iff _ 97 (by omega) (by omega)

theorem hcond1_0 : ∀ t : Fin cfg1.N, cond1_0 (grid1.coords t) ↔ t.val % 611 = 0 := by
  intro t
  refine (chain_iff _ _).trans ?_
  rw [coords1_1]
  exact ofNat32_eq_iff _ 0 (by omega) (by omega)

theorem hcond1_1 : ∀ t : Fin cfg1.N, cond1_1 (grid1.coords t) ↔ t.val % 611 = 610 := by
  intro t
  show Scalar.cmpi .ne (Scalar.extui (Scalar.cmpi .eq (BitVec.ofNat 32 (grid1.coords t 1).val) 610#32)) 0#32 = 1#1 ↔ _
  refine (chain_iff _ _).trans ?_
  rw [coords1_1]
  exact ofNat32_eq_iff _ 610 (by omega) (by omega)

/-! ## The block index of each window at a point -/

theorem index0_0 (t : Fin cfg0.N) : (cfg0.win 0).index t = ![t.val / 98, 0] := by
  have h := lt0 t
  show ![(BitVec.ofNat 32 (grid0.coords t 0).val).toNat, (0#32).toNat] = _
  rw [coords0_0, toNat_ofNat32 _ (by omega)]
  rfl

theorem index0_1 (t : Fin cfg0.N) : (cfg0.win 1).index t = ![t.val / 98, 0] := by
  have h := lt0 t
  show ![(BitVec.ofNat 32 (grid0.coords t 0).val).toNat, (0#32).toNat] = _
  rw [coords0_0, toNat_ofNat32 _ (by omega)]
  rfl

theorem index0_2 (t : Fin cfg0.N) : (cfg0.win 2).index t = ![t.val % 98, 0] := by
  show ![(BitVec.ofNat 32 (grid0.coords t 1).val).toNat, (0#32).toNat] = _
  rw [coords0_1, toNat_ofNat32 _ (by omega)]
  rfl

theorem index0_3 (t : Fin cfg0.N) : (cfg0.win 3).index t = ![t.val / 98, 0] := by
  have h := lt0 t
  show ![(BitVec.ofNat 32 (grid0.coords t 0).val).toNat, (0#32).toNat] = _
  rw [coords0_0, toNat_ofNat32 _ (by omega)]
  rfl

theorem index1_0 (t : Fin cfg1.N) : (cfg1.win 0).index t = ![0, t.val % 611] := by
  show ![(0#32).toNat, (BitVec.ofNat 32 (grid1.coords t 1).val).toNat] = _
  rw [coords1_1, toNat_ofNat32 (t.val % 611) (by omega)]
  rfl

theorem index1_1 (t : Fin cfg1.N) : (cfg1.win 1).index t = ![t.val % 611, 0] := by
  show ![(BitVec.ofNat 32 (grid1.coords t 1).val).toNat, (0#32).toNat] = _
  rw [coords1_1, toNat_ofNat32 _ (by omega)]
  rfl

theorem index1_2 (t : Fin cfg1.N) : (cfg1.win 2).index t = ![t.val / 611, 0] := by
  have h := lt1 t
  show ![(BitVec.ofNat 32 (grid1.coords t 0).val).toNat, (0#32).toNat] = _
  rw [coords1_0, toNat_ofNat32 _ (by omega)]
  rfl

/-! ## Where the output blocks are written back -/

/-- Two block indices with a zero second entry are equal exactly when their first entries are. -/
theorem vec2_eq_iff (a b : Nat) : (![a, 0] : Fin 2 → Nat) = ![b, 0] ↔ a = b := by
  constructor
  · intro h
    exact congrFun h 0
  · rintro rfl
    rfl

theorem flush0_3 : ∀ t : Fin cfg0.N, (cfg0.win 3).flush t = true ↔ t.val % 98 = 97 := by
  intro t
  have hN : grid0.N = 59878 := N_0
  have ht := lt0 t
  show (true && (decide (t.val + 1 = grid0.N) || decide (∃ h : t.val + 1 < grid0.N, (cfg0.win 3).index ⟨t.val + 1, h⟩ ≠ (cfg0.win 3).index t))) = true ↔ _
  rw [Bool.true_and, Bool.or_eq_true, decide_eq_true_iff, decide_eq_true_iff]
  constructor
  · rintro (h | ⟨h, hne⟩)
    · omega
    · rw [index0_3, index0_3] at hne
      by_contra hc
      refine hne ((vec2_eq_iff _ _).mpr ?_)
      show (t.val + 1) / 98 = t.val / 98
      omega
  · intro h
    by_cases hl : t.val + 1 = grid0.N
    · exact Or.inl hl
    · refine Or.inr ⟨by omega, ?_⟩
      rw [index0_3, index0_3]
      intro heq
      have h2 : (t.val + 1) / 98 = t.val / 98 := (vec2_eq_iff _ _).mp heq
      omega

theorem flush1_2 : ∀ t : Fin cfg1.N, (cfg1.win 2).flush t = true ↔ t.val % 611 = 610 := by
  intro t
  have hN : grid1.N = 59878 := N_1
  have ht := lt1 t
  show (true && (decide (t.val + 1 = grid1.N) || decide (∃ h : t.val + 1 < grid1.N, (cfg1.win 2).index ⟨t.val + 1, h⟩ ≠ (cfg1.win 2).index t))) = true ↔ _
  rw [Bool.true_and, Bool.or_eq_true, decide_eq_true_iff, decide_eq_true_iff]
  constructor
  · rintro (h | ⟨h, hne⟩)
    · omega
    · rw [index1_2, index1_2] at hne
      by_contra hc
      refine hne ((vec2_eq_iff _ _).mpr ?_)
      show (t.val + 1) / 611 = t.val / 611
      omega
  · intro h
    by_cases hl : t.val + 1 = grid1.N
    · exact Or.inl hl
    · refine Or.inr ⟨by omega, ?_⟩
      rw [index1_2, index1_2]
      intro heq
      have h2 : (t.val + 1) / 611 = t.val / 611 := (vec2_eq_iff _ _).mp heq
      omega

/-! ## The bodies as the pipelines call them -/

/-- The kernel body at point t, on what the pipeline calls it with: the point's coordinates and each window's
    current staging buffer. -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

end Cert.Kernel.Hand

end
-- ==== Proof.KR0Runs.lean ====
/-
  The first pallas_call (the row lookup as a dense product): what its three control cases share.

  The grid is 611 edge tiles by 98 table tiles, walked edge tile by edge tile.  At table tile 0 the body clears
  its running sum, at every table tile it adds that tile's product, and at table tile 97 it stores the sum into
  the output block.  So a point is in one of three cases, decided by its number modulo 98: residue 0 (clear and
  add), residues 1 to 96 (add), residue 97 (add and store out).  Stated here, at any contents V of the buffers
  when the call is entered: each window's block at a point, that an input's buffer holds its block at every
  point (fetched there or carried over), where the output is idle (from the two branch conditions' closed forms),
  and the names the three runs are stated over.
-/
import proofs.«401368_j71373766525042_1_alg».proof.Proof.Gen.Kernel.Launch
import proofs.«401368_j71373766525042_1_alg».proof.Proof.Gen.Kernel.Skeleton
import proofs.«401368_j71373766525042_1_alg».proof.Proof.KSched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source words' buffer holds their block at every point: fetched at the edge tile's first point, carried
    over at the others, where the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the table's tile, fetched at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

/-- The three inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- The output block is idle exactly where the second branch is not taken: its idleness is that condition negated. -/
theorem idle0_3_of_not (i : grid0.Coords) (h : ¬cond0_1 i) : cfg0.idle 3 i = true := by
  show (!(k0_cond2 i == 1#1)) = true
  have : (k0_cond2 i == 1#1) = false := by simpa using h
  rw [this]; rfl
theorem live0_3_of (i : grid0.Coords) (h : cond0_1 i) : cfg0.idle 3 i = false := by
  show (!(k0_cond2 i == 1#1)) = false
  have : (k0_cond2 i == 1#1) = true := by simpa using h
  rw [this]; rfl
/-- The output block is written back exactly at the points of the second branch (the schedule's closed form and
    the condition's are the same residue). -/
theorem noFlush0_3_of_not (t : Fin cfg0.N) (h : ¬cond0_1 (grid0.coords t)) : (cfg0.win 3).flush t = false :=
  Bool.eq_false_iff.mpr fun hf => h ((hcond0_1 t).mpr ((flush0_3 t).mp hf))
/-- Where the sum is cleared the output block is neither stored nor written back. -/
theorem idleAt0_3_A : ∀ t : Fin cfg0.N, cond0_0 (grid0.coords t) → ¬cond0_1 (grid0.coords t) → cfg0.idle 3 (grid0.coords t) = true := fun t _ h => idle0_3_of_not _ h
theorem noFlush0_3_A : ∀ t : Fin cfg0.N, cond0_0 (grid0.coords t) → ¬cond0_1 (grid0.coords t) → (cfg0.win 3).flush t = false := fun t _ h => noFlush0_3_of_not t h
/-- Nor at the points in between. -/
theorem idleAt0_3_B : ∀ t : Fin cfg0.N, ¬cond0_0 (grid0.coords t) → ¬cond0_1 (grid0.coords t) → cfg0.idle 3 (grid0.coords t) = true := fun t _ h => idle0_3_of_not _ h
theorem noFlush0_3_B : ∀ t : Fin cfg0.N, ¬cond0_0 (grid0.coords t) → ¬cond0_1 (grid0.coords t) → (cfg0.win 3).flush t = false := fun t _ h => noFlush0_3_of_not t h
/-- At the last table tile it is stored. -/
theorem liveAt0_3_C : ∀ t : Fin cfg0.N, ¬cond0_0 (grid0.coords t) → cond0_1 (grid0.coords t) → cfg0.idle 3 (grid0.coords t) = false := fun t _ h => live0_3_of _ h

/-! ## The names the runs are stated over -/

/-- One staging buffer of the output window, through which its contents are stated. -/
abbrev VO0_3 : View sig .tc .vmem S1024x128 .f32 := (Memref.whole cc0_stg3_0 : Memref sig .tc .vmem S1024x128 .f32).view
/-- Each window's current staging memref at point t, as the pipeline passes it, and its wholeness. -/
abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-- The running sum's buffer: a whole scoped buffer of the kernel's own, passed beside the windows. -/
abbrev scM0_0 : Memref sig .tc .vmem S1024x128 .f32 := Memref.whole cc0_scratch0
/-- The same as a view: what it holds is stated through it. -/
abbrev VS0_0 : View sig .tc .vmem S1024x128 .f32 := scM0_0.view

/-- The scoped buffers that are neither this call's staging buffers nor its running sum (the other call's), each
    whole at some contents: they pass through every point untouched. -/
def restOthers0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the call is handed besides its windows: the running sum's buffer at some contents, the other scoped
    buffers, and the generator register at some state. -/
theorem PhiA0_eq (c : Dev nD) :
    (Pipeline.ΦA spec0 c : sProp 𝕄)
      = iprop(iprop((∃ d, owns (c : Thread nD τ) scM0_0 fullShare d) ∗ restOthers0 c) ∗ (∃ r, prngReg c r)) := by
  unfold Pipeline.ΦA; rw [scopedRest0_eq]; unfold restOthers0; simp only [scM0_0, owns_whole]; try rfl

end Cert.Kernel.Hand

end
-- ==== Proof.KR0RunA.lean ====
/-
  The first pallas_call, at a point of the first kind: the running sum is cleared, then takes the tile's product.
-/
import proofs.«401368_j71373766525042_1_alg».proof.Proof.KR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body leaves in the running sum, as the pieces its stores write (last first), at a point where the table tile is tile 0 and not the last: the sum is cleared and then takes this tile's product; the output block, idle here, is handed back as found. With it, the triple: on whole staging memrefs, the inputs at their blocks, the output at any given contents, the running sum at anything, the body runs to the continuation holding the inputs and the output as they were and the running sum with its pieces written. -/
noncomputable def kernelRun0_A (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KR0RunB.lean ====
/-
  The first pallas_call, at a point of the second kind: the running sum takes the tile's product.
-/
import proofs.«401368_j71373766525042_1_alg».proof.Proof.KR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body leaves in the running sum, as pieces, at a point where the table tile is neither tile 0 nor the last: the sum, found at what the point before left, takes this tile's product; the output block, idle here, is handed back as found. With it, the triple. -/
noncomputable def kernelRun0_B (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KR0RunC.lean ====
/-
  The first pallas_call, at a point of the third kind: the running sum takes the tile's product and is stored out.
-/
import proofs.«401368_j71373766525042_1_alg».proof.Proof.KR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body leaves, as pieces, at a point where the table tile is the last: the running sum, found at what the point before left, takes this tile's product and is then stored into the output block. With it, the triple. -/
noncomputable def kernelRun0_C (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KR0Frame.lean ====
/-
  The first pallas_call: what it leaves point by point, and its body at every point.

  The running sum after a point is that point's pieces read back: at a point of the first kind over a cleared
  buffer, at the other points over what the point before left.  The output block is stored at the points of the
  third kind only, and holds the running sum there.  Between points the call keeps the running sum's buffer at
  exactly these contents: that is the invariant the body is given and gives back.  The proof data say, at any
  contents V of the buffers when the call is entered: each input's buffer holds its block, the output's holds
  the accumulation's first component, nothing is owed.
-/
import proofs.«401368_j71373766525042_1_alg».proof.Proof.KR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- A point of the first kind stores nothing into the output block: a placeholder nothing consults (the block is neither written back nor read there). -/
def out0_A_3 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .f32) : Vec F S1024x128 .f32 :=
  VO0_3.read (Elt F) (VO0_3.writes (Elt F) VO0_3.junk (kernelRun0_A c i arg2 harg2 arg3 harg3 arg4 harg4 arg5 harg5 arg6 harg6 hc0 hc1 x0 x1 x2).1)

/-- The pieces written into the running sum at such a point cover it (they tile the whole buffer). -/
theorem scover0_A_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .f32) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y

/-- What such a point leaves in the running sum: its pieces read back. -/
def sout0_A_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .f32) : Vec F S1024x128 .f32 :=
  VS0_0.read (Elt F) (VS0_0.writes (Elt F) VS0_0.junk (kernelRun0_A c i arg2 harg2 arg3 harg3 arg4 harg4 arg5 harg5 arg6 harg6 hc0 hc1 x0 x1 x2).2.1)

/-- A point of the second kind stores nothing into the output block: a placeholder nothing consults. -/
def out0_B_3 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .f32) (xs0 : Vec F S1024x128 .f32) : Vec F S1024x128 .f32 :=
  VO0_3.read (Elt F) (VO0_3.writes (Elt F) VO0_3.junk (kernelRun0_B c i arg2 harg2 arg3 harg3 arg4 harg4 arg5 harg5 arg6 harg6 hc0 hc1 x0 x1 x2 xs0).1)

/-- The pieces written into the running sum at such a point cover it (they tile the whole buffer). -/
theorem scover0_B_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .f32) (xs0 : Vec F S1024x128 .f32) (y : S1024x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x128.size (by sl_kernel_rfl) y

/-- What such a point leaves in the running sum: its pieces read back. -/
def sout0_B_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- At the last table tile the one store into the output block covers it. -/
theorem cover0_C_3 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x128.size (by sl_kernel_rfl) y

/-- What a point of the third kind leaves in the output block: its one store read back. -/
def out0_C_3 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) : Vec F S1024x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- The pieces written into the running sum at such a point cover it (they tile the whole buffer). -/
theorem scover0_C_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y

/-- What such a point leaves in the running sum: its pieces read back. -/
def sout0_C_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the buffers hold after each point -/

/-- THE ACCUMULATION. After the body at point n: the output block's staging buffer, then the running sum. The kind
    of the point is read off its number modulo 98; the points other than the first kind start from what the point
    before left in the running sum. -/
def outsAt0 (c : Dev nD) : (n : ℕ) → n < cfg0.N → Vec F S1024x128 .f32 × Vec F S1024x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 98 = 0 then
      if h1 : (n + 1) % 98 = 97 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 98 = 97 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- The accumulation at a point of the first kind. -/
theorem outsAt0_A (c : Dev nD) (t : Fin cfg0.N) (h0 : t.val % 98 = 0) (h1 : ¬t.val % 98 = 97) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- The accumulation at a point of the second kind, over what the point before left. -/
theorem outsAt0_B (c : Dev nD) (t : Fin cfg0.N) (h0 : ¬t.val % 98 = 0) (h1 : ¬t.val % 98 = 97) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point of the third kind, over what the point before left. -/
theorem outsAt0_C (c : Dev nD) (t : Fin cfg0.N) (h0 : ¬t.val % 98 = 0) (h1 : t.val % 98 = 97) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point n: before the first, what the call is handed (the running sum's buffer at anything); afterwards
    the running sum's buffer at what the point before left, the other scoped buffers, the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restOthers0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restOthers0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restOthers0 c) ∗ (∃ r, prngReg c r)) := by
  cases n with
  | zero => exact absurd rfl hz
  | succ n => rfl

/-! ## The proof data -/

/-- On core c: the arrays as the call finds them; after the body at point t each input's buffer at its block and
    the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's number modulo 98 says which kind it
    is; the invariant hands the body the running sum at what the point before left (at anything before the first
    point), and takes it back at this point's contents; an idle output block goes back as found; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  by_cases h0 : t.val % 98 = 0
  · by_cases h1 : t.val % 98 = 97
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 98 = 97
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the call is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the call was handed: the running sum's contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 59878 := N_0; omega)

end Cert.Kernel.Hand

end
-- ==== Proof.KR1Runs.lean ====
/- The scatter product's grid, shared by its three control cases.

   The second kernel computes, for each of 98 blocks of 1024 output rows, the sum over 611 blocks of 1024 edges of a
   one-hot matrix (row r of the block against the edges' destination words) times the block of edge messages. It
   keeps the running sum in a buffer of its own between grid points: point (i0, i1) first clears that buffer when
   i1 = 0, then adds the product of edge block i1 to it, and when i1 = 610 copies it to the output block i0.
   Numbering the points row by row, t = 611 * i0 + i1, the clearing points are t % 611 = 0 and the copying
   points t % 611 = 610.

   This file states, at an arbitrary valuation V of the buffers when the product starts: the blocks of the two inputs
   at a point; that an input's staging buffer always holds its block; where the output window is idle (from the two
   branch conditions' closed forms, which the schedule module proves); and the loop invariant's resource shape, with
   the running-sum buffer singled out. -/
import proofs.«401368_j71373766525042_1_alg».proof.Proof.Gen.Kernel.Launch
import proofs.«401368_j71373766525042_1_alg».proof.Proof.Gen.Kernel.Skeleton
import proofs.«401368_j71373766525042_1_alg».proof.Proof.KSched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the buffers' contents when the scatter product starts
variable (V : (c : Dev nD) → (b : Ref sig .tc) → Buf (Elt F) ((c : Thread nD τ).loc b))

/-! ## The inputs' blocks -/

/-- Window w's block at point t, cut out of its array as the product finds it: for window 0 the 1024 destination
    words of edge block i1, for window 1 the 1024 x 128 messages of edge block i1, for window 2 output block i0. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The destination words' staging buffer holds edge block i1's words at every point, whether the block was copied in
    at that point or is still there from the point before (the block index has then not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the messages' staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Where the windows are idle

The inputs are read at every point. The output block is stored only under the second condition, so elsewhere its
window is idle, and it is copied back to the array only at the points 610 modulo 611. -/

theorem liveAt1_0 : ∀ t : Fin cfg1.N, cfg1.idle 0 (grid1.coords t) = false := fun _ => rfl
theorem liveAt1_1 : ∀ t : Fin cfg1.N, cfg1.idle 1 (grid1.coords t) = false := fun _ => rfl

/-- The output window's idleness is the negation of the second condition, at every grid coordinate. -/
theorem idle1_2_of_not (i : grid1.Coords) (h : ¬cond1_1 i) : cfg1.idle 2 i = true := by
  show (!(k1_cond2 i == 1#1)) = true
  have : (k1_cond2 i == 1#1) = false := by simpa using h
  rw [this]; rfl
theorem live1_2_of (i : grid1.Coords) (h : cond1_1 i) : cfg1.idle 2 i = false := by
  show (!(k1_cond2 i == 1#1)) = false
  have : (k1_cond2 i == 1#1) = true := by simpa using h
  rw [this]; rfl
/-- Away from the last edge block the output block is not copied back. -/
theorem noFlush1_2_of_not (t : Fin cfg1.N) (h : ¬cond1_1 (grid1.coords t)) : (cfg1.win 2).flush t = false :=
  Bool.eq_false_iff.mpr fun hf => h ((hcond1_1 t).mpr ((flush1_2 t).mp hf))

theorem idleAt1_2_A : ∀ t : Fin cfg1.N, cond1_0 (grid1.coords t) → ¬cond1_1 (grid1.coords t) → cfg1.idle 2 (grid1.coords t) = true :=
  fun t _ h => idle1_2_of_not _ h
theorem noFlush1_2_A : ∀ t : Fin cfg1.N, cond1_0 (grid1.coords t) → ¬cond1_1 (grid1.coords t) → (cfg1.win 2).flush t = false :=
  fun t _ h => noFlush1_2_of_not t h
theorem idleAt1_2_B : ∀ t : Fin cfg1.N, ¬cond1_0 (grid1.coords t) → ¬cond1_1 (grid1.coords t) → cfg1.idle 2 (grid1.coords t) = true :=
  fun t _ h => idle1_2_of_not _ h
theorem noFlush1_2_B : ∀ t : Fin cfg1.N, ¬cond1_0 (grid1.coords t) → ¬cond1_1 (grid1.coords t) → (cfg1.win 2).flush t = false :=
  fun t _ h => noFlush1_2_of_not t h
theorem liveAt1_2_C : ∀ t : Fin cfg1.N, ¬cond1_0 (grid1.coords t) → cond1_1 (grid1.coords t) → cfg1.idle 2 (grid1.coords t) = false :=
  fun t _ h => live1_2_of _ h

/-! ## The memrefs the kernel is called with -/

/-- One staging buffer of the output window, through which what a case leaves there is read back (both have the same
    shape, so the choice does not matter). -/
abbrev VO1_2 : View sig .tc .vmem S1024x128 .f32 := (Memref.whole cc1_stg2_0 : Memref sig .tc .vmem S1024x128 .f32).view
/-- Each window's current staging memref at point t and its wholeness. -/
abbrev ms1_0 (t : Fin cfg1.N) : Memref sig .tc .vmem S1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The running-sum buffer: a whole buffer of the kernel's own, passed beside the windows. -/
abbrev scM1_0 : Memref sig .tc .vmem S1024x128 .f32 := Memref.whole cc1_scratch0
/-- The same as a view: what the buffer holds is stated through it. -/
abbrev VS1_0 : View sig .tc .vmem S1024x128 .f32 := scM1_0.view

/-! ## The invariant's resources

Besides the windows' staging buffers the core has ten more local buffers: the first kernel's eight staging buffers
and its running-sum buffer, which the scatter product never touches, and the scatter product's own running-sum
buffer. The nine untouched ones travel together as one factor. -/

/-- The nine local buffers the scatter product never touches, each whole at some contents. -/
def restOthers1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f))

/-- The invariant the product starts from and ends with: the nine untouched buffers, the running-sum buffer as a memref
    owned at some contents, and the generator register at some state. -/
theorem PhiA1_eq (c : Dev nD) :
    (Pipeline.ΦA spec1 c : sProp 𝕄)
      = iprop(iprop(restOthers1 (F := F) c ∗ (∃ d, owns (c : Thread nD τ) scM1_0 fullShare d)) ∗ (∃ r, prngReg c r)) := by
  unfold Pipeline.ΦA; rw [scopedRest1_eq]; unfold restOthers1; simp only [scM1_0, owns_whole]
  refine BI.equiv_iff.mp ⟨?_, ?_⟩
  · show (_ : sProp 𝕄) ⊢ (_ : sProp 𝕄)
    iintro ⟨⟨H0, H1, H2, H3, H4, H5, H6, H7, H8, H9⟩, Hg⟩
    isplitr [Hg]
    · isplitr [H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      iexact H9
    iexact Hg
  · show (_ : sProp 𝕄) ⊢ (_ : sProp 𝕄)
    iintro ⟨⟨⟨H0, H1, H2, H3, H4, H5, H6, H7, H8⟩, H9⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg

end Cert.Kernel.Hand

end
-- ==== Proof.KR1RunA.lean ====
/- The scatter kernel at a point with i1 = 0 (first edge block of an output row block).

   The body clears its running-sum buffer, reads the 1024 destination words and the 1024 x 128 messages of the edge
   block, and stores into the running-sum buffer the cleared contents plus the one-hot product. The output's staging
   buffer is not touched. The stores the run meets, last first, are the witness: two whole-buffer pieces for the
   running-sum buffer, none for the output. -/
import proofs.«401368_j71373766525042_1_alg».proof.Proof.KR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves (output's staging buffer, running-sum buffer), with the proof that on whole memrefs,
    the two inputs at contents x0 and x1, the output's staging buffer at any contents xi2 (handed back as found), and
    the running-sum buffer at anything, the body runs to a continuation that gets the inputs and the output's buffer
    back unchanged and the running-sum buffer with its pieces written. -/
noncomputable def kernelRun1_A (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1x1024 .i32) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KR1RunB.lean ====
/- The scatter kernel at a point with 0 < i1 < 610 (an inner edge block).

   The body reads the edge block's destination words and messages and the running sum the point before left, and
   stores the sum plus the one-hot product back into the running-sum buffer. The output's staging buffer is not
   touched. The witness: one whole-buffer piece for the running-sum buffer, none for the output. -/
import proofs.«401368_j71373766525042_1_alg».proof.Proof.KR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves (output's staging buffer, running-sum buffer), with the proof that on whole memrefs,
    the inputs at x0 and x1, the output's staging buffer at any xi2 (handed back as found) and the running-sum buffer at
    the contents xs0 the point before left, the body runs to a continuation that gets the inputs and the output's
    buffer back unchanged and the running-sum buffer with its pieces written. -/
noncomputable def kernelRun1_B (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1x1024 .i32) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KR1RunC.lean ====
/- The scatter kernel at a point with i1 = 610 (last edge block of an output row block).

   The body reads the edge block's destination words and messages and the running sum the point before left, stores
   the sum plus the one-hot product back into the running-sum buffer, then reads that buffer and stores it into the
   output's staging buffer, which the pipeline copies to output row block i0. The witness: one whole-buffer piece for
   each of the two buffers. -/
import proofs.«401368_j71373766525042_1_alg».proof.Proof.KR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves (output's staging buffer, running-sum buffer), with the proof that on whole memrefs,
    the inputs at x0 and x1, the output's staging buffer at anything and the running-sum buffer at the contents xs0 the
    point before left, the body runs to a continuation that gets the inputs back unchanged and each of the other two
    buffers with its pieces written. -/
noncomputable def kernelRun1_C (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KR1Frame.lean ====
/- The scatter product's loop, point by point.

   From the three cases' runs: what each case leaves in the output's staging buffer and in the running-sum buffer
   (its stores read back); the accumulation, by recursion on the point's number with the case chosen by the number
   modulo 611; the loop invariant, which carries the running-sum buffer at the accumulation's second component from one
   point to the next beside the nine buffers the product never touches; the proof data; and the body obligation at a
   generic point. Everything is stated at an arbitrary valuation V of the buffers when the product starts. -/
import proofs.«401368_j71373766525042_1_alg».proof.Proof.KR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output's staging buffer: no pieces. The value below (junk read back) is a
    placeholder nothing consults, since at these points the output block is neither copied back nor read later. -/
def out1_A_2 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1x1024 .i32) (x1 : Vec F S1024x128 .f32) : Vec F S1024x128 .f32 :=
  VO1_2.read (Elt F) (VO1_2.writes (Elt F) VO1_2.junk (kernelRun1_A c i arg2 harg2 arg3 harg3 arg4 harg4 arg5 harg5 hc0 hc1 x0 x1).1)

/-- Case A's whole-buffer stores into the running-sum buffer cover it. -/
theorem scover1_A_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1x1024 .i32) (x1 : Vec F S1024x128 .f32) (y : S1024x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x128.size (by sl_kernel_rfl) y

/-- What case A leaves in the running-sum buffer: its pieces read back. -/
def sout1_A_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1x1024 .i32) (x1 : Vec F S1024x128 .f32) : Vec F S1024x128 .f32 :=
  VS1_0.read (Elt F) (VS1_0.writes (Elt F) VS1_0.junk (kernelRun1_A c i arg2 harg2 arg3 harg3 arg4 harg4 arg5 harg5 hc0 hc1 x0 x1).2.1)

/-- Case B stores nothing into the output's staging buffer: no pieces. The value below (junk read back) is a
    placeholder nothing consults, since at these points the output block is neither copied back nor read later. -/
def out1_B_2 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1x1024 .i32) (x1 : Vec F S1024x128 .f32) (xs0 : Vec F S1024x128 .f32) : Vec F S1024x128 .f32 :=
  VO1_2.read (Elt F) (VO1_2.writes (Elt F) VO1_2.junk (kernelRun1_B c i arg2 harg2 arg3 harg3 arg4 harg4 arg5 harg5 hc0 hc1 x0 x1 xs0).1)

/-- Case B's whole-buffer stores into the running-sum buffer cover it. -/
theorem scover1_B_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1x1024 .i32) (x1 : Vec F S1024x128 .f32) (xs0 : Vec F S1024x128 .f32) (y : S1024x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x128.size (by sl_kernel_rfl) y

/-- What case B leaves in the running-sum buffer: its pieces read back. -/
def sout1_B_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1x1024 .i32) (x1 : Vec F S1024x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 hc0 hc1 x0 x1 xs0).2.1)

/-- Case C's one whole-buffer store into the output's staging buffer covers it. -/
theorem cover1_C_2 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- What case C leaves in the output's staging buffer: its pieces read back. -/
def out1_C_2 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) : Vec F S1024x128 .f32 :=
  VO1_2.read (Elt F) (VO1_2.writes (Elt F) VO1_2.junk (kernelRun1_C c i arg2 harg2 arg3 harg3 arg4 harg4 arg5 harg5 hc0 hc1 x0 x1 xs0).1)

/-- Case C's whole-buffer stores into the running-sum buffer cover it. -/
theorem scover1_C_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- What case C leaves in the running-sum buffer: its pieces read back. -/
def sout1_C_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 hc0 hc1 x0 x1 xs0).2.1)

section Loop
-- the buffers' contents when the scatter product starts
variable (V : (c : Dev nD) → (b : Ref sig .tc) → Buf (Elt F) ((c : Thread nD τ).loc b))

/-! ## What the two buffers hold after each point -/

/-- THE ACCUMULATION. After the body at point n: (the output's staging buffer, the running-sum buffer). The case is
    read off n modulo 611; cases B and C start from the running sum the point before left. No point is both 0 and 610
    modulo 611. -/
def outsAt1 (c : Dev nD) : (n : ℕ) → n < cfg1.N → Vec F S1024x128 .f32 × Vec F S1024x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 611 = 0 then
      if h1 : (n + 1) % 611 = 610 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 611 = 610 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point 0 modulo 611: case A's contents. -/
theorem outsAt1_A (c : Dev nD) (t : Fin cfg1.N) (h0 : t.val % 611 = 0) (h1 : ¬t.val % 611 = 610) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point neither 0 nor 610 modulo 611: case B's contents, over what the point before left. -/
theorem outsAt1_B (c : Dev nD) (t : Fin cfg1.N) (h0 : ¬t.val % 611 = 0) (h1 : ¬t.val % 611 = 610) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point 610 modulo 611: case C's contents, over what the point before left. -/
theorem outsAt1_C (c : Dev nD) (t : Fin cfg1.N) (h0 : ¬t.val % 611 = 0) (h1 : t.val % 611 = 610) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The loop invariant before position n. Before the first point: what the product starts from, every local buffer
    at anything. Afterwards: the nine untouched buffers, the running-sum buffer at what the point before left in it,
    and the generator register at some state. -/
def PhiS1 (c : Dev nD) : (n : ℕ) → n ≤ cfg1.N → sProp 𝕄
  | 0, _ => Pipeline.ΦA spec1 c
  | n + 1, hn => iprop(iprop(restOthers1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point n: the running-sum buffer at that point's contents. -/
theorem PhiS1_succ (c : Dev nD) (n : ℕ) (hn : n < cfg1.N) :
    PhiS1 V c (n + 1) hn = iprop(iprop(restOthers1 (F := F) c ∗ owns (c : Thread nD τ) scM1_0 fullShare ((outsAt1 V c n hn).2)) ∗ (∃ r, prngReg c r)) := rfl

/-- Before a point that is not the first: the running-sum buffer at what the point before left. -/
theorem PhiS1_pos (c : Dev nD) (n : ℕ) (h : n ≤ cfg1.N) (hz : n ≠ 0) :
    PhiS1 V c n h = iprop(iprop(restOthers1 (F := F) c ∗ owns (c : Thread nD τ) scM1_0 fullShare ((outsAt1 V c (n - 1) (by omega)).2)) ∗ (∃ r, prngReg c r)) := by
  cases n with
  | zero => exact absurd rfl hz
  | succ n => rfl

/-! ## The proof data of the scatter product -/

/-- On core c: the arrays as the product finds them; after the body at point t each input's staging buffer at its
    block and the output's at the first component of the accumulation; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body at a generic point -/

/-- What the body is called with at point t: the invariant, the core owing nothing, and each window's current
    staging buffer at what it holds there. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What it returns: the invariant at the next position and each buffer at what the body leaves (an idle output's
    buffer as it was found). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's number modulo 611 says which case it
    is in; the invariant hands the body the running-sum buffer at what the point before left (at anything before the
    first point) and takes it back at this point's contents, which the case's covering stores determine; an idle
    output's buffer goes through untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 611 = 0
  · by_cases h1 : t.val % 611 = 610
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Hrest, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hrest HS0 Hg]
        · isplitl [Hrest HS0]
          · isplitl [Hrest]; · iexact Hrest
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨Hrest, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Hrest HS0 Hg]
        · isplitl [Hrest HS0]
          · isplitl [Hrest]; · iexact Hrest
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 611 = 610
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨Hrest, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [Hrest HS0 Hg]
        · isplitl [Hrest HS0]
          · isplitl [Hrest]; · iexact Hrest
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Hrest, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hrest HS0 Hg]
        · isplitl [Hrest HS0]
          · isplitl [Hrest]; · iexact Hrest
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The body obligation of the scatter product, at every point. -/
theorem body_obligation1 (c : Dev nD) : BodyObligation (dat1 (F := F) V c) (defs₀ (F := F)) Variants.none () Set.univ := fun t => by
  rw [bigSep_W1, bigSep_W1]
  exact sound_body1 V c t

/-- What the product starts from is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the starting resources back: what the running-sum buffer holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hrest, HS0⟩, Hg⟩
  isplitl [Hrest HS0]
  · isplitl [Hrest]; · iexact Hrest
    iexists _; iexact HS0
  iexact Hg

/-- In particular after the last point. -/
theorem hout1 (c : Dev nD) : (dat1 V c).Φ (Fin.last cfg1.N) ⊢ Pipeline.ΦA spec1 c :=
  Phi_out1 V c _ (by rw [Fin.val_last]; have : cfg1.N = 59878 := N_1; omega)

end Loop

end Cert.Kernel.Hand

end
-- ==== Proof.KRun.lean ====
/-
  The whole program as one run: the host lines and the two pallas_calls in @main's order.

  Between two items every unscoped buffer of the core is held at a named contents: the launch memory, then each
  host stretch applied, then after a call its output array at what the call's write-backs leave and every other
  buffer as it was.  Each host stretch is a segment over these contents; each call is a segment whose body
  obligation and invariant are the call's own (its running sum carried from point to point).  The run's result:
  every weakly fair execution of @main terminates, and every final memory holds each unscoped buffer at the last
  of these contents.  From it: the argument arrays end as launched, and the result array ends at the last host
  line's value of the second call's output.
-/
import proofs.«401368_j71373766525042_1_alg».proof.Proof.KR0Frame
import proofs.«401368_j71373766525042_1_alg».proof.Proof.KR1Frame
import proofs.«401368_j71373766525042_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- What the first call finds: the launch memory after the ten host stretches before it, read at a reference. -/
abbrev VA : (c : Dev nD) → (b : Ref sig .tc) → Buf (Elt F) ((c : Thread nD τ).loc b) := fun c b => V10 m c b

/-- After the first call: its arrays at what its write-backs leave, every other buffer as entered. -/
def W11 (c : Dev nD) : Valuation τ sig (Elt F) :=
  Pipeline.withArrays spec0 c (V10 m c) fun w => (dat0 (VA m) c).arrAt w cfg0.N
theorem W11_arr (c : Dev nD) (w : Fin cfg0.W) :
    W11 m c (Proc.devRef .tc (Pipeline.arrRef spec0 w)) = (dat0 (VA m) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m c (Proc.devRef .tc b) = V10 m c (Proc.devRef .tc b) := by
  unfold W11; exact Pipeline.withArrays_of_ne spec0 c _ _ b hb
/-- What the second call finds. -/
abbrev VB : (c : Dev nD) → (b : Ref sig .tc) → Buf (Elt F) ((c : Thread nD τ).loc b) := fun c b => W11 m c b
theorem hF0 (c : Dev nD) (w : Fin cfg0.W) : (dat0 (VA m) c).arrAt w cfg0.N = VB m c (Pipeline.arrRef spec0 w) :=
  (W11_arr m c w).symm
theorem hrest0 (c : Dev nD) : ∀ b, b ∉ Finset.univ.image (Pipeline.arrRef spec0) → VB m c b = VA m c b :=
  fun b hb => W11_of_ne m c b fun w e => hb (Finset.mem_image.mpr ⟨w, Finset.mem_univ _, e⟩)

/-- After the second call. -/
def W12 (c : Dev nD) : Valuation τ sig (Elt F) :=
  Pipeline.withArrays spec1 c (W11 m c) fun w => (dat1 (VB m) c).arrAt w cfg1.N
theorem W12_arr (c : Dev nD) (w : Fin cfg1.W) :
    W12 m c (Proc.devRef .tc (Pipeline.arrRef spec1 w)) = (dat1 (VB m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
abbrev VC : (c : Dev nD) → (b : Ref sig .tc) → Buf (Elt F) ((c : Thread nD τ).loc b) := fun c b => W12 m c b
theorem hF1 (c : Dev nD) (w : Fin cfg1.W) : (dat1 (VB m) c).arrAt w cfg1.N = VC m c (Pipeline.arrRef spec1 w) :=
  (W12_arr m c w).symm
theorem hrest1 (c : Dev nD) : ∀ b, b ∉ Finset.univ.image (Pipeline.arrRef spec1) → VC m c b = VB m c b :=
  fun b hb => W12_of_ne m c b fun w e => hb (Finset.mem_image.mpr ⟨w, Finset.mem_univ _, e⟩)

/-- After the last host line (the slice that keeps the first 100000 rows). -/
abbrev W13 (c : Dev nD) : Valuation τ sig (Elt F) := StableHlo.after hostOps2 (W12 m c)

/-- The argument array 0 reaches the end as launched: no host line writes it and neither call's output is it. -/
theorem W13_main_arg0 (c : Dev nD) : W13 m c main_arg0 = m ((c : Thread nD τ).loc main_arg0) :=
  (StableHlo.after_of_writes_sub hostOps2 _ hostOps2_writes (by decide : main_arg0 ∉ hostOps2_W)).trans <|
  (W12_of_ne m c main_arg0 (by decide)).trans <| (W11_of_ne m c main_arg0 (by decide)).trans <|
  (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

/-- The argument array 1 reaches the end as launched: no host line writes it and neither call's output is it. -/
theorem W13_main_arg1 (c : Dev nD) : W13 m c main_arg1 = m ((c : Thread nD τ).loc main_arg1) :=
  (StableHlo.after_of_writes_sub hostOps2 _ hostOps2_writes (by decide : main_arg1 ∉ hostOps2_W)).trans <|
  (W12_of_ne m c main_arg1 (by decide)).trans <| (W11_of_ne m c main_arg1 (by decide)).trans <|
  (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl

/-- The argument array 2 reaches the end as launched: no host line writes it and neither call's output is it. -/
theorem W13_main_arg2 (c : Dev nD) : W13 m c main_arg2 = m ((c : Thread nD τ).loc main_arg2) :=
  (StableHlo.after_of_writes_sub hostOps2 _ hostOps2_writes (by decide : main_arg2 ∉ hostOps2_W)).trans <|
  (W12_of_ne m c main_arg2 (by decide)).trans <| (W11_of_ne m c main_arg2 (by decide)).trans <|
  (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

/-- The argument array 3 reaches the end as launched: no host line writes it and neither call's output is it. -/
theorem W13_main_arg3 (c : Dev nD) : W13 m c main_arg3 = m ((c : Thread nD τ).loc main_arg3) :=
  (StableHlo.after_of_writes_sub hostOps2 _ hostOps2_writes (by decide : main_arg3 ∉ hostOps2_W)).trans <|
  (W12_of_ne m c main_arg3 (by decide)).trans <| (W11_of_ne m c main_arg3 (by decide)).trans <|
  (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-! ## The proof data family and the thread state -/

/-- Both calls' proof data, each at the contents its call finds: a literal match on the call's number. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped buffers from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W13 m c) ∗ ∃ r, prngReg c r)

/-! ## The calls as segments -/

-- the library's entry and exit lemmas are stated over the pinned configuration: unification may unfold plain
-- definitions in a metavariable's type
set_option backward.isDefEq.respectTransparency.types false in
/-- Call 0 as a segment: entered from every unscoped buffer at the contents before it, left with its output array
    at what its write-backs leave and every other buffer as entered. Its arrays are split out of the unscoped
    buffers and put back; the generator register goes into the invariant and comes out; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (VA m) c).Φ 0 from rfl]
    iintro ⟨Hp, -, Hr⟩
    iapply (hin0 (VA m) c)
    unfold Pipeline.ΦA
    isplitl [Hr]; · iexact Hr
    iexact Hp
  hout c := by
    rw [Pipeline.ownSems0_none, show (pdats m 0 c).Φ (Fin.last _) = (dat0 (VA m) c).Φ (Fin.last cfg0.N) from rfl]
    have hgive := hout0 (VA m) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration: unification may unfold plain
-- definitions in a metavariable's type
set_option backward.isDefEq.respectTransparency.types false in
/-- Call 1 as a segment: entered from every unscoped buffer at the contents before it, left with its output array
    at what its write-backs leave and every other buffer as entered. Its arrays are split out of the unscoped
    buffers and put back; the generator register goes into the invariant and comes out; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VB m) c).Φ 0 from rfl]
    iintro ⟨Hp, -, Hr⟩
    iapply (hin1 (VB m) c)
    unfold Pipeline.ΦA
    isplitl [Hr]; · iexact Hr
    iexact Hp
  hout c := by
    rw [Pipeline.ownSems0_none, show (pdats m 1 c).Φ (Fin.last _) = (dat1 (VB m) c).Φ (Fin.last cfg1.N) from rfl]
    have hgive := hout1 (VB m) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [
    .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .region (reg0 m),
    .region (reg1 m),
    .host (hseg hostOps2 hostOps2_sub hostOps2_fresh (W12 m)) ]

-- the kit's implicit arguments are found by unifying its conclusion with this one, which takes unfolding plain
-- definitions in a metavariable's type
set_option backward.isDefEq.respectTransparency.types false in
/-- THE RUN. From any memory with zero counters every weakly fair execution of @main terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (StableHlo.after hostOps2 (W12 m c)) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c)⟩) (run_all m ρ)

/-- THE RESULT beside the frame: the result array ends at the last boundary's contents of its buffer. -/
theorem run_result : θ_run defs (onTc (τ := τ) (main (F := F))) ⟨m, fun _ => 0, ρ⟩ (fun r => ∀ c : Dev nD,
      r.2.mem ((c.tc : Thread nD τ).loc main_v14) = W13 m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v14 (by decide)),
     (h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c)⟩) (run_all m ρ)

end Cert.Kernel.Hand

end
-- ==== Proof.Sched.lean ====
import proofs.«401368_j71373766525042_1_alg».proof.Proof.Gen.KernelIdeal.Launch

/-!
# The two grids' schedules, by arithmetic

Both grids have two axes and 59878 = 611 * 98 points, run in row-major order, last axis fastest: point t
of the first grid has coordinates (t / 98, t % 98), point t of the second (t / 611, t % 611). Every block
index map returns one coordinate and a zero, so a block index at a point is a quotient or a remainder of
the point's number; the two conditions of each body compare the inner coordinate with zero and with its
last value; and an output block is written back exactly where the outer coordinate is about to change,
that is at the last value of the inner coordinate. Nothing here enumerates the points.
-/

noncomputable section

namespace Cert.KernelIdeal.Hand

open Cert.KernelIdeal Cert.KernelIdeal.Gen Idealize.ShloMosaic Idealize.ShloMosaic.TcCoe
open Idealize.SL Idealize.SL.Sem

variable {F : FTy → Type} [FloatOps F]

/-! ## Words -/

/-- A number below 2^32 is the value of its 32-bit word. -/
theorem toNat_ofNat32 (a : Nat) (ha : a < 4294967296) : (BitVec.ofNat 32 a).toNat = a := by
  rw [BitVec.toNat_ofNat]
  exact Nat.mod_eq_of_lt ha

/-- Two numbers below 2^32 with the same 32-bit word are equal. -/
theorem ofNat32_eq_iff (a c : Nat) (ha : a < 4294967296) (hc : c < 4294967296) :
    BitVec.ofNat 32 a = BitVec.ofNat 32 c ↔ a = c := by
  constructor
  · intro h
    have h' := congrArg BitVec.toNat h
    rwa [toNat_ofNat32 a ha, toNat_ofNat32 c hc] at h'
  · rintro rfl
    rfl

/-- The one-bit chain "x equals y, widened, is not zero" is set exactly when x = y. -/
theorem chain_iff (x y : BitVec 32) :
    Scalar.cmpi .ne (Scalar.extui (Scalar.cmpi .eq x y)) 0#32 = 1#1 ↔ x = y := by
  show BitVec.ofBool ((BitVec.ofBool (x == y)).setWidth 32 != 0#32) = 1#1 ↔ x = y
  by_cases h : x = y
  · have hb : (x == y) = true := by simpa using h
    rw [hb]
    exact ⟨fun _ => h, fun _ => by decide⟩
  · have hb : (x == y) = false := by simpa using h
    rw [hb]
    exact ⟨fun h' => absurd h' (by decide), fun h' => absurd h' h⟩

/-! ## The conditions of the two bodies -/

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

/-! ## Coordinates of a point -/

theorem stride0_0 : grid0.stride 0 = 98 := by decide
theorem stride0_1 : grid0.stride 1 = 1 := by decide
theorem stride1_0 : grid1.stride 0 = 611 := by decide
theorem stride1_1 : grid1.stride 1 = 1 := by decide

theorem lt0 (t : Fin grid0.N) : t.val < 59878 := Nat.lt_of_lt_of_eq t.isLt N_0

theorem lt1 (t : Fin grid1.N) : t.val < 59878 := Nat.lt_of_lt_of_eq t.isLt N_1

theorem coords0_0 (t : Fin grid0.N) : (grid0.coords t 0).val = t.val / 98 := by
  have h := lt0 t
  show t.val / grid0.stride 0 % 611 = t.val / 98
  rw [stride0_0]
  omega

theorem coords0_1 (t : Fin grid0.N) : (grid0.coords t 1).val = t.val % 98 := by
  show t.val / grid0.stride 1 % 98 = t.val % 98
  rw [stride0_1, Nat.div_one]

theorem coords1_0 (t : Fin grid1.N) : (grid1.coords t 0).val = t.val / 611 := by
  have h := lt1 t
  show t.val / grid1.stride 0 % 98 = t.val / 611
  rw [stride1_0]
  omega

theorem coords1_1 (t : Fin grid1.N) : (grid1.coords t 1).val = t.val % 611 := by
  show t.val / grid1.stride 1 % 611 = t.val % 611
  rw [stride1_1, Nat.div_one]

/-! ## The conditions at a point -/

theorem hcond0_0 : ∀ t : Fin cfg0.N, cond0_0 (grid0.coords t) ↔ t.val % 98 = 0 := by
  intro t
  refine (chain_iff _ _).trans ?_
  rw [coords0_1]
  exact ofNat32_eq_iff _ 0 (by omega) (by omega)

theorem hcond0_1 : ∀ t : Fin cfg0.N, cond0_1 (grid0.coords t) ↔ t.val % 98 = 97 := by
  intro t
  show Scalar.cmpi .ne (Scalar.extui (Scalar.cmpi .eq (BitVec.ofNat 32 (grid0.coords t 1).val) 97#32)) 0#32 = 1#1 ↔ _
  refine (chain_iff _ _).trans ?_
  rw [coords0_1]
  exact ofNat32_eq_iff _ 97 (by omega) (by omega)

theorem hcond1_0 : ∀ t : Fin cfg1.N, cond1_0 (grid1.coords t) ↔ t.val % 611 = 0 := by
  intro t
  refine (chain_iff _ _).trans ?_
  rw [coords1_1]
  exact ofNat32_eq_iff _ 0 (by omega) (by omega)

theorem hcond1_1 : ∀ t : Fin cfg1.N, cond1_1 (grid1.coords t) ↔ t.val % 611 = 610 := by
  intro t
  show Scalar.cmpi .ne (Scalar.extui (Scalar.cmpi .eq (BitVec.ofNat 32 (grid1.coords t 1).val) 610#32)) 0#32 = 1#1 ↔ _
  refine (chain_iff _ _).trans ?_
  rw [coords1_1]
  exact ofNat32_eq_iff _ 610 (by omega) (by omega)

/-! ## The block index of each window at a point -/

theorem index0_0 (t : Fin cfg0.N) : (cfg0.win 0).index t = ![t.val / 98, 0] := by
  have h := lt0 t
  show ![(BitVec.ofNat 32 (grid0.coords t 0).val).toNat, (0#32).toNat] = _
  rw [coords0_0, toNat_ofNat32 _ (by omega)]
  rfl

theorem index0_1 (t : Fin cfg0.N) : (cfg0.win 1).index t = ![t.val / 98, 0] := by
  have h := lt0 t
  show ![(BitVec.ofNat 32 (grid0.coords t 0).val).toNat, (0#32).toNat] = _
  rw [coords0_0, toNat_ofNat32 _ (by omega)]
  rfl

theorem index0_2 (t : Fin cfg0.N) : (cfg0.win 2).index t = ![t.val % 98, 0] := by
  show ![(BitVec.ofNat 32 (grid0.coords t 1).val).toNat, (0#32).toNat] = _
  rw [coords0_1, toNat_ofNat32 _ (by omega)]
  rfl

theorem index0_3 (t : Fin cfg0.N) : (cfg0.win 3).index t = ![t.val / 98, 0] := by
  have h := lt0 t
  show ![(BitVec.ofNat 32 (grid0.coords t 0).val).toNat, (0#32).toNat] = _
  rw [coords0_0, toNat_ofNat32 _ (by omega)]
  rfl

theorem index1_0 (t : Fin cfg1.N) : (cfg1.win 0).index t = ![0, t.val % 611] := by
  show ![(0#32).toNat, (BitVec.ofNat 32 (grid1.coords t 1).val).toNat] = _
  rw [coords1_1, toNat_ofNat32 (t.val % 611) (by omega)]
  rfl

theorem index1_1 (t : Fin cfg1.N) : (cfg1.win 1).index t = ![t.val % 611, 0] := by
  show ![(BitVec.ofNat 32 (grid1.coords t 1).val).toNat, (0#32).toNat] = _
  rw [coords1_1, toNat_ofNat32 _ (by omega)]
  rfl

theorem index1_2 (t : Fin cfg1.N) : (cfg1.win 2).index t = ![t.val / 611, 0] := by
  have h := lt1 t
  show ![(BitVec.ofNat 32 (grid1.coords t 0).val).toNat, (0#32).toNat] = _
  rw [coords1_0, toNat_ofNat32 _ (by omega)]
  rfl

/-! ## Where the output blocks are written back -/

/-- Two block indices with a zero second entry are equal exactly when their first entries are. -/
theorem vec2_eq_iff (a b : Nat) : (![a, 0] : Fin 2 → Nat) = ![b, 0] ↔ a = b := by
  constructor
  · intro h
    exact congrFun h 0
  · rintro rfl
    rfl

theorem flush0_3 : ∀ t : Fin cfg0.N, (cfg0.win 3).flush t = true ↔ t.val % 98 = 97 := by
  intro t
  have hN : grid0.N = 59878 := N_0
  have ht := lt0 t
  show (true && (decide (t.val + 1 = grid0.N) || decide (∃ h : t.val + 1 < grid0.N, (cfg0.win 3).index ⟨t.val + 1, h⟩ ≠ (cfg0.win 3).index t))) = true ↔ _
  rw [Bool.true_and, Bool.or_eq_true, decide_eq_true_iff, decide_eq_true_iff]
  constructor
  · rintro (h | ⟨h, hne⟩)
    · omega
    · rw [index0_3, index0_3] at hne
      by_contra hc
      refine hne ((vec2_eq_iff _ _).mpr ?_)
      show (t.val + 1) / 98 = t.val / 98
      omega
  · intro h
    by_cases hl : t.val + 1 = grid0.N
    · exact Or.inl hl
    · refine Or.inr ⟨by omega, ?_⟩
      rw [index0_3, index0_3]
      intro heq
      have h2 : (t.val + 1) / 98 = t.val / 98 := (vec2_eq_iff _ _).mp heq
      omega

theorem flush1_2 : ∀ t : Fin cfg1.N, (cfg1.win 2).flush t = true ↔ t.val % 611 = 610 := by
  intro t
  have hN : grid1.N = 59878 := N_1
  have ht := lt1 t
  show (true && (decide (t.val + 1 = grid1.N) || decide (∃ h : t.val + 1 < grid1.N, (cfg1.win 2).index ⟨t.val + 1, h⟩ ≠ (cfg1.win 2).index t))) = true ↔ _
  rw [Bool.true_and, Bool.or_eq_true, decide_eq_true_iff, decide_eq_true_iff]
  constructor
  · rintro (h | ⟨h, hne⟩)
    · omega
    · rw [index1_2, index1_2] at hne
      by_contra hc
      refine hne ((vec2_eq_iff _ _).mpr ?_)
      show (t.val + 1) / 611 = t.val / 611
      omega
  · intro h
    by_cases hl : t.val + 1 = grid1.N
    · exact Or.inl hl
    · refine Or.inr ⟨by omega, ?_⟩
      rw [index1_2, index1_2]
      intro heq
      have h2 : (t.val + 1) / 611 = t.val / 611 := (vec2_eq_iff _ _).mp heq
      omega

/-! ## The bodies as the pipelines call them -/

/-- The kernel body at point t, on what the pipeline calls it with: the point's coordinates and each window's
    current staging buffer. -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

end Cert.KernelIdeal.Hand

end
-- ==== Proof.R0Runs.lean ====
/-
  The first pallas_call (the row lookup as a dense product): what its three control cases share.

  The grid is 611 edge tiles by 98 table tiles, walked edge tile by edge tile.  At table tile 0 the body clears
  its running sum, at every table tile it adds that tile's product, and at table tile 97 it stores the sum into
  the output block.  So a point is in one of three cases, decided by its number modulo 98: residue 0 (clear and
  add), residues 1 to 96 (add), residue 97 (add and store out).  Stated here, at any contents V of the buffers
  when the call is entered: each window's block at a point, that an input's buffer holds its block at every
  point (fetched there or carried over), where the output is idle (from the two branch conditions' closed forms),
  and the names the three runs are stated over.
-/
import proofs.«401368_j71373766525042_1_alg».proof.Proof.Gen.KernelIdeal.Launch
import proofs.«401368_j71373766525042_1_alg».proof.Proof.Gen.KernelIdeal.Skeleton
import proofs.«401368_j71373766525042_1_alg».proof.Proof.Sched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source words' buffer holds their block at every point: fetched at the edge tile's first point, carried
    over at the others, where the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the table's tile, fetched at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

/-- The three inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- The output block is idle exactly where the second branch is not taken: its idleness is that condition negated. -/
theorem idle0_3_of_not (i : grid0.Coords) (h : ¬cond0_1 i) : cfg0.idle 3 i = true := by
  show (!(k0_cond2 i == 1#1)) = true
  have : (k0_cond2 i == 1#1) = false := by simpa using h
  rw [this]; rfl
theorem live0_3_of (i : grid0.Coords) (h : cond0_1 i) : cfg0.idle 3 i = false := by
  show (!(k0_cond2 i == 1#1)) = false
  have : (k0_cond2 i == 1#1) = true := by simpa using h
  rw [this]; rfl
/-- The output block is written back exactly at the points of the second branch (the schedule's closed form and
    the condition's are the same residue). -/
theorem noFlush0_3_of_not (t : Fin cfg0.N) (h : ¬cond0_1 (grid0.coords t)) : (cfg0.win 3).flush t = false :=
  Bool.eq_false_iff.mpr fun hf => h ((hcond0_1 t).mpr ((flush0_3 t).mp hf))
/-- Where the sum is cleared the output block is neither stored nor written back. -/
theorem idleAt0_3_A : ∀ t : Fin cfg0.N, cond0_0 (grid0.coords t) → ¬cond0_1 (grid0.coords t) → cfg0.idle 3 (grid0.coords t) = true := fun t _ h => idle0_3_of_not _ h
theorem noFlush0_3_A : ∀ t : Fin cfg0.N, cond0_0 (grid0.coords t) → ¬cond0_1 (grid0.coords t) → (cfg0.win 3).flush t = false := fun t _ h => noFlush0_3_of_not t h
/-- Nor at the points in between. -/
theorem idleAt0_3_B : ∀ t : Fin cfg0.N, ¬cond0_0 (grid0.coords t) → ¬cond0_1 (grid0.coords t) → cfg0.idle 3 (grid0.coords t) = true := fun t _ h => idle0_3_of_not _ h
theorem noFlush0_3_B : ∀ t : Fin cfg0.N, ¬cond0_0 (grid0.coords t) → ¬cond0_1 (grid0.coords t) → (cfg0.win 3).flush t = false := fun t _ h => noFlush0_3_of_not t h
/-- At the last table tile it is stored. -/
theorem liveAt0_3_C : ∀ t : Fin cfg0.N, ¬cond0_0 (grid0.coords t) → cond0_1 (grid0.coords t) → cfg0.idle 3 (grid0.coords t) = false := fun t _ h => live0_3_of _ h

/-! ## The names the runs are stated over -/

/-- One staging buffer of the output window, through which its contents are stated. -/
abbrev VO0_3 : View sig .tc .vmem S1024x128 .f32 := (Memref.whole cc0_stg3_0 : Memref sig .tc .vmem S1024x128 .f32).view
/-- Each window's current staging memref at point t, as the pipeline passes it, and its wholeness. -/
abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-- The running sum's buffer: a whole scoped buffer of the kernel's own, passed beside the windows. -/
abbrev scM0_0 : Memref sig .tc .vmem S1024x128 .f32 := Memref.whole cc0_scratch0
/-- The same as a view: what it holds is stated through it. -/
abbrev VS0_0 : View sig .tc .vmem S1024x128 .f32 := scM0_0.view

/-- The scoped buffers that are neither this call's staging buffers nor its running sum (the other call's), each
    whole at some contents: they pass through every point untouched. -/
def restOthers0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the call is handed besides its windows: the running sum's buffer at some contents, the other scoped
    buffers, and the generator register at some state. -/
theorem PhiA0_eq (c : Dev nD) :
    (Pipeline.ΦA spec0 c : sProp 𝕄)
      = iprop(iprop((∃ d, owns (c : Thread nD τ) scM0_0 fullShare d) ∗ restOthers0 c) ∗ (∃ r, prngReg c r)) := by
  unfold Pipeline.ΦA; rw [scopedRest0_eq]; unfold restOthers0; simp only [scM0_0, owns_whole]; try rfl

end Cert.KernelIdeal.Hand

end
-- ==== Proof.R0RunA.lean ====
/-
  The first pallas_call, at a point of the first kind: the running sum is cleared, then takes the tile's product.
-/
import proofs.«401368_j71373766525042_1_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body leaves in the running sum, as the pieces its stores write (last first), at a point where the table tile is tile 0 and not the last: the sum is cleared and then takes this tile's product; the output block, idle here, is handed back as found. With it, the triple: on whole staging memrefs, the inputs at their blocks, the output at any given contents, the running sum at anything, the body runs to the continuation holding the inputs and the output as they were and the running sum with its pieces written. -/
noncomputable def kernelRun0_A (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R0RunB.lean ====
/-
  The first pallas_call, at a point of the second kind: the running sum takes the tile's product.
-/
import proofs.«401368_j71373766525042_1_alg».proof.Proof.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body leaves in the running sum, as pieces, at a point where the table tile is neither tile 0 nor the last: the sum, found at what the point before left, takes this tile's product; the output block, idle here, is handed back as found. With it, the triple. -/
noncomputable def kernelRun0_B (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R0RunC.lean ====
/-
  The first pallas_call, at a point of the third kind: the running sum takes the tile's product and is stored out.
-/
import proofs.«401368_j71373766525042_1_alg».proof.Proof.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body leaves, as pieces, at a point where the table tile is the last: the running sum, found at what the point before left, takes this tile's product and is then stored into the output block. With it, the triple. -/
noncomputable def kernelRun0_C (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.R0Frame.lean ====
/-
  The first pallas_call: what it leaves point by point, and its body at every point.

  The running sum after a point is that point's pieces read back: at a point of the first kind over a cleared
  buffer, at the other points over what the point before left.  The output block is stored at the points of the
  third kind only, and holds the running sum there.  Between points the call keeps the running sum's buffer at
  exactly these contents: that is the invariant the body is given and gives back.  The proof data say, at any
  contents V of the buffers when the call is entered: each input's buffer holds its block, the output's holds
  the accumulation's first component, nothing is owed.
-/
import proofs.«401368_j71373766525042_1_alg».proof.Proof.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- A point of the first kind stores nothing into the output block: a placeholder nothing consults (the block is neither written back nor read there). -/
def out0_A_3 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .f32) : Vec F S1024x128 .f32 :=
  VO0_3.read (Elt F) (VO0_3.writes (Elt F) VO0_3.junk (kernelRun0_A c i arg2 harg2 arg3 harg3 arg4 harg4 arg5 harg5 arg6 harg6 hc0 hc1 x0 x1 x2).1)

/-- The pieces written into the running sum at such a point cover it (they tile the whole buffer). -/
theorem scover0_A_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .f32) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y

/-- What such a point leaves in the running sum: its pieces read back. -/
def sout0_A_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .f32) : Vec F S1024x128 .f32 :=
  VS0_0.read (Elt F) (VS0_0.writes (Elt F) VS0_0.junk (kernelRun0_A c i arg2 harg2 arg3 harg3 arg4 harg4 arg5 harg5 arg6 harg6 hc0 hc1 x0 x1 x2).2.1)

/-- A point of the second kind stores nothing into the output block: a placeholder nothing consults. -/
def out0_B_3 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .f32) (xs0 : Vec F S1024x128 .f32) : Vec F S1024x128 .f32 :=
  VO0_3.read (Elt F) (VO0_3.writes (Elt F) VO0_3.junk (kernelRun0_B c i arg2 harg2 arg3 harg3 arg4 harg4 arg5 harg5 arg6 harg6 hc0 hc1 x0 x1 x2 xs0).1)

/-- The pieces written into the running sum at such a point cover it (they tile the whole buffer). -/
theorem scover0_B_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .f32) (xs0 : Vec F S1024x128 .f32) (y : S1024x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x128.size (by sl_kernel_rfl) y

/-- What such a point leaves in the running sum: its pieces read back. -/
def sout0_B_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- At the last table tile the one store into the output block covers it. -/
theorem cover0_C_3 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x128.size (by sl_kernel_rfl) y

/-- What a point of the third kind leaves in the output block: its one store read back. -/
def out0_C_3 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) : Vec F S1024x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- The pieces written into the running sum at such a point cover it (they tile the whole buffer). -/
theorem scover0_C_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y

/-- What such a point leaves in the running sum: its pieces read back. -/
def sout0_C_0 (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the buffers hold after each point -/

/-- THE ACCUMULATION. After the body at point n: the output block's staging buffer, then the running sum. The kind
    of the point is read off its number modulo 98; the points other than the first kind start from what the point
    before left in the running sum. -/
def outsAt0 (c : Dev nD) : (n : ℕ) → n < cfg0.N → Vec F S1024x128 .f32 × Vec F S1024x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 98 = 0 then
      if h1 : (n + 1) % 98 = 97 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 98 = 97 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- The accumulation at a point of the first kind. -/
theorem outsAt0_A (c : Dev nD) (t : Fin cfg0.N) (h0 : t.val % 98 = 0) (h1 : ¬t.val % 98 = 97) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- The accumulation at a point of the second kind, over what the point before left. -/
theorem outsAt0_B (c : Dev nD) (t : Fin cfg0.N) (h0 : ¬t.val % 98 = 0) (h1 : ¬t.val % 98 = 97) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point of the third kind, over what the point before left. -/
theorem outsAt0_C (c : Dev nD) (t : Fin cfg0.N) (h0 : ¬t.val % 98 = 0) (h1 : t.val % 98 = 97) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point n: before the first, what the call is handed (the running sum's buffer at anything); afterwards
    the running sum's buffer at what the point before left, the other scoped buffers, the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restOthers0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restOthers0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restOthers0 c) ∗ (∃ r, prngReg c r)) := by
  cases n with
  | zero => exact absurd rfl hz
  | succ n => rfl

/-! ## The proof data -/

/-- On core c: the arrays as the call finds them; after the body at point t each input's buffer at its block and
    the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's number modulo 98 says which kind it
    is; the invariant hands the body the running sum at what the point before left (at anything before the first
    point), and takes it back at this point's contents; an idle output block goes back as found; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  by_cases h0 : t.val % 98 = 0
  · by_cases h1 : t.val % 98 = 97
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 98 = 97
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the call is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the call was handed: the running sum's contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 59878 := N_0; omega)

end Cert.KernelIdeal.Hand

end
-- ==== Proof.R1Runs.lean ====
/- The scatter product's grid, shared by its three control cases.

   The second kernel computes, for each of 98 blocks of 1024 output rows, the sum over 611 blocks of 1024 edges of a
   one-hot matrix (row r of the block against the edges' destination words) times the block of edge messages. It
   keeps the running sum in a buffer of its own between grid points: point (i0, i1) first clears that buffer when
   i1 = 0, then adds the product of edge block i1 to it, and when i1 = 610 copies it to the output block i0.
   Numbering the points row by row, t = 611 * i0 + i1, the clearing points are t % 611 = 0 and the copying
   points t % 611 = 610.

   This file states, at an arbitrary valuation V of the buffers when the product starts: the blocks of the two inputs
   at a point; that an input's staging buffer always holds its block; where the output window is idle (from the two
   branch conditions' closed forms, which the schedule module proves); and the loop invariant's resource shape, with
   the running-sum buffer singled out. -/
import proofs.«401368_j71373766525042_1_alg».proof.Proof.Gen.KernelIdeal.Launch
import proofs.«401368_j71373766525042_1_alg».proof.Proof.Gen.KernelIdeal.Skeleton
import proofs.«401368_j71373766525042_1_alg».proof.Proof.Sched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the buffers' contents when the scatter product starts
variable (V : (c : Dev nD) → (b : Ref sig .tc) → Buf (Elt F) ((c : Thread nD τ).loc b))

/-! ## The inputs' blocks -/

/-- Window w's block at point t, cut out of its array as the product finds it: for window 0 the 1024 destination
    words of edge block i1, for window 1 the 1024 x 128 messages of edge block i1, for window 2 output block i0. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The destination words' staging buffer holds edge block i1's words at every point, whether the block was copied in
    at that point or is still there from the point before (the block index has then not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the messages' staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Where the windows are idle

The inputs are read at every point. The output block is stored only under the second condition, so elsewhere its
window is idle, and it is copied back to the array only at the points 610 modulo 611. -/

theorem liveAt1_0 : ∀ t : Fin cfg1.N, cfg1.idle 0 (grid1.coords t) = false := fun _ => rfl
theorem liveAt1_1 : ∀ t : Fin cfg1.N, cfg1.idle 1 (grid1.coords t) = false := fun _ => rfl

/-- The output window's idleness is the negation of the second condition, at every grid coordinate. -/
theorem idle1_2_of_not (i : grid1.Coords) (h : ¬cond1_1 i) : cfg1.idle 2 i = true := by
  show (!(k1_cond2 i == 1#1)) = true
  have : (k1_cond2 i == 1#1) = false := by simpa using h
  rw [this]; rfl
theorem live1_2_of (i : grid1.Coords) (h : cond1_1 i) : cfg1.idle 2 i = false := by
  show (!(k1_cond2 i == 1#1)) = false
  have : (k1_cond2 i == 1#1) = true := by simpa using h
  rw [this]; rfl
/-- Away from the last edge block the output block is not copied back. -/
theorem noFlush1_2_of_not (t : Fin cfg1.N) (h : ¬cond1_1 (grid1.coords t)) : (cfg1.win 2).flush t = false :=
  Bool.eq_false_iff.mpr fun hf => h ((hcond1_1 t).mpr ((flush1_2 t).mp hf))

theorem idleAt1_2_A : ∀ t : Fin cfg1.N, cond1_0 (grid1.coords t) → ¬cond1_1 (grid1.coords t) → cfg1.idle 2 (grid1.coords t) = true :=
  fun t _ h => idle1_2_of_not _ h
theorem noFlush1_2_A : ∀ t : Fin cfg1.N, cond1_0 (grid1.coords t) → ¬cond1_1 (grid1.coords t) → (cfg1.win 2).flush t = false :=
  fun t _ h => noFlush1_2_of_not t h
theorem idleAt1_2_B : ∀ t : Fin cfg1.N, ¬cond1_0 (grid1.coords t) → ¬cond1_1 (grid1.coords t) → cfg1.idle 2 (grid1.coords t) = true :=
  fun t _ h => idle1_2_of_not _ h
theorem noFlush1_2_B : ∀ t : Fin cfg1.N, ¬cond1_0 (grid1.coords t) → ¬cond1_1 (grid1.coords t) → (cfg1.win 2).flush t = false :=
  fun t _ h => noFlush1_2_of_not t h
theorem liveAt1_2_C : ∀ t : Fin cfg1.N, ¬cond1_0 (grid1.coords t) → cond1_1 (grid1.coords t) → cfg1.idle 2 (grid1.coords t) = false :=
  fun t _ h => live1_2_of _ h

/-! ## The memrefs the kernel is called with -/

/-- One staging buffer of the output window, through which what a case leaves there is read back (both have the same
    shape, so the choice does not matter). -/
abbrev VO1_2 : View sig .tc .vmem S1024x128 .f32 := (Memref.whole cc1_stg2_0 : Memref sig .tc .vmem S1024x128 .f32).view
/-- Each window's current staging memref at point t and its wholeness. -/
abbrev ms1_0 (t : Fin cfg1.N) : Memref sig .tc .vmem S1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The running-sum buffer: a whole buffer of the kernel's own, passed beside the windows. -/
abbrev scM1_0 : Memref sig .tc .vmem S1024x128 .f32 := Memref.whole cc1_scratch0
/-- The same as a view: what the buffer holds is stated through it. -/
abbrev VS1_0 : View sig .tc .vmem S1024x128 .f32 := scM1_0.view

/-! ## The invariant's resources

Besides the windows' staging buffers the core has ten more local buffers: the first kernel's eight staging buffers
and its running-sum buffer, which the scatter product never touches, and the scatter product's own running-sum
buffer. The nine untouched ones travel together as one factor. -/

/-- The nine local buffers the scatter product never touches, each whole at some contents. -/
def restOthers1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f))

/-- The invariant the product starts from and ends with: the nine untouched buffers, the running-sum buffer as a memref
    owned at some contents, and the generator register at some state. -/
theorem PhiA1_eq (c : Dev nD) :
    (Pipeline.ΦA spec1 c : sProp 𝕄)
      = iprop(iprop(restOthers1 (F := F) c ∗ (∃ d, owns (c : Thread nD τ) scM1_0 fullShare d)) ∗ (∃ r, prngReg c r)) := by
  unfold Pipeline.ΦA; rw [scopedRest1_eq]; unfold restOthers1; simp only [scM1_0, owns_whole]
  refine BI.equiv_iff.mp ⟨?_, ?_⟩
  · show (_ : sProp 𝕄) ⊢ (_ : sProp 𝕄)
    iintro ⟨⟨H0, H1, H2, H3, H4, H5, H6, H7, H8, H9⟩, Hg⟩
    isplitr [Hg]
    · isplitr [H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      iexact H9
    iexact Hg
  · show (_ : sProp 𝕄) ⊢ (_ : sProp 𝕄)
    iintro ⟨⟨⟨H0, H1, H2, H3, H4, H5, H6, H7, H8⟩, H9⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg

end Cert.KernelIdeal.Hand

end
-- ==== Proof.R1RunA.lean ====
/- The scatter kernel at a point with i1 = 0 (first edge block of an output row block).

   The body clears its running-sum buffer, reads the 1024 destination words and the 1024 x 128 messages of the edge
   block, and stores into the running-sum buffer the cleared contents plus the one-hot product. The output's staging
   buffer is not touched. The stores the run meets, last first, are the witness: two whole-buffer pieces for the
   running-sum buffer, none for the output. -/
import proofs.«401368_j71373766525042_1_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves (output's staging buffer, running-sum buffer), with the proof that on whole memrefs,
    the two inputs at contents x0 and x1, the output's staging buffer at any contents xi2 (handed back as found), and
    the running-sum buffer at anything, the body runs to a continuation that gets the inputs and the output's buffer
    back unchanged and the running-sum buffer with its pieces written. -/
noncomputable def kernelRun1_A (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1x1024 .i32) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R1RunB.lean ====
/- The scatter kernel at a point with 0 < i1 < 610 (an inner edge block).

   The body reads the edge block's destination words and messages and the running sum the point before left, and
   stores the sum plus the one-hot product back into the running-sum buffer. The output's staging buffer is not
   touched. The witness: one whole-buffer piece for the running-sum buffer, none for the output. -/
import proofs.«401368_j71373766525042_1_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves (output's staging buffer, running-sum buffer), with the proof that on whole memrefs,
    the inputs at x0 and x1, the output's staging buffer at any xi2 (handed back as found) and the running-sum buffer at
    the contents xs0 the point before left, the body runs to a continuation that gets the inputs and the output's
    buffer back unchanged and the running-sum buffer with its pieces written. -/
noncomputable def kernelRun1_B (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1x1024 .i32) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R1RunC.lean ====
/- The scatter kernel at a point with i1 = 610 (last edge block of an output row block).

   The body reads the edge block's destination words and messages and the running sum the point before left, stores
   the sum plus the one-hot product back into the running-sum buffer, then reads that buffer and stores it into the
   output's staging buffer, which the pipeline copies to output row block i0. The witness: one whole-buffer piece for
   each of the two buffers. -/
import proofs.«401368_j71373766525042_1_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves (output's staging buffer, running-sum buffer), with the proof that on whole memrefs,
    the inputs at x0 and x1, the output's staging buffer at anything and the running-sum buffer at the contents xs0 the
    point before left, the body runs to a continuation that gets the inputs back unchanged and each of the other two
    buffers with its pieces written. -/
noncomputable def kernelRun1_C (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R1Frame.lean ====
/- The scatter product's loop, point by point.

   From the three cases' runs: what each case leaves in the output's staging buffer and in the running-sum buffer
   (its stores read back); the accumulation, by recursion on the point's number with the case chosen by the number
   modulo 611; the loop invariant, which carries the running-sum buffer at the accumulation's second component from one
   point to the next beside the nine buffers the product never touches; the proof data; and the body obligation at a
   generic point. Everything is stated at an arbitrary valuation V of the buffers when the product starts. -/
import proofs.«401368_j71373766525042_1_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output's staging buffer: no pieces. The value below (junk read back) is a
    placeholder nothing consults, since at these points the output block is neither copied back nor read later. -/
def out1_A_2 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1x1024 .i32) (x1 : Vec F S1024x128 .f32) : Vec F S1024x128 .f32 :=
  VO1_2.read (Elt F) (VO1_2.writes (Elt F) VO1_2.junk (kernelRun1_A c i arg2 harg2 arg3 harg3 arg4 harg4 arg5 harg5 hc0 hc1 x0 x1).1)

/-- Case A's whole-buffer stores into the running-sum buffer cover it. -/
theorem scover1_A_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1x1024 .i32) (x1 : Vec F S1024x128 .f32) (y : S1024x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x128.size (by sl_kernel_rfl) y

/-- What case A leaves in the running-sum buffer: its pieces read back. -/
def sout1_A_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1x1024 .i32) (x1 : Vec F S1024x128 .f32) : Vec F S1024x128 .f32 :=
  VS1_0.read (Elt F) (VS1_0.writes (Elt F) VS1_0.junk (kernelRun1_A c i arg2 harg2 arg3 harg3 arg4 harg4 arg5 harg5 hc0 hc1 x0 x1).2.1)

/-- Case B stores nothing into the output's staging buffer: no pieces. The value below (junk read back) is a
    placeholder nothing consults, since at these points the output block is neither copied back nor read later. -/
def out1_B_2 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1x1024 .i32) (x1 : Vec F S1024x128 .f32) (xs0 : Vec F S1024x128 .f32) : Vec F S1024x128 .f32 :=
  VO1_2.read (Elt F) (VO1_2.writes (Elt F) VO1_2.junk (kernelRun1_B c i arg2 harg2 arg3 harg3 arg4 harg4 arg5 harg5 hc0 hc1 x0 x1 xs0).1)

/-- Case B's whole-buffer stores into the running-sum buffer cover it. -/
theorem scover1_B_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1x1024 .i32) (x1 : Vec F S1024x128 .f32) (xs0 : Vec F S1024x128 .f32) (y : S1024x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x128.size (by sl_kernel_rfl) y

/-- What case B leaves in the running-sum buffer: its pieces read back. -/
def sout1_B_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1x1024 .i32) (x1 : Vec F S1024x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 hc0 hc1 x0 x1 xs0).2.1)

/-- Case C's one whole-buffer store into the output's staging buffer covers it. -/
theorem cover1_C_2 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- What case C leaves in the output's staging buffer: its pieces read back. -/
def out1_C_2 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) : Vec F S1024x128 .f32 :=
  VO1_2.read (Elt F) (VO1_2.writes (Elt F) VO1_2.junk (kernelRun1_C c i arg2 harg2 arg3 harg3 arg4 harg4 arg5 harg5 hc0 hc1 x0 x1 xs0).1)

/-- Case C's whole-buffer stores into the running-sum buffer cover it. -/
theorem scover1_C_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- What case C leaves in the running-sum buffer: its pieces read back. -/
def sout1_C_0 (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 hc0 hc1 x0 x1 xs0).2.1)

section Loop
-- the buffers' contents when the scatter product starts
variable (V : (c : Dev nD) → (b : Ref sig .tc) → Buf (Elt F) ((c : Thread nD τ).loc b))

/-! ## What the two buffers hold after each point -/

/-- THE ACCUMULATION. After the body at point n: (the output's staging buffer, the running-sum buffer). The case is
    read off n modulo 611; cases B and C start from the running sum the point before left. No point is both 0 and 610
    modulo 611. -/
def outsAt1 (c : Dev nD) : (n : ℕ) → n < cfg1.N → Vec F S1024x128 .f32 × Vec F S1024x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 611 = 0 then
      if h1 : (n + 1) % 611 = 610 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 611 = 610 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point 0 modulo 611: case A's contents. -/
theorem outsAt1_A (c : Dev nD) (t : Fin cfg1.N) (h0 : t.val % 611 = 0) (h1 : ¬t.val % 611 = 610) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point neither 0 nor 610 modulo 611: case B's contents, over what the point before left. -/
theorem outsAt1_B (c : Dev nD) (t : Fin cfg1.N) (h0 : ¬t.val % 611 = 0) (h1 : ¬t.val % 611 = 610) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point 610 modulo 611: case C's contents, over what the point before left. -/
theorem outsAt1_C (c : Dev nD) (t : Fin cfg1.N) (h0 : ¬t.val % 611 = 0) (h1 : t.val % 611 = 610) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The loop invariant before position n. Before the first point: what the product starts from, every local buffer
    at anything. Afterwards: the nine untouched buffers, the running-sum buffer at what the point before left in it,
    and the generator register at some state. -/
def PhiS1 (c : Dev nD) : (n : ℕ) → n ≤ cfg1.N → sProp 𝕄
  | 0, _ => Pipeline.ΦA spec1 c
  | n + 1, hn => iprop(iprop(restOthers1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point n: the running-sum buffer at that point's contents. -/
theorem PhiS1_succ (c : Dev nD) (n : ℕ) (hn : n < cfg1.N) :
    PhiS1 V c (n + 1) hn = iprop(iprop(restOthers1 (F := F) c ∗ owns (c : Thread nD τ) scM1_0 fullShare ((outsAt1 V c n hn).2)) ∗ (∃ r, prngReg c r)) := rfl

/-- Before a point that is not the first: the running-sum buffer at what the point before left. -/
theorem PhiS1_pos (c : Dev nD) (n : ℕ) (h : n ≤ cfg1.N) (hz : n ≠ 0) :
    PhiS1 V c n h = iprop(iprop(restOthers1 (F := F) c ∗ owns (c : Thread nD τ) scM1_0 fullShare ((outsAt1 V c (n - 1) (by omega)).2)) ∗ (∃ r, prngReg c r)) := by
  cases n with
  | zero => exact absurd rfl hz
  | succ n => rfl

/-! ## The proof data of the scatter product -/

/-- On core c: the arrays as the product finds them; after the body at point t each input's staging buffer at its
    block and the output's at the first component of the accumulation; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body at a generic point -/

/-- What the body is called with at point t: the invariant, the core owing nothing, and each window's current
    staging buffer at what it holds there. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What it returns: the invariant at the next position and each buffer at what the body leaves (an idle output's
    buffer as it was found). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's number modulo 611 says which case it
    is in; the invariant hands the body the running-sum buffer at what the point before left (at anything before the
    first point) and takes it back at this point's contents, which the case's covering stores determine; an idle
    output's buffer goes through untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 611 = 0
  · by_cases h1 : t.val % 611 = 610
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Hrest, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hrest HS0 Hg]
        · isplitl [Hrest HS0]
          · isplitl [Hrest]; · iexact Hrest
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨Hrest, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Hrest HS0 Hg]
        · isplitl [Hrest HS0]
          · isplitl [Hrest]; · iexact Hrest
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 611 = 610
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨Hrest, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [Hrest HS0 Hg]
        · isplitl [Hrest HS0]
          · isplitl [Hrest]; · iexact Hrest
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Hrest, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hrest HS0 Hg]
        · isplitl [Hrest HS0]
          · isplitl [Hrest]; · iexact Hrest
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The body obligation of the scatter product, at every point. -/
theorem body_obligation1 (c : Dev nD) : BodyObligation (dat1 (F := F) V c) (defs₀ (F := F)) Variants.none () Set.univ := fun t => by
  rw [bigSep_W1, bigSep_W1]
  exact sound_body1 V c t

/-- What the product starts from is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the starting resources back: what the running-sum buffer holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hrest, HS0⟩, Hg⟩
  isplitl [Hrest HS0]
  · isplitl [Hrest]; · iexact Hrest
    iexists _; iexact HS0
  iexact Hg

/-- In particular after the last point. -/
theorem hout1 (c : Dev nD) : (dat1 V c).Φ (Fin.last cfg1.N) ⊢ Pipeline.ΦA spec1 c :=
  Phi_out1 V c _ (by rw [Fin.val_last]; have : cfg1.N = 59878 := N_1; omega)

end Loop

end Cert.KernelIdeal.Hand

end
-- ==== Proof.Run.lean ====
/-
  The whole program as one run: the host lines and the two pallas_calls in @main's order.

  Between two items every unscoped buffer of the core is held at a named contents: the launch memory, then each
  host stretch applied, then after a call its output array at what the call's write-backs leave and every other
  buffer as it was.  Each host stretch is a segment over these contents; each call is a segment whose body
  obligation and invariant are the call's own (its running sum carried from point to point).  The run's result:
  every weakly fair execution of @main terminates, and every final memory holds each unscoped buffer at the last
  of these contents.  From it: the argument arrays end as launched, and the result array ends at the last host
  line's value of the second call's output.
-/
import proofs.«401368_j71373766525042_1_alg».proof.Proof.R0Frame
import proofs.«401368_j71373766525042_1_alg».proof.Proof.R1Frame
import proofs.«401368_j71373766525042_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- What the first call finds: the launch memory after the ten host stretches before it, read at a reference. -/
abbrev VA : (c : Dev nD) → (b : Ref sig .tc) → Buf (Elt F) ((c : Thread nD τ).loc b) := fun c b => V10 m c b

/-- After the first call: its arrays at what its write-backs leave, every other buffer as entered. -/
def W11 (c : Dev nD) : Valuation τ sig (Elt F) :=
  Pipeline.withArrays spec0 c (V10 m c) fun w => (dat0 (VA m) c).arrAt w cfg0.N
theorem W11_arr (c : Dev nD) (w : Fin cfg0.W) :
    W11 m c (Proc.devRef .tc (Pipeline.arrRef spec0 w)) = (dat0 (VA m) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m c (Proc.devRef .tc b) = V10 m c (Proc.devRef .tc b) := by
  unfold W11; exact Pipeline.withArrays_of_ne spec0 c _ _ b hb
/-- What the second call finds. -/
abbrev VB : (c : Dev nD) → (b : Ref sig .tc) → Buf (Elt F) ((c : Thread nD τ).loc b) := fun c b => W11 m c b
theorem hF0 (c : Dev nD) (w : Fin cfg0.W) : (dat0 (VA m) c).arrAt w cfg0.N = VB m c (Pipeline.arrRef spec0 w) :=
  (W11_arr m c w).symm
theorem hrest0 (c : Dev nD) : ∀ b, b ∉ Finset.univ.image (Pipeline.arrRef spec0) → VB m c b = VA m c b :=
  fun b hb => W11_of_ne m c b fun w e => hb (Finset.mem_image.mpr ⟨w, Finset.mem_univ _, e⟩)

/-- After the second call. -/
def W12 (c : Dev nD) : Valuation τ sig (Elt F) :=
  Pipeline.withArrays spec1 c (W11 m c) fun w => (dat1 (VB m) c).arrAt w cfg1.N
theorem W12_arr (c : Dev nD) (w : Fin cfg1.W) :
    W12 m c (Proc.devRef .tc (Pipeline.arrRef spec1 w)) = (dat1 (VB m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
abbrev VC : (c : Dev nD) → (b : Ref sig .tc) → Buf (Elt F) ((c : Thread nD τ).loc b) := fun c b => W12 m c b
theorem hF1 (c : Dev nD) (w : Fin cfg1.W) : (dat1 (VB m) c).arrAt w cfg1.N = VC m c (Pipeline.arrRef spec1 w) :=
  (W12_arr m c w).symm
theorem hrest1 (c : Dev nD) : ∀ b, b ∉ Finset.univ.image (Pipeline.arrRef spec1) → VC m c b = VB m c b :=
  fun b hb => W12_of_ne m c b fun w e => hb (Finset.mem_image.mpr ⟨w, Finset.mem_univ _, e⟩)

/-- After the last host line (the slice that keeps the first 100000 rows). -/
abbrev W13 (c : Dev nD) : Valuation τ sig (Elt F) := StableHlo.after hostOps2 (W12 m c)

/-- The argument array 0 reaches the end as launched: no host line writes it and neither call's output is it. -/
theorem W13_main_arg0 (c : Dev nD) : W13 m c main_arg0 = m ((c : Thread nD τ).loc main_arg0) :=
  (StableHlo.after_of_writes_sub hostOps2 _ hostOps2_writes (by decide : main_arg0 ∉ hostOps2_W)).trans <|
  (W12_of_ne m c main_arg0 (by decide)).trans <| (W11_of_ne m c main_arg0 (by decide)).trans <|
  (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

/-- The argument array 1 reaches the end as launched: no host line writes it and neither call's output is it. -/
theorem W13_main_arg1 (c : Dev nD) : W13 m c main_arg1 = m ((c : Thread nD τ).loc main_arg1) :=
  (StableHlo.after_of_writes_sub hostOps2 _ hostOps2_writes (by decide : main_arg1 ∉ hostOps2_W)).trans <|
  (W12_of_ne m c main_arg1 (by decide)).trans <| (W11_of_ne m c main_arg1 (by decide)).trans <|
  (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl

/-- The argument array 2 reaches the end as launched: no host line writes it and neither call's output is it. -/
theorem W13_main_arg2 (c : Dev nD) : W13 m c main_arg2 = m ((c : Thread nD τ).loc main_arg2) :=
  (StableHlo.after_of_writes_sub hostOps2 _ hostOps2_writes (by decide : main_arg2 ∉ hostOps2_W)).trans <|
  (W12_of_ne m c main_arg2 (by decide)).trans <| (W11_of_ne m c main_arg2 (by decide)).trans <|
  (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

/-- The argument array 3 reaches the end as launched: no host line writes it and neither call's output is it. -/
theorem W13_main_arg3 (c : Dev nD) : W13 m c main_arg3 = m ((c : Thread nD τ).loc main_arg3) :=
  (StableHlo.after_of_writes_sub hostOps2 _ hostOps2_writes (by decide : main_arg3 ∉ hostOps2_W)).trans <|
  (W12_of_ne m c main_arg3 (by decide)).trans <| (W11_of_ne m c main_arg3 (by decide)).trans <|
  (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-! ## The proof data family and the thread state -/

/-- Both calls' proof data, each at the contents its call finds: a literal match on the call's number. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped buffers from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W13 m c) ∗ ∃ r, prngReg c r)

/-! ## The calls as segments -/

-- the library's entry and exit lemmas are stated over the pinned configuration: unification may unfold plain
-- definitions in a metavariable's type
set_option backward.isDefEq.respectTransparency.types false in
/-- Call 0 as a segment: entered from every unscoped buffer at the contents before it, left with its output array
    at what its write-backs leave and every other buffer as entered. Its arrays are split out of the unscoped
    buffers and put back; the generator register goes into the invariant and comes out; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (VA m) c).Φ 0 from rfl]
    iintro ⟨Hp, -, Hr⟩
    iapply (hin0 (VA m) c)
    unfold Pipeline.ΦA
    isplitl [Hr]; · iexact Hr
    iexact Hp
  hout c := by
    rw [Pipeline.ownSems0_none, show (pdats m 0 c).Φ (Fin.last _) = (dat0 (VA m) c).Φ (Fin.last cfg0.N) from rfl]
    have hgive := hout0 (VA m) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration: unification may unfold plain
-- definitions in a metavariable's type
set_option backward.isDefEq.respectTransparency.types false in
/-- Call 1 as a segment: entered from every unscoped buffer at the contents before it, left with its output array
    at what its write-backs leave and every other buffer as entered. Its arrays are split out of the unscoped
    buffers and put back; the generator register goes into the invariant and comes out; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VB m) c).Φ 0 from rfl]
    iintro ⟨Hp, -, Hr⟩
    iapply (hin1 (VB m) c)
    unfold Pipeline.ΦA
    isplitl [Hr]; · iexact Hr
    iexact Hp
  hout c := by
    rw [Pipeline.ownSems0_none, show (pdats m 1 c).Φ (Fin.last _) = (dat1 (VB m) c).Φ (Fin.last cfg1.N) from rfl]
    have hgive := hout1 (VB m) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [
    .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .region (reg0 m),
    .region (reg1 m),
    .host (hseg hostOps2 hostOps2_sub hostOps2_fresh (W12 m)) ]

-- the kit's implicit arguments are found by unifying its conclusion with this one, which takes unfolding plain
-- definitions in a metavariable's type
set_option backward.isDefEq.respectTransparency.types false in
/-- THE RUN. From any memory with zero counters every weakly fair execution of @main terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (StableHlo.after hostOps2 (W12 m c)) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c)⟩) (run_all m ρ)

/-- THE RESULT beside the frame: the result array ends at the last boundary's contents of its buffer. -/
theorem run_result : θ_run defs (onTc (τ := τ) (main (F := F))) ⟨m, fun _ => 0, ρ⟩ (fun r => ∀ c : Dev nD,
      r.2.mem ((c.tc : Thread nD τ).loc main_v14) = W13 m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v14 (by decide)),
     (h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c)⟩) (run_all m ρ)

end Cert.KernelIdeal.Hand

end
-- ==== Proof.R0Pieces.lean ====
/-
  The first pallas_call: what each kind of point leaves, as the body's arithmetic.

  Every store of the body writes a whole buffer, and every load reads one, so the pieces a run leaves read back
  as the stored value itself: at a point of the first kind the running sum is the update applied to the cleared
  buffer; at the other points it is the update applied to what the point before left; and at a point of the third
  kind the output block is that same updated sum, loaded back and stored.
-/
import proofs.«401368_j71373766525042_1_alg».proof.Proof.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle starts at the origin. -/
theorem hz : (![0, 0] : Fin 2 → Nat) = fun _ => 0 := funext fun a => by fin_cases a <;> rfl

/-- A point of the first kind leaves the update of the cleared buffer: the clearing store is read back by the
    update's load of the running sum. -/
theorem sout0_A_eq (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .f32) :
    sout0_A_0 c i arg2 harg2 arg3 harg3 arg4 harg4 arg5 harg5 arg6 harg6 hc0 hc1 x0 x1 x2 = k0_pay2 i x0 x1 x2 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x128) hz, View.readCov_unit_zero (S := S1024x128) _ hz]
  simp only [View.readAt_eq_ld, harg2.read_unread, harg3.read_unread, harg4.read_unread, harg6.read_unread, View.ld_unit_zero (S := S1024x1) hz, View.ld_unit_zero (S := S1024x128) hz]

/-- A point of the second kind leaves the update of what the point before left. -/
theorem sout0_B_eq (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .f32) (xs0 : Vec F S1024x128 .f32) :
    sout0_B_0 c i arg2 harg2 arg3 harg3 arg4 harg4 arg5 harg5 arg6 harg6 hc0 hc1 x0 x1 x2 xs0 = k0_pay2 i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S1024x1) hz, View.ld_unit_zero (S := S1024x128) hz]

/-- So does a point of the third kind, -/
theorem sout0_C_eq (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) :
    sout0_C_0 c i arg2 harg2 arg3 harg3 arg4 harg4 arg5 harg5 arg6 harg6 hc0 hc1 x0 x1 x2 xs0 = k0_pay2 i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S1024x1) hz, View.ld_unit_zero (S := S1024x128) hz]

/-- and it stores that same sum, loaded back, into the output block. -/
theorem out0_C_eq (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .f32) (xs0 : Vec F S1024x128 .f32) :
    out0_C_3 c i arg2 harg2 arg3 harg3 arg4 harg4 arg5 harg5 arg6 harg6 hc0 hc1 x0 x1 x2 xs0 = k0_pay2 i x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1024x128) _ hz]
  simp only [View.readAt_eq_ld, harg2.read_unread, harg3.read_unread, harg4.read_unread, harg6.read_unread, View.ld_unit_zero (S := S1024x1) hz, View.ld_unit_zero (S := S1024x128) hz]

end Cert.KernelIdeal.Hand

end
-- ==== Proof.Payload.lean ====
import proofs.«401368_j71373766525042_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-!
# The two kernel bodies' stored values, read at an index

Both kernel bodies store either the zero block or the running sum plus a block product of a one-hot
matrix with a loaded block. Read at one element over the extended reals, the product is a finite sum
over the contracted coordinate; the one-hot factor is an "if" on a comparison of 32-bit words, and the
word on the iota side is the block offset plus the coordinate.
-/

noncomputable section

open scoped BigOperators

namespace Cert.KernelIdeal.Hand

open Cert.KernelIdeal Cert.KernelIdeal.Gen Idealize.ShloMosaic Idealize.ShloMosaic.ValueIdx

/-! ## Words and literals -/

/-- The f32 pattern of 1.0 denotes the extended real 1. -/
theorem ofBits_one_f32 : Ideal.ofBits .f32 0x3F800000#32 = (1 : EReal) := by
  simp [Ideal.ofBits, Ideal.ieee, -EReal.coe_mul]; norm_num

/-- Block offset times 1024 plus a coordinate, as 32-bit words: the word of the sum. -/
theorem word_affine (a n : Nat) :
    IntOp.addi (Scalar.muli (BitVec.ofNat 32 a) 1024#32) (BitVec.ofNat 32 n) = BitVec.ofNat 32 (1024 * a + n) := by
  show BitVec.ofNat 32 a * BitVec.ofNat 32 1024 + BitVec.ofNat 32 n = _
  rw [Nat.mul_comm, BitVec.ofNat_add, BitVec.ofNat_mul]

/-- Equality of words as a one-bit condition, selected on: the "if" on the equation. -/
theorem select_cmpi_eq {α : Type} (x y : BitVec 32) (A B : α) :
    Scalar.select (IntOp.cmpi .eq x y) A B = if x = y then A else B := by
  unfold Scalar.select IntOp.cmpi
  by_cases h : x = y
  · subst h
    simp
  · have hb : (x == y) = false := by simpa using h
    rw [if_neg h]
    show (if BitVec.ofBool (x == y) = 1#1 then A else B) = B
    rw [hb]
    exact if_neg (by decide)

/-! ## The zero blocks -/

theorem pay1_0 : k0_pay1 (F := Ideal) = fun _ => (0 : EReal) := by
  unfold k0_pay1
  refine (shapeCast_self _ _).trans ?_
  funext j
  exact Ideal.ofBits_zero_f32

theorem pay1_1 : k1_pay1 (F := Ideal) = fun _ => (0 : EReal) := by
  unfold k1_pay1
  refine (shapeCast_self _ _).trans ?_
  funext j
  exact Ideal.ofBits_zero_f32

/-! ## Layout operations at an index -/

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block product at an index -/

theorem lhs_0 (j : S1024x128.Idx) (k : dot_S1024x1024_S1024x128_S1024x128_1_0_0_1_n_n.contr.Idx) :
    (dot_S1024x1024_S1024x128_S1024x128_1_0_0_1_n_n.lhsIdx j k 0).val = (j 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl

theorem lhs_1 (j : S1024x128.Idx) (k : dot_S1024x1024_S1024x128_S1024x128_1_0_0_1_n_n.contr.Idx) :
    (dot_S1024x1024_S1024x128_S1024x128_1_0_0_1_n_n.lhsIdx j k 1).val = (k ⟨0, by decide⟩).val :=
  dot_S1024x1024_S1024x128_S1024x128_1_0_0_1_n_n.lhsIdx_val_of_single rfl j k

theorem rhs_0 (j : S1024x128.Idx) (k : dot_S1024x1024_S1024x128_S1024x128_1_0_0_1_n_n.contr.Idx) :
    (dot_S1024x1024_S1024x128_S1024x128_1_0_0_1_n_n.rhsIdx j k 0).val = (k ⟨0, by decide⟩).val :=
  dot_S1024x1024_S1024x128_S1024x128_1_0_0_1_n_n.rhsIdx_val_of_single rfl j k

theorem rhs_1 (j : S1024x128.Idx) (k : dot_S1024x1024_S1024x128_S1024x128_1_0_0_1_n_n.contr.Idx) :
    (dot_S1024x1024_S1024x128_S1024x128_1_0_0_1_n_n.rhsIdx j k 1).val = (j 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The block product into the zero block, at (p, q): the sum over the contracted coordinate of the
    left operand's row p times the right operand's column q. -/
theorem mm_apply {φ₁ φ₂ : FTy} (A : FVec Ideal S1024x1024 φ₁) (B : FVec Ideal S1024x128 φ₂) (p : Fin 1024) (q : Fin 128) :
    matmul dot_S1024x1024_S1024x128_S1024x128_1_0_0_1_n_n none A B (constant (F := Ideal) S1024x128 .f32 0x00000000#32) (ix2 p q)
      = ∑ n : Fin 1024, A (ix2 p n) * B (ix2 n q) := by
  simp only [matmul]
  rw [Ideal.matmul_constant_zero_apply,
    ← Equiv.sum_comp (contrEquiv1 dot_S1024x1024_S1024x128_S1024x128_1_0_0_1_n_n 1024 rfl rfl).symm]
  refine Finset.sum_congr rfl fun n _ => ?_
  have hk := contrEquiv1_symm_val dot_S1024x1024_S1024x128_S1024x128_1_0_0_1_n_n 1024 rfl rfl n
  have el : dot_S1024x1024_S1024x128_S1024x128_1_0_0_1_n_n.lhsIdx (ix2 p q)
      ((contrEquiv1 dot_S1024x1024_S1024x128_S1024x128_1_0_0_1_n_n 1024 rfl rfl).symm n) = ix2 p n :=
    funext fun a => Fin.ext (by
      match a with
      | ⟨0, _⟩ => exact lhs_0 _ _
      | ⟨1, _⟩ => exact (lhs_1 _ _).trans hk)
  have er : dot_S1024x1024_S1024x128_S1024x128_1_0_0_1_n_n.rhsIdx (ix2 p q)
      ((contrEquiv1 dot_S1024x1024_S1024x128_S1024x128_1_0_0_1_n_n 1024 rfl rfl).symm n) = ix2 n q :=
    funext fun a => Fin.ext (by
      match a with
      | ⟨0, _⟩ => exact (rhs_0 _ _).trans hk
      | ⟨1, _⟩ => exact rhs_1 _ _)
  rw [el, er]

/-! ## The two accumulating stores at an index -/

theorem pay2_0_apply (i : grid0.Coords) (v3 : Vec Ideal S1024x1 .i32) (v5 : Vec Ideal S1024x1 .f32) (v18 v21 : Vec Ideal S1024x128 .f32) (p : Fin 1024) (q : Fin 128) :
    k0_pay2 (F := Ideal) i v3 v5 v18 v21 (ix2 p q)
      = v21 (ix2 p q) + ∑ n : Fin 1024, (if v3 (ix2 p (0 : Fin 1)) = BitVec.ofNat 32 (1024 * (i 1).val + n.val) then v5 (ix2 p (0 : Fin 1)) else 0) * v18 (ix2 n q) := by
  unfold k0_pay2
  simp only [shapeCast_self]
  refine congrArg (v21 (ix2 p q) + ·) ?_
  refine (mm_apply _ _ p q).trans ?_
  refine Finset.sum_congr rfl fun n _ => ?_
  refine congrArg₂ (· * ·) ?_ rfl
  show Scalar.select (IntOp.cmpi .eq (broadcastTo S1024x1024 v3 broadcasts_S1024x1_S1024x1024 (ix2 p n))
      (IntOp.addi (Scalar.muli (BitVec.ofNat 32 (i 1).val) 1024#32) (iota .tc S1024x1024 32 [1] iota_S1024x1024_d1_w32 (ix2 p n))))
      (broadcastTo S1024x1024 v5 broadcasts_S1024x1_S1024x1024 (ix2 p n)) (Ideal.ofBits .f32 0x00000000#32) = _
  rw [broadcastTo_a1_ab_apply v3, broadcastTo_a1_ab_apply v5, iota_single_apply, Ideal.ofBits_zero_f32, select_cmpi_eq]
  show (if v3 (ix2 p (0 : Fin 1)) = IntOp.addi (Scalar.muli (BitVec.ofNat 32 (i 1).val) 1024#32) (BitVec.ofNat 32 n.val) then _ else _) = _
  rw [word_affine]

theorem pay2_1_apply (i : grid1.Coords) (v3 : Vec Ideal S1x1024 .i32) (v15 v18 : Vec Ideal S1024x128 .f32) (p : Fin 1024) (q : Fin 128) :
    k1_pay2 (F := Ideal) i v3 v15 v18 (ix2 p q)
      = v18 (ix2 p q) + ∑ e : Fin 1024, (if BitVec.ofNat 32 (1024 * (i 0).val + p.val) = v3 (ix2 (0 : Fin 1) e) then (1 : EReal) else 0) * v15 (ix2 e q) := by
  unfold k1_pay2
  simp only [shapeCast_self]
  refine congrArg (v18 (ix2 p q) + ·) ?_
  refine (mm_apply _ _ p q).trans ?_
  refine Finset.sum_congr rfl fun e _ => ?_
  refine congrArg₂ (· * ·) ?_ rfl
  show Scalar.select (IntOp.cmpi .eq
      (IntOp.addi (Scalar.muli (BitVec.ofNat 32 (i 0).val) 1024#32) (iota .tc S1024x1024 32 [0] iota_S1024x1024_d0_w32 (ix2 p e)))
      (broadcastTo S1024x1024 v3 broadcasts_S1x1024_S1024x1024 (ix2 p e)))
      (Ideal.ofBits .f32 0x3F800000#32) (Ideal.ofBits .f32 0x00000000#32) = _
  rw [broadcastTo_1b_ab_apply v3, iota_single_apply, Ideal.ofBits_zero_f32, ofBits_one_f32, select_cmpi_eq]
  show (if IntOp.addi (Scalar.muli (BitVec.ofNat 32 (i 0).val) 1024#32) (BitVec.ofNat 32 p.val) = v3 (ix2 (0 : Fin 1) e) then _ else _) = _
  rw [word_affine]

end Cert.KernelIdeal.Hand

end
-- ==== Proof.Spec.lean ====
/-
  The sparse matrix product written as plain functions of the argument arrays, over the extended reals.

  An edge list of 625000 edges gives each edge a destination row, a source row (the two rows of the integer
  array), a weight, and a mask bit that zeroes the weight when clear.  The product is
      out[r, k] = sum over the edges e with row e = r of  weight e * x[col e, k].
  Two spellings of it are stated here.

  * G: the sum over the edges whose destination word, read as a signed integer, is r, of the masked weight
    times the source row of x, the source word read signed and clamped into the table.

  * The dense spelling: the edge list padded with zero words and zero weights to 625664 edges (colP, valP,
    rowP), the table padded with zero rows to 100352 rows (xP); each padded edge's message is the sum over
    ALL table rows of an indicator (the edge's source word equals the row's number) carrying the weight, times
    the row (msgOf); each padded row's result is the sum over ALL padded edges of an indicator (the row's
    number equals the edge's destination word) times the message (outOf); and the first 100000 rows are kept
    (top).
-/
import Idealize.ShloMosaic.PureOps.Ideal
import Idealize.ShloMosaic.Lib.ValueIdx

noncomputable section

namespace Cert.Spmm

open Idealize.ShloMosaic Idealize.ShloMosaic.ValueIdx

/-- The table x: 100000 rows of 128 columns. -/
abbrev SX : Shape := ⟨2, ![100000, 128]⟩
/-- A value per edge. -/
abbrev SE : Shape := ⟨1, ![625000]⟩
/-- The two index rows: destinations, then sources. -/
abbrev SI : Shape := ⟨2, ![2, 625000]⟩
/-- A value per padded edge, as a column. -/
abbrev SEc : Shape := ⟨2, ![625664, 1]⟩
/-- A value per padded edge, as a row. -/
abbrev SEr : Shape := ⟨2, ![1, 625664]⟩
/-- The padded table. -/
abbrev SXP : Shape := ⟨2, ![100352, 128]⟩
/-- A message per padded edge. -/
abbrev SM : Shape := ⟨2, ![625664, 128]⟩

/-- An edge's weight after the mask: the weight where the bit is set, zero where it is clear. -/
def wv (ev : FVec Ideal SE .f32) (km : IVec SE 1) : FVec Ideal SE .f32 :=
  fun j => if km j = 1#1 then ev j else 0

/-- The product as a sum over the edges that land on row (i 0). -/
def G (x : FVec Ideal SX .f32) (ev : FVec Ideal SE .f32) (ei : IVec SI 32) (km : IVec SE 1) : FVec Ideal SX .f32 :=
  fun i => ∑ e ∈ Finset.univ.filter (fun e : Fin 625000 => (ei (ix2 (0 : Fin 2) e)).toInt = ((i 0).val : ℤ)),
    wv ev km (ix1 e) * x (ix2 ⟨min (ei (ix2 (1 : Fin 2) e)).toInt.toNat (100000 - 1), by omega⟩ (i 1))

/-- The source words, padded with zero words, as a column. -/
def colP (ei : IVec SI 32) : IVec SEc 32 :=
  fun j => if h : (j 0).val < 625000 then ei (ix2 (1 : Fin 2) ⟨(j 0).val, h⟩) else 0#32

/-- The masked weights, padded with zeros, as a column. -/
def valP (ev : FVec Ideal SE .f32) (km : IVec SE 1) : FVec Ideal SEc .f32 :=
  fun j => if h : (j 0).val < 625000 then wv ev km (ix1 ⟨(j 0).val, h⟩) else 0

/-- The destination words, padded with zero words, as a row. -/
def rowP (ei : IVec SI 32) : IVec SEr 32 :=
  fun j => if h : (j 1).val < 625000 then ei (ix2 (0 : Fin 2) ⟨(j 1).val, h⟩) else 0#32

/-- The table, padded with zero rows. -/
def xP (x : FVec Ideal SX .f32) : FVec Ideal SXP .f32 :=
  fun j => if h : (j 0).val < 100000 then x (ix2 ⟨(j 0).val, h⟩ (j 1)) else 0

/-- Each padded edge's message: over all padded table rows, the weight where the source word is the row's number. -/
def msgOf (colp : IVec SEc 32) (valp : FVec Ideal SEc .f32) (xp : FVec Ideal SXP .f32) : FVec Ideal SM .f32 :=
  fun j => ∑ n : Fin 100352,
    (if colp (ix2 (j 0) (0 : Fin 1)) = BitVec.ofNat 32 n.val then valp (ix2 (j 0) (0 : Fin 1)) else 0) * xp (ix2 n (j 1))

/-- Each padded row's result: over all padded edges, the message where the row's number is the destination word. -/
def outOf (rowp : IVec SEr 32) (msg : FVec Ideal SM .f32) : FVec Ideal SXP .f32 :=
  fun j => ∑ e : Fin 625664,
    (if BitVec.ofNat 32 (j 0).val = rowp (ix2 (0 : Fin 1) e) then (1 : EReal) else 0) * msg (ix2 e (j 1))

/-- The first 100000 rows of a padded result. -/
def top (o : FVec Ideal SXP .f32) : FVec Ideal SX .f32 :=
  fun i => o (ix2 ⟨(i 0).val, Nat.lt_trans (idx2_lt0 i) (by norm_num)⟩ (i 1))

end Cert.Spmm

end
-- ==== Proof.R0Value.lean ====
/-
  The first pallas_call: what it leaves in its output array, over the extended reals.

  Point t works on edge tile t / 98 and table tile t % 98.  Its blocks are rows of the padded arrays: row p of the
  source-word and weight blocks is padded edge 1024 * (t / 98) + p, row n of the table block is padded table row
  1024 * (t % 98) + n.  The body adds to the running sum, at (p, q), the sum over the tile's 1024 table rows of
  the edge's indicator term (the weight where the source word is the row's number, times the row's entry); the
  sum restarts from zero at table tile 0.  So after point t the running sum holds the terms of the first
  1024 * (t % 98 + 1) table rows, and at table tile 97 all 100352 rows are in: the block stored there is the
  block of the message array at the tile's padded edges.  Every row of the output array lies in the block of
  the last point of its edge tile, so the array ends holding the message array.
-/
import proofs.«401368_j71373766525042_1_alg».proof.Proof.R0Pieces
import proofs.«401368_j71373766525042_1_alg».proof.Proof.Payload
import proofs.«401368_j71373766525042_1_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The arrays the call reads, by their literal types -/

abbrev colA (c : Dev nD) : IVec Cert.Spmm.SEc 32 := V c main_v6
abbrev valA (c : Dev nD) : FVec Ideal Cert.Spmm.SEc .f32 := V c main_v8
abbrev xA (c : Dev nD) : FVec Ideal Cert.Spmm.SXP .f32 := V c main_v11

/-! ## Block reads -/

theorem iblk0_0_apply (c : Dev nD) (t : Fin cfg0.N) (p : Fin 1024) (k : Cert.Spmm.SEc.Idx)
    (hk0 : (k 0).val = 1024 * (t.val / 98) + p.val) (hk1 : (k 1).val = 0) :
    (iblk0 V c 0 t : Vec Ideal S1024x1 .i32) (ix2 p (0 : Fin 1)) = colA V c k := by
  unfold iblk0
  rw [View.read_apply]
  show V c main_v6 _ = V c main_v6 _
  congr 1
  funext a
  apply Fin.ext
  match a with
  | ⟨0, _⟩ =>
    show (cfg0.win 0).index t 0 * 1024 + 1 * p.val = (k 0).val
    rw [index0_0 t, hk0]
    show t.val / 98 * 1024 + 1 * p.val = _
    omega
  | ⟨1, _⟩ =>
    show (cfg0.win 0).index t 1 * 1 + 1 * 0 = (k 1).val
    rw [index0_0 t, hk1]
    rfl

theorem iblk0_1_apply (c : Dev nD) (t : Fin cfg0.N) (p : Fin 1024) (k : Cert.Spmm.SEc.Idx)
    (hk0 : (k 0).val = 1024 * (t.val / 98) + p.val) (hk1 : (k 1).val = 0) :
    (iblk0 V c 1 t : Vec Ideal S1024x1 .f32) (ix2 p (0 : Fin 1)) = valA V c k := by
  unfold iblk0
  rw [View.read_apply]
  show V c main_v8 _ = V c main_v8 _
  congr 1
  funext a
  apply Fin.ext
  match a with
  | ⟨0, _⟩ =>
    show (cfg0.win 1).index t 0 * 1024 + 1 * p.val = (k 0).val
    rw [index0_1 t, hk0]
    show t.val / 98 * 1024 + 1 * p.val = _
    omega
  | ⟨1, _⟩ =>
    show (cfg0.win 1).index t 1 * 1 + 1 * 0 = (k 1).val
    rw [index0_1 t, hk1]
    rfl

theorem iblk0_2_apply (c : Dev nD) (t : Fin cfg0.N) (n : Fin 1024) (q : Fin 128) (k : Cert.Spmm.SXP.Idx)
    (hk0 : (k 0).val = 1024 * (t.val % 98) + n.val) (hk1 : (k 1).val = q.val) :
    (iblk0 V c 2 t : Vec Ideal S1024x128 .f32) (ix2 n q) = xA V c k := by
  unfold iblk0
  rw [View.read_apply]
  show V c main_v11 _ = V c main_v11 _
  congr 1
  funext a
  apply Fin.ext
  match a with
  | ⟨0, _⟩ =>
    show (cfg0.win 2).index t 0 * 1024 + 1 * n.val = (k 0).val
    rw [index0_2 t, hk0]
    show t.val % 98 * 1024 + 1 * n.val = _
    omega
  | ⟨1, _⟩ =>
    show (cfg0.win 2).index t 1 * 128 + 1 * q.val = (k 1).val
    rw [index0_2 t, hk1]
    show 0 * 128 + 1 * q.val = _
    omega

/-- An array of the output's shape read through the output window's block at point t. -/
theorem blk3_read_apply (t : Fin cfg0.N) (G : Cert.Spmm.SM.Idx → EReal) (p : Fin 1024) (q : Fin 128)
    (k : Cert.Spmm.SM.Idx) (hk0 : (k 0).val = 1024 * (t.val / 98) + p.val) (hk1 : (k 1).val = q.val) :
    (((cfg0.win 3).blk t).view.read (Elt Ideal) G : Vec Ideal S1024x128 .f32) (ix2 p q) = G k := by
  rw [View.read_apply]
  show G _ = G _
  congr 1
  funext a
  apply Fin.ext
  match a with
  | ⟨0, _⟩ =>
    show (cfg0.win 3).index t 0 * 1024 + 1 * p.val = (k 0).val
    rw [index0_3 t, hk0]
    show t.val / 98 * 1024 + 1 * p.val = _
    omega
  | ⟨1, _⟩ =>
    show (cfg0.win 3).index t 1 * 128 + 1 * q.val = (k 1).val
    rw [index0_3 t, hk1]
    show 0 * 128 + 1 * q.val = _
    omega

/-! ## One padded edge's message, table row by table row -/

/-- The padded edge that row p of the block at point t holds. -/
def eIdx (t : Fin cfg0.N) (p : Fin 1024) : Fin 625664 :=
  ⟨1024 * (t.val / 98) + p.val, by have := lt0 t; have := p.isLt; omega⟩

/-- Padded edge e's term at table row r and column q: the weight where the source word is r, times the row;
    zero beyond the padded table. -/
def term (c : Dev nD) (e : Fin 625664) (q : Fin 128) (r : ℕ) : EReal :=
  if h : r < 100352 then
    (if colA V c (ix2 e (0 : Fin 1)) = BitVec.ofNat 32 r then valA V c (ix2 e (0 : Fin 1)) else 0) * xA V c (ix2 ⟨r, h⟩ q)
  else 0

/-- The message is the sum of the terms over all padded table rows. -/
theorem msgOf_apply (c : Dev nD) (e : Fin 625664) (q : Fin 128) :
    Cert.Spmm.msgOf (colA V c) (valA V c) (xA V c) (ix2 e q) = ∑ r ∈ Finset.range 100352, term V c e q r := by
  rw [Finset.sum_range]
  unfold Cert.Spmm.msgOf
  refine Finset.sum_congr rfl fun n _ => ?_
  unfold term
  rw [dif_pos n.isLt]

/-- The first 1024 * j rows, then the next 1024. -/
theorem sum_tiles (f : ℕ → EReal) (j : ℕ) :
    ∑ r ∈ Finset.range (1024 * j), f r + ∑ r ∈ Finset.range 1024, f (1024 * j + r) = ∑ r ∈ Finset.range (1024 * (j + 1)), f r := by
  rw [Nat.mul_succ, Finset.sum_range_add]

/-- What the body stores at point t, at (p, q): what the running sum held there plus the terms of table tile t % 98. -/
theorem pay_at (c : Dev nD) (t : Fin cfg0.N) (xs : Vec Ideal S1024x128 .f32) (p : Fin 1024) (q : Fin 128) :
    k0_pay2 (F := Ideal) (grid0.coords t) (iblk0 V c 0 t) (iblk0 V c 1 t) (iblk0 V c 2 t) xs (ix2 p q)
      = xs (ix2 p q) + ∑ r ∈ Finset.range 1024, term V c (eIdx t p) q (1024 * (t.val % 98) + r) := by
  refine (pay2_0_apply (grid0.coords t) (iblk0 V c 0 t) (iblk0 V c 1 t) (iblk0 V c 2 t) xs p q).trans ?_
  refine congrArg (xs (ix2 p q) + ·) ?_
  rw [Finset.sum_range]
  refine Finset.sum_congr rfl fun n _ => ?_
  have hn := n.isLt
  have hlt : 1024 * (t.val % 98) + n.val < 100352 := by omega
  unfold term
  rw [dif_pos hlt, coords0_1 t,
    iblk0_0_apply V c t p (ix2 (eIdx t p) (0 : Fin 1)) rfl rfl,
    iblk0_1_apply V c t p (ix2 (eIdx t p) (0 : Fin 1)) rfl rfl,
    iblk0_2_apply V c t n q (ix2 ⟨1024 * (t.val % 98) + n.val, hlt⟩ q) rfl rfl]

/-! ## The running sum after each point -/

/-- At the first table tile the running sum restarts: it holds that tile's terms. -/
theorem acc_first (c : Dev nD) (t : Fin cfg0.N) (h0 : t.val % 98 = 0) (p : Fin 1024) (q : Fin 128) :
    (outsAt0 V c t.val t.isLt).2 (ix2 p q) = ∑ r ∈ Finset.range (1024 * (t.val % 98 + 1)), term V c (eIdx t p) q r := by
  rw [outsAt0_A V c t h0 (by omega)]
  dsimp only
  rw [sout0_A_eq, pay_at V c t _ p q, pay1_0, h0]
  show (0 : EReal) + ∑ r ∈ Finset.range 1024, term V c (eIdx t p) q (1024 * 0 + r) = ∑ r ∈ Finset.range (1024 * (0 + 1)), term V c (eIdx t p) q r
  rw [zero_add]
  refine Finset.sum_congr rfl fun r _ => ?_
  rw [Nat.mul_zero, Nat.zero_add]

/-- At a later table tile it adds that tile's terms to what the point before left. -/
theorem acc_step (c : Dev nD) (t : Fin cfg0.N) (h0 : ¬t.val % 98 = 0)
    (IH : ∀ (h : t.val - 1 < cfg0.N) (p : Fin 1024) (q : Fin 128),
      (outsAt0 V c (t.val - 1) h).2 (ix2 p q)
        = ∑ r ∈ Finset.range (1024 * ((t.val - 1) % 98 + 1)), term V c (eIdx ⟨t.val - 1, h⟩ p) q r)
    (p : Fin 1024) (q : Fin 128) :
    (outsAt0 V c t.val t.isLt).2 (ix2 p q) = ∑ r ∈ Finset.range (1024 * (t.val % 98 + 1)), term V c (eIdx t p) q r := by
  have e1 : (t.val - 1) % 98 + 1 = t.val % 98 := by omega
  have e2 : ∀ h : t.val - 1 < cfg0.N, eIdx ⟨t.val - 1, h⟩ p = eIdx t p := fun h =>
    Fin.ext (by show 1024 * ((t.val - 1) / 98) + p.val = 1024 * (t.val / 98) + p.val; omega)
  by_cases h1 : t.val % 98 = 97
  · rw [outsAt0_C V c t h0 h1]
    dsimp only
    rw [sout0_C_eq, pay_at V c t _ p q, IH _ p q, e1, e2]
    exact sum_tiles _ _
  · rw [outsAt0_B V c t h0 h1]
    dsimp only
    rw [sout0_B_eq, pay_at V c t _ p q, IH _ p q, e1, e2]
    exact sum_tiles _ _

/-- After point n the running sum holds, at (p, q), the terms of the table rows of the tiles walked so far in
    the point's edge tile. -/
theorem acc_eq (c : Dev nD) : ∀ (n : ℕ) (hn : n < cfg0.N) (p : Fin 1024) (q : Fin 128),
    (outsAt0 V c n hn).2 (ix2 p q) = ∑ r ∈ Finset.range (1024 * (n % 98 + 1)), term V c (eIdx ⟨n, hn⟩ p) q r
  | 0, hn, p, q => acc_first V c ⟨0, hn⟩ rfl p q
  | n + 1, hn, p, q => by
    by_cases h0 : (n + 1) % 98 = 0
    · exact acc_first V c ⟨n + 1, hn⟩ h0 p q
    · exact acc_step V c ⟨n + 1, hn⟩ h0 (fun h p q => acc_eq c n h p q) p q

/-- At the last table tile the block stored into the output is the message of the block's padded edges. -/
theorem out_last (c : Dev nD) (t : Fin cfg0.N) (h1 : t.val % 98 = 97) (p : Fin 1024) (q : Fin 128) :
    (outsAt0 V c t.val t.isLt).1 (ix2 p q)
      = Cert.Spmm.msgOf (colA V c) (valA V c) (xA V c) (ix2 (eIdx t p) q) := by
  have e1 : (t.val - 1) % 98 + 1 = 97 := by omega
  have e2 : ∀ h : t.val - 1 < cfg0.N, eIdx ⟨t.val - 1, h⟩ p = eIdx t p := fun h =>
    Fin.ext (by show 1024 * ((t.val - 1) / 98) + p.val = 1024 * (t.val / 98) + p.val; omega)
  rw [outsAt0_C V c t (by omega) h1]
  dsimp only
  rw [out0_C_eq, pay_at V c t _ p q, acc_eq V c _ _ p q, e1, e2, h1, msgOf_apply]
  exact sum_tiles _ 97

/-! ## The output array after the call -/

/-- What a flushing point writes back is its block of the message array. -/
theorem flushed0_3_eq (c : Dev nD) (t : Fin cfg0.N) (hf : (cfg0.win 3).flush t = true) :
    (dat0 V c).flushed 3 t
      = ((cfg0.win 3).blk t).view.read (Elt Ideal) (Cert.Spmm.msgOf (colA V c) (valA V c) (xA V c)) := by
  have h97 : t.val % 98 = 97 := (flush0_3 t).mp hf
  show (cfg0.win 3).cut (grid0.coords t) ((dat0 V c).after 3 t) = _
  rw [after0_3]
  refine funext fun (j : S1024x128.Idx) => ?_
  obtain ⟨p, q, rfl⟩ : ∃ (p : Fin 1024) (q : Fin 128), j = ix2 p q := ⟨j 0, j 1, eq_ix2 j⟩
  show (outsAt0 V c t.val t.isLt).1 (ix2 p q) = _
  rw [out_last V c t h97 p q]
  exact (blk3_read_apply t _ p q (ix2 (eIdx t p) q) rfl rfl).symm

/-- Every row of the output array lies in the block of the last point of its edge tile. -/
theorem cover0_3 (i : Cert.Spmm.SM.Idx) :
    ∃ t : Fin cfg0.N, (cfg0.win 3).flush t = true ∧ i ∈ ((cfg0.win 3).blk t).view.set := by
  have h0 : (i 0).val < 625664 := (i 0).isLt
  have h1 : (i 1).val < 128 := (i 1).isLt
  have hN : grid0.N = 59878 := N_0
  have hlt : 98 * ((i 0).val / 1024) + 97 < grid0.N := by omega
  refine ⟨⟨98 * ((i 0).val / 1024) + 97, hlt⟩, (flush0_3 _).mpr (by show (98 * ((i 0).val / 1024) + 97) % 98 = 97; omega), ?_⟩
  show i ∈ ((View.whole main_v12).slice ((cfg0.win 3).rect ⟨98 * ((i 0).val / 1024) + 97, hlt⟩)).set
  rw [View.set_slice_whole, Rect.mem_set_unit]
  intro a
  match a with
  | ⟨0, _⟩ =>
    show (cfg0.win 3).index ⟨98 * ((i 0).val / 1024) + 97, hlt⟩ 0 * 1024 ≤ (i 0).val
      ∧ (i 0).val < (cfg0.win 3).index ⟨98 * ((i 0).val / 1024) + 97, hlt⟩ 0 * 1024 + 1024
    rw [index0_3]
    show (98 * ((i 0).val / 1024) + 97) / 98 * 1024 ≤ (i 0).val ∧ (i 0).val < (98 * ((i 0).val / 1024) + 97) / 98 * 1024 + 1024
    omega
  | ⟨1, _⟩ =>
    show (cfg0.win 3).index ⟨98 * ((i 0).val / 1024) + 97, hlt⟩ 1 * 128 ≤ (i 1).val
      ∧ (i 1).val < (cfg0.win 3).index ⟨98 * ((i 0).val / 1024) + 97, hlt⟩ 1 * 128 + 128
    rw [index0_3]
    show 0 * 128 ≤ (i 1).val ∧ (i 1).val < 0 * 128 + 128
    omega

/-- The first call leaves the message array in its output. -/
theorem arr0 (V : (c : Dev nD) → (b : Ref sig .tc) → Buf (Elt Ideal) ((c : Thread nD τ).loc b)) (c : Dev nD) :
    (dat0 (F := Ideal) V c).arrAt 3 cfg0.N
      = Cert.Spmm.msgOf (V c main_v6 : IVec Cert.Spmm.SEc 32) (V c main_v8 : FVec Ideal Cert.Spmm.SEc .f32) (V c main_v11 : FVec Ideal Cert.Spmm.SXP .f32) :=
  (dat0 V c).arrAt_eq_of_cover 3 _ (flushed0_3_eq V c) fun i => cover0_3 i

end Cert.KernelIdeal.Hand

end
-- ==== Proof.R1Pieces.lean ====
/- The scatter kernel's stores read as its arithmetic.

   Every load and store of the body goes through the whole buffer (the rectangle at offsets zero of the buffer's own
   sizes), so a load reads the buffer's contents, one covering store leaves its payload, and a load after such a store
   reads that payload. Hence the running sum after a point is k1_pay2 of the edge block's destination words, of its
   messages and of the running sum before (the zero block k1_pay1 when i1 = 0), and at i1 = 610 the output block is
   that same value. -/
import proofs.«401368_j71373766525042_1_alg».proof.Proof.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: zero on both axes. -/
theorem hz1 : (![0, 0] : Fin 2 → Nat) = fun _ => 0 := funext fun a => by fin_cases a <;> rfl

/-- At i1 = 0 the running sum becomes the zero block plus the edge block's one-hot product: the clearing store is
    read back by the update's load. -/
theorem sout1_A_eq (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1x1024 .i32) (x1 : Vec F S1024x128 .f32) :
    sout1_A_0 c i arg2 harg2 arg3 harg3 arg4 harg4 arg5 harg5 hc0 hc1 x0 x1 = k1_pay2 i x0 x1 k1_pay1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S1024x128) hz1, View.readCov_unit_zero (S := S1024x128) _ hz1]
  simp only [View.readAt_eq_ld, harg2.read_unread, harg3.read_unread, harg5.read_unread, View.readCov_unit_zero (S := S1024x128) _ hz1, View.ld_unit_zero (S := S1x1024) hz1, View.ld_unit_zero (S := S1024x128) hz1]

/-- At 0 < i1 < 610 the running sum becomes what the point before left plus the edge block's one-hot product. -/
theorem sout1_B_eq (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1x1024 .i32) (x1 : Vec F S1024x128 .f32) (xs0 : Vec F S1024x128 .f32) :
    sout1_B_0 c i arg2 harg2 arg3 harg3 arg4 harg4 arg5 harg5 hc0 hc1 x0 x1 xs0 = k1_pay2 i x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero (S := S1024x128) hz1]
  simp only [View.readAt_eq_ld, harg2.read_unread, harg3.read_unread, harg5.read_unread, View.readCov_unit_zero (S := S1024x128) _ hz1, View.ld_unit_zero (S := S1x1024) hz1, View.ld_unit_zero (S := S1024x128) hz1]

/-- The same at i1 = 610, -/
theorem sout1_C_eq (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) :
    sout1_C_0 c i arg2 harg2 arg3 harg3 arg4 harg4 arg5 harg5 hc0 hc1 x0 x1 xs0 = k1_pay2 i x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero (S := S1024x128) hz1]
  simp only [View.readAt_eq_ld, harg2.read_unread, harg3.read_unread, harg5.read_unread, View.readCov_unit_zero (S := S1024x128) _ hz1, View.ld_unit_zero (S := S1x1024) hz1, View.ld_unit_zero (S := S1024x128) hz1]

/-- where the output block is that same value: the body reads the running-sum buffer back after the update and stores
    what it read. -/
theorem out1_C_eq (c : Dev nD) (i : grid1.Coords) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1x1024 .i32) (x1 : Vec F S1024x128 .f32) (xs0 : Vec F S1024x128 .f32) :
    out1_C_2 c i arg2 harg2 arg3 harg3 arg4 harg4 arg5 harg5 hc0 hc1 x0 x1 xs0 = k1_pay2 i x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero (S := S1024x128) hz1, View.readCov_unit_zero (S := S1024x128) _ hz1]
  simp only [View.readAt_eq_ld, harg2.read_unread, harg3.read_unread, harg5.read_unread, View.readCov_unit_zero (S := S1024x128) _ hz1, View.ld_unit_zero (S := S1x1024) hz1, View.ld_unit_zero (S := S1024x128) hz1]

end Cert.KernelIdeal.Hand

end
-- ==== Proof.R1Value.lean ====
/- What the scatter product leaves in its output array, over the extended reals.

   Point t of the product's grid works on output row block a = t / 611 and edge block j = t % 611. Its words block is
   the destination words of padded edges 1024 j .. 1024 j + 1023 and its messages block their messages, so the body
   adds to the running sum, at row p and column q of the block, the sum over those 1024 edges e of
   [word e = 1024 a + p] * message e q, and the running sum restarts from zero at j = 0. By induction on the point the
   running sum after point t is therefore the same sum over the first 1024 (j + 1) padded edges. At j = 610 these are
   all 625664 padded edges, and the block stored into the output array is rows 1024 a .. 1024 a + 1023 of the
   specification's dense scatter sum. The 98 blocks written at the points 611 a + 610 tile the array. -/
import proofs.«401368_j71373766525042_1_alg».proof.Proof.R1Pieces
import proofs.«401368_j71373766525042_1_alg».proof.Proof.Payload
import proofs.«401368_j71373766525042_1_alg».proof.Proof.Spec
import Idealize.ShloMosaic.Lib.Pipeline.Value
import Mathlib.Algebra.BigOperators.Fin

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the buffers' contents when the scatter product starts
variable (V : (c : Dev nD) → (b : Ref sig .tc) → Buf (Elt Ideal) ((c : Thread nD τ).loc b))

/-! ## The arrays and the blocks, at their literal types -/

/-- The padded edges' destination words, a row of 625664 words. -/
abbrev rowArr1 (c : Dev nD) : IVec S1x625664 32 := V c main_v10
/-- The padded edges' messages, 625664 rows of 128 columns. -/
abbrev msgArr1 (c : Dev nD) : FVec Ideal S625664x128 .f32 := V c main_v12
/-- The words block of point t. -/
abbrev wblk1 (c : Dev nD) (t : Fin cfg1.N) : Vec Ideal S1x1024 .i32 := iblk1 V c 0 t
/-- The messages block of point t. -/
abbrev mblk1 (c : Dev nD) (t : Fin cfg1.N) : Vec Ideal S1024x128 .f32 := iblk1 V c 1 t

/-- An entry of the words block is the word of the array at column 1024 (t % 611) + its column. -/
theorem wblk1_at (c : Dev nD) (t : Fin cfg1.N) (x : S1x1024.Idx) (k : S1x625664.Idx)
    (hk0 : (k 0).val = (x 0).val) (hk1 : (k 1).val = 1024 * (t.val % 611) + (x 1).val) :
    wblk1 V c t x = rowArr1 V c k := by
  have i0 : win1_0.index t 0 = 0 := congrFun (index1_0 t) 0
  have i1 : win1_0.index t 1 = t.val % 611 := congrFun (index1_0 t) 1
  unfold wblk1 rowArr1 iblk1
  rw [View.read_apply]
  show V c main_v10 _ = V c main_v10 _
  congr 1
  funext a
  apply Fin.ext
  match a with
  | ⟨0, _⟩ => show win1_0.index t 0 * 1 + 1 * (x 0).val = (k 0).val; rw [i0, hk0]; omega
  | ⟨1, _⟩ => show win1_0.index t 1 * 1024 + 1 * (x 1).val = (k 1).val; rw [i1, hk1]; omega

/-- An entry of the messages block is the message of the array at row 1024 (t % 611) + its row, same column. -/
theorem mblk1_at (c : Dev nD) (t : Fin cfg1.N) (x : S1024x128.Idx) (k : S625664x128.Idx)
    (hk0 : (k 0).val = 1024 * (t.val % 611) + (x 0).val) (hk1 : (k 1).val = (x 1).val) :
    mblk1 V c t x = msgArr1 V c k := by
  have i0 : win1_1.index t 0 = t.val % 611 := congrFun (index1_1 t) 0
  have i1 : win1_1.index t 1 = 0 := congrFun (index1_1 t) 1
  unfold mblk1 msgArr1 iblk1
  rw [View.read_apply]
  show V c main_v12 _ = V c main_v12 _
  congr 1
  funext a
  apply Fin.ext
  match a with
  | ⟨0, _⟩ => show win1_1.index t 0 * 1024 + 1 * (x 0).val = (k 0).val; rw [i0, hk0]; omega
  | ⟨1, _⟩ => show win1_1.index t 1 * 128 + 1 * (x 1).val = (k 1).val; rw [i1, hk1]; omega

/-! ## One edge's contribution, and the step of the running sum -/

/-- Padded edge n's contribution to padded row r, column q: its message where its destination word is r's word;
    zero beyond the padded edge list. -/
def term1 (c : Dev nD) (r : ℕ) (q : Fin 128) (n : ℕ) : EReal :=
  if h : n < 625664 then
    (if BitVec.ofNat 32 r = rowArr1 V c (ix2 (0 : Fin 1) ⟨n, h⟩) then (1 : EReal) else 0) * msgArr1 V c (ix2 ⟨n, h⟩ q)
  else 0

/-- A sum over the first 1024 (j + 1) naturals is the sum over the first 1024 j plus the next 1024. -/
theorem range_step1 (f : ℕ → EReal) (j : ℕ) :
    ∑ k ∈ Finset.range (1024 * (j + 1)), f k = ∑ k ∈ Finset.range (1024 * j), f k + ∑ e : Fin 1024, f (1024 * j + e.val) := by
  rw [show 1024 * (j + 1) = 1024 * j + 1024 from by ring, Finset.sum_range_add]
  exact congrArg (∑ k ∈ Finset.range (1024 * j), f k + ·) (Finset.sum_range fun x => f (1024 * j + x))

/-- The body's store at point t, at (p, q): what the running sum held plus the contributions of the point's 1024
    edges to row 1024 (t / 611) + p. -/
theorem step1_apply (c : Dev nD) (t : Fin cfg1.N) (acc : Vec Ideal S1024x128 .f32) (p : Fin 1024) (q : Fin 128) :
    k1_pay2 (F := Ideal) (grid1.coords t) (wblk1 V c t) (mblk1 V c t) acc (ix2 p q)
      = acc (ix2 p q) + ∑ e : Fin 1024, term1 V c (1024 * (t.val / 611) + p.val) q (1024 * (t.val % 611) + e.val) := by
  refine (pay2_1_apply (grid1.coords t) (wblk1 V c t) (mblk1 V c t) acc p q).trans ?_
  refine congrArg (acc (ix2 p q) + ·) (Finset.sum_congr rfl fun e _ => ?_)
  have hlt : 1024 * (t.val % 611) + e.val < 625664 := by have := e.isLt; omega
  unfold term1
  rw [dif_pos hlt, coords1_0 t,
    wblk1_at V c t (ix2 (0 : Fin 1) e) (ix2 (0 : Fin 1) ⟨1024 * (t.val % 611) + e.val, hlt⟩) rfl rfl,
    mblk1_at V c t (ix2 e q) (ix2 ⟨1024 * (t.val % 611) + e.val, hlt⟩ q) rfl rfl]

/-- If the running sum holds the first 1024 (t % 611) edges' contributions, the store holds the first
    1024 (t % 611 + 1). -/
theorem step1_sum (c : Dev nD) (t : Fin cfg1.N) (acc : Vec Ideal S1024x128 .f32) (p : Fin 1024) (q : Fin 128)
    (hacc : acc (ix2 p q) = ∑ k ∈ Finset.range (1024 * (t.val % 611)), term1 V c (1024 * (t.val / 611) + p.val) q k) :
    k1_pay2 (F := Ideal) (grid1.coords t) (wblk1 V c t) (mblk1 V c t) acc (ix2 p q)
      = ∑ k ∈ Finset.range (1024 * (t.val % 611 + 1)), term1 V c (1024 * (t.val / 611) + p.val) q k := by
  rw [step1_apply, hacc, range_step1]

/-! ## The running sum after each point -/

theorem acc1_A (c : Dev nD) (t : Fin cfg1.N) (h0 : t.val % 611 = 0) (h1 : ¬t.val % 611 = 610) :
    (outsAt1 V c t.val t.isLt).2 = k1_pay2 (grid1.coords t) (wblk1 V c t) (mblk1 V c t) (k1_pay1 (F := Ideal)) := by
  rw [outsAt1_A V c t h0 h1]
  dsimp only
  exact sout1_A_eq (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)

theorem acc1_B (c : Dev nD) (t : Fin cfg1.N) (h0 : ¬t.val % 611 = 0) (h1 : ¬t.val % 611 = 610) :
    (outsAt1 V c t.val t.isLt).2 = k1_pay2 (grid1.coords t) (wblk1 V c t) (mblk1 V c t)
      (outsAt1 V c (t.val - 1) (Nat.lt_of_le_of_lt (Nat.sub_le _ _) t.isLt)).2 := by
  rw [outsAt1_B V c t h0 h1]
  dsimp only
  exact sout1_B_eq (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t)
    (outsAt1 V c (t.val - 1) (Nat.lt_of_le_of_lt (Nat.sub_le _ _) t.isLt)).2

theorem acc1_C (c : Dev nD) (t : Fin cfg1.N) (h0 : ¬t.val % 611 = 0) (h1 : t.val % 611 = 610) :
    (outsAt1 V c t.val t.isLt).2 = k1_pay2 (grid1.coords t) (wblk1 V c t) (mblk1 V c t)
      (outsAt1 V c (t.val - 1) (Nat.lt_of_le_of_lt (Nat.sub_le _ _) t.isLt)).2 := by
  rw [outsAt1_C V c t h0 h1]
  dsimp only
  exact sout1_C_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t)
    (outsAt1 V c (t.val - 1) (Nat.lt_of_le_of_lt (Nat.sub_le _ _) t.isLt)).2

/-- At a point 610 modulo 611 the block stored for the output is the running sum just computed. -/
theorem out1_C (c : Dev nD) (t : Fin cfg1.N) (h0 : ¬t.val % 611 = 0) (h1 : t.val % 611 = 610) :
    (outsAt1 V c t.val t.isLt).1 = k1_pay2 (grid1.coords t) (wblk1 V c t) (mblk1 V c t)
      (outsAt1 V c (t.val - 1) (Nat.lt_of_le_of_lt (Nat.sub_le _ _) t.isLt)).2 := by
  rw [outsAt1_C V c t h0 h1]
  dsimp only
  exact out1_C_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t)
    (outsAt1 V c (t.val - 1) (Nat.lt_of_le_of_lt (Nat.sub_le _ _) t.isLt)).2

/-- THE INVARIANT. After point n the running sum at (p, q) is the contributions of the first 1024 (n % 611 + 1) padded
    edges to row 1024 (n / 611) + p. -/
theorem runSum1 (c : Dev nD) : ∀ (n : ℕ) (h : n < cfg1.N) (p : Fin 1024) (q : Fin 128),
    (outsAt1 V c n h).2 (ix2 p q)
      = ∑ k ∈ Finset.range (1024 * (n % 611 + 1)), term1 V c (1024 * (n / 611) + p.val) q k := by
  intro n
  induction n with
  | zero =>
    intro h p q
    refine (congrFun (acc1_A V c ⟨0, h⟩ (Nat.zero_mod _) (by show ¬0 % 611 = 610; decide)) (ix2 p q)).trans ?_
    refine step1_sum V c ⟨0, h⟩ _ p q ?_
    rw [pay1_1]
    show (0 : EReal) = ∑ k ∈ Finset.range (1024 * (0 % 611)), _
    rw [Nat.zero_mod, Nat.mul_zero, Finset.sum_range_zero]
  | succ n ih =>
    intro h p q
    by_cases h0 : (n + 1) % 611 = 0
    · have h1 : ¬(n + 1) % 611 = 610 := by omega
      refine (congrFun (acc1_A V c ⟨n + 1, h⟩ h0 h1) (ix2 p q)).trans ?_
      refine step1_sum V c ⟨n + 1, h⟩ _ p q ?_
      rw [pay1_1]
      show (0 : EReal) = ∑ k ∈ Finset.range (1024 * ((n + 1) % 611)), _
      rw [h0, Nat.mul_zero, Finset.sum_range_zero]
    · have hprev := ih (Nat.lt_of_succ_lt h) p q
      have a1 : n % 611 + 1 = (n + 1) % 611 := by omega
      have a2 : n / 611 = (n + 1) / 611 := by omega
      rw [a1, a2] at hprev
      by_cases h1 : (n + 1) % 611 = 610
      · refine (congrFun (acc1_C V c ⟨n + 1, h⟩ h0 h1) (ix2 p q)).trans ?_
        exact step1_sum V c ⟨n + 1, h⟩ _ p q hprev
      · refine (congrFun (acc1_B V c ⟨n + 1, h⟩ h0 h1) (ix2 p q)).trans ?_
        exact step1_sum V c ⟨n + 1, h⟩ _ p q hprev

/-! ## The block written back, and the array -/

/-- All padded edges' contributions to a padded row are the specification's scatter sum there. -/
theorem sum_term1 (c : Dev nD) (r : Fin 100352) (q : Fin 128) :
    ∑ k ∈ Finset.range 625664, term1 V c r.val q k = Cert.Spmm.outOf (rowArr1 V c) (msgArr1 V c) (ix2 r q) := by
  rw [Finset.sum_range]
  show _ = ∑ e : Fin 625664, (if BitVec.ofNat 32 r.val = rowArr1 V c (ix2 (0 : Fin 1) e) then (1 : EReal) else 0) * msgArr1 V c (ix2 e q)
  refine Finset.sum_congr rfl fun e _ => ?_
  unfold term1
  rw [dif_pos e.isLt]

/-- The block stored for the output at a point 610 modulo 611, at (p, q): the scatter sum at row 1024 (t / 611) + p. -/
theorem outBlock1 (c : Dev nD) (t : Fin cfg1.N) (h1 : t.val % 611 = 610) (p : Fin 1024) (q : Fin 128)
    (hr : 1024 * (t.val / 611) + p.val < 100352) :
    (outsAt1 V c t.val t.isLt).1 (ix2 p q)
      = Cert.Spmm.outOf (rowArr1 V c) (msgArr1 V c) (ix2 ⟨1024 * (t.val / 611) + p.val, hr⟩ q) := by
  have h0 : ¬t.val % 611 = 0 := by omega
  have e2 := runSum1 V c t.val t.isLt p q
  rw [acc1_C V c t h0 h1] at e2
  rw [out1_C V c t h0 h1, e2, h1]
  exact sum_term1 V c ⟨1024 * (t.val / 611) + p.val, hr⟩ q

/-- An array of the output's shape read through the output window's block at point t: entry (p, q) of the block is
    the array's entry at row 1024 (t / 611) + p, column q. -/
theorem blk2_read_apply (t : Fin cfg1.N) (G : S100352x128.Idx → EReal) (p : Fin 1024) (q : Fin 128)
    (k : S100352x128.Idx) (hk0 : (k 0).val = 1024 * (t.val / 611) + p.val) (hk1 : (k 1).val = q.val) :
    (((cfg1.win 2).blk t).view.read (Elt Ideal) G : Vec Ideal S1024x128 .f32) (ix2 p q) = G k := by
  have i0 : win1_2.index t 0 = t.val / 611 := congrFun (index1_2 t) 0
  have i1 : win1_2.index t 1 = 0 := congrFun (index1_2 t) 1
  rw [View.read_apply]
  show G _ = G _
  congr 1
  funext a
  apply Fin.ext
  match a with
  | ⟨0, _⟩ => show win1_2.index t 0 * 1024 + 1 * p.val = (k 0).val; rw [i0, hk0]; omega
  | ⟨1, _⟩ => show win1_2.index t 1 * 128 + 1 * q.val = (k 1).val; rw [i1, hk1]; omega

/-- WHAT A WRITING POINT WRITES BACK is its block of the specification's scatter sum. -/
theorem flushed1_eq (c : Dev nD) (t : Fin cfg1.N) (hf : (cfg1.win 2).flush t = true) :
    (dat1 V c).flushed 2 t = ((cfg1.win 2).blk t).view.read (Elt Ideal) (Cert.Spmm.outOf (rowArr1 V c) (msgArr1 V c)) := by
  have h1 : t.val % 611 = 610 := (flush1_2 t).mp hf
  have hN := lt1 t
  show (cfg1.win 2).cut (grid1.coords t) ((dat1 V c).after 2 t) = _
  rw [after1_2]
  refine funext fun (j : S1024x128.Idx) => ?_
  obtain ⟨p, q, rfl⟩ : ∃ (p : Fin 1024) (q : Fin 128), j = ix2 p q := ⟨j 0, j 1, eq_ix2 j⟩
  have hr : 1024 * (t.val / 611) + p.val < 100352 := by have := p.isLt; omega
  show (outsAt1 V c t.val t.isLt).1 (ix2 p q) = _
  rw [outBlock1 V c t h1 p q hr]
  exact (blk2_read_apply t _ p q (ix2 ⟨1024 * (t.val / 611) + p.val, hr⟩ q) rfl rfl).symm

/-- Every row of the array lies in the block of the writing point of its row block. -/
theorem cover1 (i : S100352x128.Idx) :
    ∃ t : Fin cfg1.N, (cfg1.win 2).flush t = true ∧ i ∈ ((cfg1.win 2).blk t).view.set := by
  have hi0 : (i 0).val < 100352 := (i 0).isLt
  have hi1 : (i 1).val < 128 := (i 1).isLt
  have hN : cfg1.N = 59878 := N_1
  have ht : 611 * ((i 0).val / 1024) + 610 < cfg1.N := by rw [hN]; omega
  have i0 : win1_2.index ⟨611 * ((i 0).val / 1024) + 610, ht⟩ 0 = (611 * ((i 0).val / 1024) + 610) / 611 := congrFun (index1_2 ⟨_, ht⟩) 0
  have i1 : win1_2.index ⟨611 * ((i 0).val / 1024) + 610, ht⟩ 1 = 0 := congrFun (index1_2 ⟨_, ht⟩) 1
  refine ⟨⟨611 * ((i 0).val / 1024) + 610, ht⟩, (flush1_2 _).mpr (by show (611 * ((i 0).val / 1024) + 610) % 611 = 610; omega), ?_⟩
  show i ∈ ((View.whole main_v13).slice (win1_2.rect ⟨611 * ((i 0).val / 1024) + 610, ht⟩)).set
  rw [View.set_slice_whole, Rect.mem_set_unit]
  intro a
  match a with
  | ⟨0, _⟩ =>
    show win1_2.index ⟨611 * ((i 0).val / 1024) + 610, ht⟩ 0 * 1024 ≤ (i 0).val ∧ (i 0).val < win1_2.index ⟨611 * ((i 0).val / 1024) + 610, ht⟩ 0 * 1024 + 1024
    rw [i0]; omega
  | ⟨1, _⟩ =>
    show win1_2.index ⟨611 * ((i 0).val / 1024) + 610, ht⟩ 1 * 128 ≤ (i 1).val ∧ (i 1).val < win1_2.index ⟨611 * ((i 0).val / 1024) + 610, ht⟩ 1 * 128 + 128
    rw [i1]; omega

/-- THE OUTPUT ARRAY after the scatter product is the specification's scatter sum of the destination words and the
    messages the product started from. -/
theorem arr1 (c : Dev nD) :
    (dat1 (F := Ideal) V c).arrAt 2 cfg1.N
      = Cert.Spmm.outOf (V c main_v10 : IVec Cert.Spmm.SEr 32) (V c main_v12 : FVec Ideal Cert.Spmm.SM .f32) :=
  (dat1 V c).arrAt_eq_of_cover 2 (Cert.Spmm.outOf (rowArr1 V c) (msgArr1 V c)) (fun t hf => flushed1_eq V c t hf) cover1

end Cert.KernelIdeal.Hand

end
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.HostValue.lean ====
/-
  What the host operations around the two kernels compute, over the extended reals.

  Before the first kernel the program masks the weights (a select against a zero splat), cuts the two rows out of
  the index array and flattens them, pads the three edge vectors from 625000 to 625664 entries (the words with the
  word zero, the weights with the word zero converted to a float), reshapes them to two columns and a row, and pads
  the table with 352 rows of that same converted zero.  After the second kernel it keeps the first 100000 rows.

  Read at an index, a reshape keeps the row-major position, a slice shifts by its offsets, and a pad is the operand
  below the old extent and the padding value from it on; the converted word zero is the float zero.  So the four
  operands are the padded columns, row and table of the specification, and the tail is its leading rows.
-/
import proofs.«401368_j71373766525042_1_alg».proof.Proof.Gen.KernelIdeal.Regions
import proofs.«401368_j71373766525042_1_alg».proof.Proof.Spec
import proofs.«401368_j71373766525042_1_alg».proof.Proof.LibReshape
import Idealize.ShloMosaic.Lib.StableHlo.Run
import Idealize.ShloMosaic.Lib.KernelVsHost
import Idealize.ShloMosaic.Lib.Pipeline.Value

noncomputable section

namespace Cert.KernelIdeal.Hand

open Cert.KernelIdeal Cert.KernelIdeal.Gen Cert.Spmm
open Idealize.ShloMosaic Idealize.ShloMosaic.TcCoe Idealize.ShloMosaic.ValueIdx Idealize.SL.Sem

variable (m : (ℓ : Loc nD τ sig) → Buf (Elt Ideal) ℓ)

/-! ## The operations read at an index -/

/-- The weights under the mask: a select between the weight and a zero splat. -/
theorem masked_eq_wv (ev : FVec Ideal SE .f32) (km : IVec SE 1) :
    select km ev (broadcastInDim S625000 ![] bcast_S_S625000 (constant (F := Ideal) S_ .f32 0x00000000#32)) = wv ev km := by
  funext j
  rw [select_apply, broadcastInDim_apply _ bcast_S_S625000 _ j ix0 (fun a => a.elim0), constant_apply, Ideal.ofBits_zero_f32]
  rfl

/-- The integer zero converted to a float is zero. -/
theorem zero_word_to_float (i : S_.Idx) : (sitofp .f32 (constantI S_ 32 0#32) : FVec Ideal S_ .f32) i = 0 := by
  show ((((0#32 : BitVec 32).toInt : ℤ) : ℝ) : EReal) = 0
  simp

/-- Row 0 of the two index rows, as a vector. -/
theorem row0_apply {α : Type} (ei : SI.Idx → α) (e : Fin 625000) :
    shapeCast S625000 (extractStridedSlice S1x625000 ![0, 0] ei slices_S2x625000_S1x625000_0_0) shapeCasts_S1x625000_S625000 (ix1 e)
      = ei (ix2 (0 : Fin 2) e) := by
  rw [shapeCast_apply _ shapeCasts_S1x625000_S625000 (ix1 e) (ix2 (0 : Fin 1) e) (by
    rw [Shape.rowMajor_val_one, Shape.rowMajor_val_two]
    show 0 * 625000 + e.val = e.val
    omega)]
  exact extractStridedSlice_apply ![0, 0] ei slices_S2x625000_S1x625000_0_0 (ix2 (0 : Fin 1) e) (ix2 (0 : Fin 2) e) (by
    intro a; fin_cases a <;> simp [ix2])

/-- Row 1 of the two index rows, as a vector. -/
theorem row1_apply {α : Type} (ei : SI.Idx → α) (e : Fin 625000) :
    shapeCast S625000 (extractStridedSlice S1x625000 ![1, 0] ei slices_S2x625000_S1x625000_1_0) shapeCasts_S1x625000_S625000 (ix1 e)
      = ei (ix2 (1 : Fin 2) e) := by
  rw [shapeCast_apply _ shapeCasts_S1x625000_S625000 (ix1 e) (ix2 (0 : Fin 1) e) (by
    rw [Shape.rowMajor_val_one, Shape.rowMajor_val_two]
    show 0 * 625000 + e.val = e.val
    omega)]
  exact extractStridedSlice_apply ![1, 0] ei slices_S2x625000_S1x625000_1_0 (ix2 (0 : Fin 1) e) (ix2 (1 : Fin 2) e) (by
    intro a; fin_cases a <;> simp [ix2])

/-- A vector of 625000 entries padded to 625664: the entry below the old length, the padding value from it on. -/
theorem pad_vec_apply {α : Type} (v : S625000.Idx → α) (z : S_.Idx → α) (i : Fin 625664) :
    pad S625664 ![0] ![664] ![0] v z pads_S625000_S625664_06640 h_S_ (ix1 i)
      = if h : i.val < 625000 then v (ix1 ⟨i.val, h⟩) else z ix0 := by
  by_cases h : i.val < 625000
  · rw [dif_pos h]
    exact pad_apply_of_inside _ _ _ v z pads_S625000_S625664_06640 h_S_ (ix1 i) (ix1 ⟨i.val, h⟩) (by
      intro a; fin_cases a; simp [ix1])
  · rw [dif_neg h, pad_apply_of_not_inside _ _ _ v z pads_S625000_S625664_06640 h_S_ (ix1 i) (0 : Fin 1) (by
      rintro ⟨-, -, h3⟩
      apply h
      simpa [ix1] using h3)]
    exact congrArg z (eq_ix0 _)

/-- The padded vector as a column. -/
theorem col_pad_apply {α : Type} (v : S625000.Idx → α) (z : S_.Idx → α) (i : Fin 625664) :
    shapeCast S625664x1 (pad S625664 ![0] ![664] ![0] v z pads_S625000_S625664_06640 h_S_) shapeCasts_S625664_S625664x1 (ix2 i (0 : Fin 1))
      = if h : i.val < 625000 then v (ix1 ⟨i.val, h⟩) else z ix0 := by
  rw [Cert.Rgcn.Lib.col_of_vec_apply]
  exact pad_vec_apply v z i

/-- The padded vector as a row. -/
theorem row_pad_apply {α : Type} (v : S625000.Idx → α) (z : S_.Idx → α) (i : Fin 625664) :
    shapeCast S1x625664 (pad S625664 ![0] ![664] ![0] v z pads_S625000_S625664_06640 h_S_) shapeCasts_S625664_S1x625664 (ix2 (0 : Fin 1) i)
      = if h : i.val < 625000 then v (ix1 ⟨i.val, h⟩) else z ix0 := by
  rw [Cert.Rgcn.Lib.row_of_vec_apply]
  exact pad_vec_apply v z i

/-- The table padded with 352 rows: the row below the old height, the padding value from it on. -/
theorem pad_rows_apply {α : Type} (x : S100000x128.Idx → α) (z : S_.Idx → α) (i : Fin 100352) (k : Fin 128) :
    pad S100352x128 ![0, 0] ![352, 0] ![0, 0] x z pads_S100000x128_S100352x128_03520_000 h_S_ (ix2 i k)
      = if h : i.val < 100000 then x (ix2 ⟨i.val, h⟩ k) else z ix0 := by
  by_cases h : i.val < 100000
  · rw [dif_pos h]
    exact pad_apply_of_inside _ _ _ x z pads_S100000x128_S100352x128_03520_000 h_S_ (ix2 i k) (ix2 ⟨i.val, h⟩ k) (by
      intro a; fin_cases a <;> simp [ix2])
  · rw [dif_neg h, pad_apply_of_not_inside _ _ _ x z pads_S100000x128_S100352x128_03520_000 h_S_ (ix2 i k) (0 : Fin 2) (by
      rintro ⟨-, -, h3⟩
      apply h
      simpa [ix2] using h3)]
    exact congrArg z (eq_ix0 _)

/-! ## The four operands as functions of the arguments -/

/-- Row 1 of the index array as a vector, padded with the word zero, as a column: the padded source words. -/
theorem col_term_eq (ei : IVec SI 32) :
    shapeCast S625664x1
        (pad S625664 ![0] ![664] ![0]
          (shapeCast S625000 (extractStridedSlice S1x625000 ![1, 0] ei slices_S2x625000_S1x625000_1_0) shapeCasts_S1x625000_S625000)
          (id (constantI S_ 32 0#32)) pads_S625000_S625664_06640 h_S_) shapeCasts_S625664_S625664x1
      = colP ei := by
  funext j
  obtain ⟨i, t, rfl⟩ : ∃ (i : Fin 625664) (t : Fin 1), j = ix2 i t := ⟨j 0, j 1, eq_ix2 j⟩
  obtain rfl : t = 0 := Subsingleton.elim _ _
  rw [col_pad_apply]
  show _ = if h : i.val < 625000 then ei (ix2 (1 : Fin 2) ⟨i.val, h⟩) else 0#32
  by_cases h : i.val < 625000
  · rw [dif_pos h, dif_pos h]; exact row1_apply _ _
  · rw [dif_neg h, dif_neg h]; rfl

/-- The masked weights padded with the converted word zero, as a column: the padded masked weights. -/
theorem val_term_eq (ev : FVec Ideal SE .f32) (km : IVec SE 1) :
    shapeCast S625664x1
        (pad S625664 ![0] ![664] ![0]
          (select km ev (broadcastInDim S625000 ![] bcast_S_S625000 (constant (F := Ideal) S_ .f32 0x00000000#32)))
          (sitofp .f32 (constantI S_ 32 0#32)) pads_S625000_S625664_06640 h_S_) shapeCasts_S625664_S625664x1
      = valP ev km := by
  rw [masked_eq_wv]
  funext j
  obtain ⟨i, t, rfl⟩ : ∃ (i : Fin 625664) (t : Fin 1), j = ix2 i t := ⟨j 0, j 1, eq_ix2 j⟩
  obtain rfl : t = 0 := Subsingleton.elim _ _
  rw [col_pad_apply]
  show _ = if h : i.val < 625000 then wv ev km (ix1 ⟨i.val, h⟩) else 0
  by_cases h : i.val < 625000
  · rw [dif_pos h, dif_pos h]
  · rw [dif_neg h, dif_neg h]; exact zero_word_to_float _

/-- Row 0 of the index array as a vector, padded with the word zero, as a row: the padded destination words. -/
theorem row_term_eq (ei : IVec SI 32) :
    shapeCast S1x625664
        (pad S625664 ![0] ![664] ![0]
          (shapeCast S625000 (extractStridedSlice S1x625000 ![0, 0] ei slices_S2x625000_S1x625000_0_0) shapeCasts_S1x625000_S625000)
          (id (constantI S_ 32 0#32)) pads_S625000_S625664_06640 h_S_) shapeCasts_S625664_S1x625664
      = rowP ei := by
  funext j
  obtain ⟨t, i, rfl⟩ : ∃ (t : Fin 1) (i : Fin 625664), j = ix2 t i := ⟨j 0, j 1, eq_ix2 j⟩
  obtain rfl : t = 0 := Subsingleton.elim _ _
  rw [row_pad_apply]
  show _ = if h : i.val < 625000 then ei (ix2 (0 : Fin 2) ⟨i.val, h⟩) else 0#32
  by_cases h : i.val < 625000
  · rw [dif_pos h, dif_pos h]; exact row0_apply _ _
  · rw [dif_neg h, dif_neg h]; rfl

/-- The table padded with the converted word zero: the table padded with zero rows. -/
theorem x_term_eq (x : FVec Ideal SX .f32) :
    pad S100352x128 ![0, 0] ![352, 0] ![0, 0] x (sitofp .f32 (constantI S_ 32 0#32)) pads_S100000x128_S100352x128_03520_000 h_S_
      = xP x := by
  funext j
  obtain ⟨i, k, rfl⟩ : ∃ (i : Fin 100352) (k : Fin 128), j = ix2 i k := ⟨j 0, j 1, eq_ix2 j⟩
  rw [pad_rows_apply]
  show _ = if h : i.val < 100000 then x (ix2 ⟨i.val, h⟩ k) else 0
  by_cases h : i.val < 100000
  · rw [dif_pos h, dif_pos h]
  · rw [dif_neg h, dif_neg h]; exact zero_word_to_float _

/-- The leading 100000 rows of a padded result. -/
theorem top_term_eq (o : FVec Ideal SXP .f32) :
    extractStridedSlice S100000x128 ![0, 0] o slices_S100352x128_S100000x128_0_0 = top o := by
  funext i
  obtain ⟨r, k, rfl⟩ : ∃ (r : Fin 100000) (k : Fin 128), i = ix2 r k := ⟨i 0, i 1, eq_ix2 i⟩
  show _ = o (ix2 ⟨r.val, Nat.lt_trans r.isLt (by norm_num)⟩ k)
  exact extractStridedSlice_apply ![0, 0] o slices_S100352x128_S100000x128_0_0 (ix2 r k) (ix2 ⟨r.val, Nat.lt_trans r.isLt (by norm_num)⟩ k) (by
    intro a; fin_cases a <;> simp [ix2])

/-! ## The five readings

Each buffer is untouched by the stretches after the one that writes it; the writing operation's result is its function
of the operands' buffers, and these are read the same way down to the launch contents. -/

/-- The first kernel's source-word column is the padded source words. -/
theorem V10_col (c : Dev nD) :
    (V10 (F := Ideal) m c main_v6 : IVec SEc 32) = colP (m ((c.tc : Thread nD τ).loc main_arg2)) := by
  rw [V10_of m c main_v6 (by decide), V9_of m c main_v6 (by decide), V8_of m c main_v6 (by decide), V7_of m c main_v6 (by decide),
    V6_of m c main_v6 (by decide)]
  dsimp only [V5, hostOps0_4]
  after_results
  exact col_term_eq _

/-- The first kernel's weight column is the padded masked weights. -/
theorem V10_val (c : Dev nD) :
    (V10 (F := Ideal) m c main_v8 : FVec Ideal SEc .f32)
      = valP (m ((c.tc : Thread nD τ).loc main_arg1)) (m ((c.tc : Thread nD τ).loc main_arg3)) := by
  rw [V10_of m c main_v8 (by decide), V9_of m c main_v8 (by decide), V8_of m c main_v8 (by decide)]
  dsimp only [V7, hostOps0_6]
  after_results
  exact val_term_eq _ _

/-- The last stretch before the kernels reshapes the padded destination words to a row. -/
theorem after8_v10 (W : Valuation τ sig (Elt Ideal)) :
    (StableHlo.after (hostOps0_8 (F := Ideal)) W main_v10 : IVec SEr 32)
      = shapeCast S1x625664 (W main_v9 : IVec S625664 32) shapeCasts_S625664_S1x625664 := by
  dsimp only [hostOps0_8]
  after_results
  rfl

/-- The stretch before it pads the destination words with the constant it copies. -/
theorem after7_v9 (W : Valuation τ sig (Elt Ideal)) :
    (StableHlo.after (hostOps0_7 (F := Ideal)) W main_v9 : IVec S625664 32)
      = pad S625664 ![0] ![664] ![0] (W main_v2 : IVec S625000 32) (id (W main_c_1 : IVec S_ 32)) pads_S625000_S625664_06640 h_S_ := by
  dsimp only [hostOps0_7]
  after_results
  rfl

/-- That constant is the word zero. -/
theorem after6_c1 (W : Valuation τ sig (Elt Ideal)) :
    (StableHlo.after (hostOps0_6 (F := Ideal)) W main_c_1 : IVec S_ 32) = constantI S_ 32 0#32 := by
  dsimp only [hostOps0_6]
  after_results

/-- The destination words are row 0 of the index array, as a vector. -/
theorem after2_v2 (W : Valuation τ sig (Elt Ideal)) :
    (StableHlo.after (hostOps0_2 (F := Ideal)) W main_v2 : IVec S625000 32)
      = shapeCast S625000 (extractStridedSlice S1x625000 ![0, 0] (W main_arg2 : IVec SI 32) slices_S2x625000_S1x625000_0_0)
          shapeCasts_S1x625000_S625000 := by
  dsimp only [hostOps0_2]
  after_results
  rfl

/-- The second kernel's destination-word row is the padded destination words. -/
theorem V10_row (c : Dev nD) :
    (V10 (F := Ideal) m c main_v10 : IVec SEr 32) = rowP (m ((c.tc : Thread nD τ).loc main_arg2)) := by
  rw [V10_of m c main_v10 (by decide)]
  dsimp only [V9]
  rw [after8_v10]
  dsimp only [V8]
  rw [after7_v9]
  rw [V7_of m c main_v2 (by decide), V6_of m c main_v2 (by decide), V5_of m c main_v2 (by decide), V4_of m c main_v2 (by decide)]
  dsimp only [V7, V3]
  rw [after6_c1, after2_v2]
  rw [V2_of m c main_arg2 (by decide), V1_of m c main_arg2 (by decide)]
  exact row_term_eq _

/-- The first kernel's table is the table padded with zero rows. -/
theorem V10_x (c : Dev nD) :
    (V10 (F := Ideal) m c main_v11 : FVec Ideal SXP .f32) = xP (m ((c.tc : Thread nD τ).loc main_arg0)) := by
  dsimp only [V10, hostOps0_9]
  after_results
  exact x_term_eq _

/-- The result is the first 100000 rows of the second kernel's output. -/
theorem tail_top (W : Valuation τ sig (Elt Ideal)) :
    (StableHlo.after (hostOps2 (F := Ideal)) W main_v14 : FVec Ideal SX .f32) = top (W main_v13) := by
  dsimp only [hostOps2]
  after_results
  exact top_term_eq _

end Cert.KernelIdeal.Hand

end
-- ==== Proof.LibOneHot.lean ====
/-
  One-hot selection as a sum, on the extended reals.

  A row lookup written as a product with a one-hot row: the sum over a finite index set of an indicator of ONE
  index times a function is the function at that index, and the sum against an indicator that holds nowhere is
  zero — with no finiteness needed, because on the extended reals `0 · x = 0` and `1 · x = x` for every `x`,
  infinities included. Beside it: when a machine word `w` below the table's length is shifted down by a block
  offset `1408 k`, the shifted word equals a position `j` of the block exactly when `w` is row `j` of block `k`;
  and a value recombined from a head and a residual, `x + (x − x)`, is `x` unless `x` is `+∞`.
-/
import Mathlib.Data.EReal.Operations
import Mathlib.Algebra.BigOperators.Group.Finset.Basic

namespace Cert.OneHot

open Finset

/-- A sum against the indicator of exactly one index is the entry there. -/
theorem sum_indicator_mul_eq {ι : Type} [Fintype ι] [DecidableEq ι] (j0 : ι) (H : ι → EReal)
    (P : ι → Prop) [DecidablePred P] (hP : ∀ j, P j ↔ j = j0) :
    (∑ j, (if P j then (1 : EReal) else 0) * H j) = H j0 := by
  rw [Finset.sum_eq_single j0]
  · rw [if_pos ((hP j0).mpr rfl), one_mul]
  · intro j _ hj
    rw [if_neg (fun h => hj ((hP j).mp h)), zero_mul]
  · intro h; exact absurd (Finset.mem_univ j0) h

/-- A sum against an indicator that holds nowhere is zero. -/
theorem sum_indicator_mul_none {ι : Type} [Fintype ι] (H : ι → EReal)
    (P : ι → Prop) [DecidablePred P] (hP : ∀ j, ¬P j) :
    (∑ j, (if P j then (1 : EReal) else 0) * H j) = 0 := by
  apply Finset.sum_eq_zero
  intro j _
  rw [if_neg (hP j), zero_mul]

/-- A word below 8448 shifted down by `1408 k` (`k < 6`) is position `j < 1408` exactly when it is row `j` of block `k`. -/
theorem ofNat_eq_sub_iff (w : BitVec 32) (k j : ℕ) (hw : w.toNat < 8448) (hk : k < 6) (hj : j < 1408) :
    BitVec.ofNat 32 j = w - BitVec.ofNat 32 k * 1408#32 ↔ w.toNat = 1408 * k + j := by
  rw [← BitVec.toNat_inj]
  simp only [BitVec.toNat_sub, BitVec.toNat_mul, BitVec.toNat_ofNat]
  omega

/-- A value recombined from itself and its own residual is itself, unless it is `+∞`. -/
theorem add_sub_self_of_ne_top {x : EReal} (h : x ≠ ⊤) : x + (x - x) = x := by
  induction x using EReal.rec with
  | bot => exact EReal.bot_add _
  | coe r =>
    rw [← EReal.coe_sub, sub_self, EReal.coe_zero, add_zero]
  | top => exact absurd rfl h

/-- Zero has no residual. -/
theorem zero_sub_zero : (0 : EReal) - 0 = 0 := by simp

end Cert.OneHot
-- ==== Proof.Math.lean ====
/-
  The dense one-hot spelling of the sparse matrix product equals the sum over edges.

  Fix a row r below 100000 and a column k. The dense result at (r, k) is the sum over all 625664 padded edges of
  an indicator (the word of r equals the edge's destination word) times the edge's message, and the message is
  the sum over all 100352 padded table rows of an indicator (the edge's source word equals the row's word)
  carrying the masked weight, times the padded table entry.

  * A true edge e (below 625000) has a source word c whose signed value lies in [0, 100000); such a word has the
    same unsigned value, below 100352, so exactly one padded row matches it (words of numbers below 2^32 are
    distinct), the padded table is the table there, and clamping the signed value into the table changes
    nothing: the message is  weight e * x[c, k].
  * A padding edge (625000 and above) has weight zero, so each of its summands is (0 or 0) * _ = 0.
  * So the outer sum runs over the true edges only; there the destination indicator holds exactly when the
    destination word's signed value is r (r is below 2^31), which turns the indicator sum into the filtered sum.

  Everything is on the extended reals, where 0 * y = 0 and 1 * y = y for every y, so nothing needs to be finite.
-/
import proofs.«401368_j71373766525042_1_alg».proof.Proof.Spec
import proofs.«401368_j71373766525042_1_alg».proof.Proof.LibOneHot
import Mathlib.Algebra.BigOperators.Group.Finset.Basic
import Mathlib.Data.EReal.Operations

noncomputable section

namespace Cert.Spmm

open Idealize.ShloMosaic Idealize.ShloMosaic.ValueIdx

/-! ## Words -/

/-- A word whose signed value lies in [0, 100000) has the same unsigned value. -/
theorem toNat_of_signed_range (c : BitVec 32) (h0 : 0 ≤ c.toInt) (h1 : c.toInt < 100000) :
    c.toNat < 100000 ∧ c.toInt.toNat = c.toNat := by
  have hlt : c.toNat < 4294967296 := c.isLt
  have hc := BitVec.toInt_eq_toNat_cond c
  by_cases h : 2 * c.toNat < 2 ^ 32
  · rw [if_pos h] at hc
    omega
  · rw [if_neg h] at hc
    omega

/-- A number below 100000, written as a word, is a given word exactly when the word's signed value is the number. -/
theorem ofNat_eq_iff_toInt (r : ℕ) (hr : r < 100000) (w : BitVec 32) :
    BitVec.ofNat 32 r = w ↔ w.toInt = (r : ℤ) := by
  have hlt : w.toNat < 4294967296 := w.isLt
  have hw := BitVec.toInt_eq_toNat_cond w
  rw [← BitVec.toNat_inj, BitVec.toNat_ofNat]
  by_cases h : 2 * w.toNat < 2 ^ 32
  · rw [if_pos h] at hw
    omega
  · rw [if_neg h] at hw
    omega

/-! ## One padded edge's message -/

/-- Against a word below the padded table's height, the indicator sum over all padded rows keeps the one row the word
    names. -/
theorem sum_row_indicator (xp : FVec Ideal SXP .f32) (c : BitVec 32) (v : EReal) (k : Fin 128)
    (hc : c.toNat < 100352) :
    (∑ n : Fin 100352, (if c = BitVec.ofNat 32 n.val then v else 0) * xp (ix2 n k))
      = v * xp (ix2 (⟨c.toNat, hc⟩ : Fin 100352) k) := by
  rw [Finset.sum_eq_single (⟨c.toNat, hc⟩ : Fin 100352)]
  · rw [if_pos]
    show c = BitVec.ofNat 32 c.toNat
    rw [BitVec.ofNat_toNat, BitVec.setWidth_eq]
  · intro n _ hn
    rw [if_neg, zero_mul]
    intro h
    apply hn
    apply Fin.ext
    show n.val = c.toNat
    have hn' : n.val < 100352 := n.isLt
    rw [h, BitVec.toNat_ofNat]
    omega
  · intro h
    exact absurd (Finset.mem_univ _) h

/-- A true edge's message is its masked weight times the table row its source word names. -/
theorem msg_edge (x : FVec Ideal SX .f32) (ev : FVec Ideal SE .f32) (ei : IVec SI 32) (km : IVec SE 1)
    (e : Fin 625000) (k : Fin 128)
    (h0 : 0 ≤ (ei (ix2 (1 : Fin 2) e)).toInt) (h1 : (ei (ix2 (1 : Fin 2) e)).toInt < 100000) :
    msgOf (colP ei) (valP ev km) (xP x) (ix2 (Fin.castLE (by norm_num : 625000 ≤ 625664) e) k)
      = wv ev km (ix1 e) * x (ix2 ⟨min (ei (ix2 (1 : Fin 2) e)).toInt.toNat (100000 - 1), by omega⟩ k) := by
  obtain ⟨hc, hcn⟩ := toNat_of_signed_range _ h0 h1
  have hcol : colP ei (ix2 (Fin.castLE (by norm_num : 625000 ≤ 625664) e) (0 : Fin 1)) = ei (ix2 (1 : Fin 2) e) := by
    show (if h : e.val < 625000 then ei (ix2 (1 : Fin 2) ⟨e.val, h⟩) else 0#32) = _
    rw [dif_pos e.isLt]
  have hval : valP ev km (ix2 (Fin.castLE (by norm_num : 625000 ≤ 625664) e) (0 : Fin 1)) = wv ev km (ix1 e) := by
    show (if h : e.val < 625000 then wv ev km (ix1 ⟨e.val, h⟩) else 0) = _
    rw [dif_pos e.isLt]
  show (∑ n : Fin 100352,
      (if colP ei (ix2 (Fin.castLE (by norm_num : 625000 ≤ 625664) e) (0 : Fin 1)) = BitVec.ofNat 32 n.val
        then valP ev km (ix2 (Fin.castLE (by norm_num : 625000 ≤ 625664) e) (0 : Fin 1)) else 0) * xP x (ix2 n k)) = _
  rw [hcol, hval, sum_row_indicator (xP x) _ _ k (by omega)]
  have hx : xP x (ix2 (⟨(ei (ix2 (1 : Fin 2) e)).toNat, by omega⟩ : Fin 100352) k)
      = x (ix2 (⟨(ei (ix2 (1 : Fin 2) e)).toNat, hc⟩ : Fin 100000) k) := by
    show (if h : (ei (ix2 (1 : Fin 2) e)).toNat < 100000 then x (ix2 ⟨(ei (ix2 (1 : Fin 2) e)).toNat, h⟩ k) else 0) = _
    rw [dif_pos hc]
  rw [hx]
  have hidx : (⟨min (ei (ix2 (1 : Fin 2) e)).toInt.toNat (100000 - 1), by omega⟩ : Fin 100000)
      = ⟨(ei (ix2 (1 : Fin 2) e)).toNat, hc⟩ := by
    apply Fin.ext
    show min (ei (ix2 (1 : Fin 2) e)).toInt.toNat (100000 - 1) = (ei (ix2 (1 : Fin 2) e)).toNat
    omega
  rw [hidx]

/-- A padding edge's message is zero: its weight is zero. -/
theorem msg_pad (x : FVec Ideal SX .f32) (ev : FVec Ideal SE .f32) (ei : IVec SI 32) (km : IVec SE 1)
    (e : Fin 625664) (k : Fin 128) (he : 625000 ≤ e.val) :
    msgOf (colP ei) (valP ev km) (xP x) (ix2 e k) = 0 := by
  have hval : valP ev km (ix2 e (0 : Fin 1)) = 0 := by
    show (if h : e.val < 625000 then wv ev km (ix1 ⟨e.val, h⟩) else 0) = 0
    rw [dif_neg (by omega)]
  show (∑ n : Fin 100352,
      (if colP ei (ix2 e (0 : Fin 1)) = BitVec.ofNat 32 n.val then valP ev km (ix2 e (0 : Fin 1)) else 0)
        * xP x (ix2 n k)) = 0
  apply Finset.sum_eq_zero
  intro n _
  rw [hval, ite_self, zero_mul]

/-! ## The two spellings agree -/

/-- The dense one-hot spelling of the product is the edge sum, when every source word read signed lies in the table. -/
theorem dense_eq_G (x : FVec Ideal SX .f32) (ev : FVec Ideal SE .f32) (ei : IVec SI 32) (km : IVec SE 1)
    (hcol : ∀ e : Fin 625000, 0 ≤ (ei (ix2 (1 : Fin 2) e)).toInt ∧ (ei (ix2 (1 : Fin 2) e)).toInt < 100000) :
    top (outOf (rowP ei) (msgOf (colP ei) (valP ev km) (xP x))) = G x ev ei km := by
  funext i
  obtain ⟨r, k, rfl⟩ : ∃ (r : Fin 100000) (k : Fin 128), i = ix2 r k := ⟨i 0, i 1, eq_ix2 i⟩
  show (∑ e : Fin 625664,
      (if BitVec.ofNat 32 r.val = rowP ei (ix2 (0 : Fin 1) e) then (1 : EReal) else 0)
        * msgOf (colP ei) (valP ev km) (xP x) (ix2 e k))
    = ∑ e ∈ Finset.univ.filter (fun e : Fin 625000 => (ei (ix2 (0 : Fin 2) e)).toInt = (r.val : ℤ)),
        wv ev km (ix1 e) * x (ix2 ⟨min (ei (ix2 (1 : Fin 2) e)).toInt.toNat (100000 - 1), by omega⟩ k)
  rw [Finset.sum_filter]
  symm
  apply Fintype.sum_of_injective (Fin.castLE (by norm_num : 625000 ≤ 625664)) (Fin.castLE_injective _)
  · intro e he
    have hge : 625000 ≤ e.val := by
      by_contra hlt
      exact he ⟨⟨e.val, by omega⟩, Fin.ext rfl⟩
    rw [msg_pad x ev ei km e k hge, mul_zero]
  · intro e
    have hrow : rowP ei (ix2 (0 : Fin 1) (Fin.castLE (by norm_num : 625000 ≤ 625664) e)) = ei (ix2 (0 : Fin 2) e) := by
      show (if h : e.val < 625000 then ei (ix2 (0 : Fin 2) ⟨e.val, h⟩) else 0#32) = _
      rw [dif_pos e.isLt]
    rw [hrow, msg_edge x ev ei km e k (hcol e).1 (hcol e).2]
    by_cases hP : (ei (ix2 (0 : Fin 2) e)).toInt = (r.val : ℤ)
    · rw [if_pos hP, if_pos ((ofNat_eq_iff_toInt r.val r.isLt _).mpr hP), one_mul]
    · rw [if_neg hP, if_neg (fun h => hP ((ofNat_eq_iff_toInt r.val r.isLt _).mp h)), zero_mul]

end Cert.Spmm

end
-- ==== Proof.KernelValue.lean ====
/-
  What the program's result array holds at the end, as the specification's sum over the edges.

  The last host line keeps the first 100000 rows of the second call's output.  That output is, row by row, the
  sum over all padded edges of an indicator (the row's number is the edge's destination word) times the edge's
  message, the messages being the first call's output; a message is the sum over all padded table rows of an
  indicator (the edge's source word is the row's number) carrying the edge's masked weight, times the row.  The
  padded words, weights and table are what the host lines before the calls make of the four argument arrays.
  With every source word in range this dense spelling is the sum, over the edges that land on a row, of weight
  times source row.
-/
import proofs.«401368_j71373766525042_1_alg».proof.Proof.Run
import proofs.«401368_j71373766525042_1_alg».proof.Proof.R0Value
import proofs.«401368_j71373766525042_1_alg».proof.Proof.R1Value
import proofs.«401368_j71373766525042_1_alg».proof.Proof.HostValue
import proofs.«401368_j71373766525042_1_alg».proof.Proof.Math

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spmm Idealize.ShloMosaic.ValueIdx

variable (m : (ℓ : Loc nD τ sig) → Buf (Elt Ideal) ℓ)

/-- The second call finds the destination words as the host lines left them: the first call does not write them. -/
theorem VB_row (c : Dev nD) : (VB (F := Ideal) m c main_v10 : IVec SEr 32) = rowP (m ((c.tc : Thread nD τ).loc main_arg2)) :=
  (W11_of_ne m c main_v10 (by decide)).trans (V10_row m c)

/-- It finds the messages the first call left: the dense row lookup of the padded arrays. -/
theorem VB_msg (c : Dev nD) : (VB (F := Ideal) m c main_v12 : FVec Ideal SM .f32)
    = msgOf (colP (m ((c.tc : Thread nD τ).loc main_arg2))) (valP (m ((c.tc : Thread nD τ).loc main_arg1)) (m ((c.tc : Thread nD τ).loc main_arg3))) (xP (m ((c.tc : Thread nD τ).loc main_arg0))) := by
  refine (W11_arr m c 3).trans ?_
  rw [arr0 (VA m) c]
  show msgOf (V10 m c main_v6) (V10 m c main_v8) (V10 m c main_v11) = _
  rw [V10_col, V10_val, V10_x]

/-- THE RESULT. With every source word in [0, 100000), the result array's last contents are the product. -/
theorem result_eq_G (c : Dev nD)
    (hcol : ∀ e : Fin 625000, 0 ≤ (((m ((c.tc : Thread nD τ).loc main_arg2)) : IVec SI 32) (ix2 (1 : Fin 2) e)).toInt
      ∧ (((m ((c.tc : Thread nD τ).loc main_arg2)) : IVec SI 32) (ix2 (1 : Fin 2) e)).toInt < 100000) :
    (W13 (F := Ideal) m c main_v14 : FVec Ideal SX .f32)
      = G (m ((c.tc : Thread nD τ).loc main_arg0)) (m ((c.tc : Thread nD τ).loc main_arg1)) (m ((c.tc : Thread nD τ).loc main_arg2)) (m ((c.tc : Thread nD τ).loc main_arg3)) := by
  -- the second call's output array, as the dense product of the padded arrays
  have h13 : (W12 m c main_v13 : FVec Ideal SXP .f32)
      = outOf (rowP (m ((c.tc : Thread nD τ).loc main_arg2))) (msgOf (colP (m ((c.tc : Thread nD τ).loc main_arg2))) (valP (m ((c.tc : Thread nD τ).loc main_arg1)) (m ((c.tc : Thread nD τ).loc main_arg3))) (xP (m ((c.tc : Thread nD τ).loc main_arg0)))) := by
    refine (W12_arr m c 2).trans ?_
    rw [arr1 (VB m) c, VB_row, VB_msg]
  exact ((tail_top (W12 m c)).trans (congrArg top h13)).trans (dense_eq_G _ _ _ _ hcol)

end Cert.KernelIdeal.Hand

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.RefValue.lean ====
/-
  What the reference program computes, as the specification's sum over the edges that land on a row.

  The reference masks the weights (weight where the bit is set, zero where it is clear), takes the two rows of the
  integer array as the destination words and the source words, wraps a negative source word around by adding 100000,
  looks up for each edge the row of the table that its source word names (read signed and clamped into the table),
  multiplies that row by the edge's masked weight, and accumulates the products into a table of zeros at the rows the
  destination words name (a word outside the table lands nowhere).

  Where every source word, read signed, lies in [0, 100000), no word is negative, so the wrap-around changes nothing;
  the accumulation into zeros is 0 + the sum over the edges landing on the row, and 0 + s = s on the extended reals.
  Element (r, k) of the result is therefore the sum, over the edges e whose destination word read signed is r, of the
  masked weight of e times element k of the looked-up row: the function G of the specification.
-/
import proofs.«401368_j71373766525042_1_alg».proof.Proof.Gen.ReferenceIdeal.Run
import proofs.«401368_j71373766525042_1_alg».proof.Proof.Gen.ReferenceIdeal.Read
import proofs.«401368_j71373766525042_1_alg».proof.Proof.Spec
import proofs.«401368_j71373766525042_1_alg».proof.Proof.LibIndexed
import Idealize.ShloMosaic.PureOps.Ideal.Laws
import Idealize.ShloMosaic.Lib.ValueIdx
import Idealize.ShloMosaic.Lib.Pipeline.Value
import Idealize.ShloMosaic.Lib.Affine

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Rgcn.Lib

/-! ## The layout steps read at an index -/

/-- A vector laid out as a column, read at (e, 0), is the vector at e. -/
theorem col_of_vec {α : Type} (v : S625000.Idx → α) (e : Fin 625000) :
    broadcastInDim S625000x1 ![0] bcast_S625000_S625000x1_0 v (ix2 e (0 : Fin 1)) = v (ix1 e) := by
  refine broadcastInDim_apply _ _ v (ix2 e (0 : Fin 1)) (ix1 e) ?_
  intro a
  match a with
  | ⟨0, _⟩ => show e.val = if (625000 : Nat) = 1 then 0 else e.val; rw [if_neg (by omega)]

/-- A column repeated along 128 columns, read at (e, k), is the column at (e, 0). -/
theorem wide_of_col {α : Type} (v : S625000x1.Idx → α) (e : Fin 625000) (k : Fin 128) :
    broadcastInDim S625000x128 ![0, 1] bcast_S625000x1_S625000x128_0_1 v (ix2 e k) = v (ix2 e (0 : Fin 1)) := by
  refine broadcastInDim_apply _ _ v (ix2 e k) (ix2 e (0 : Fin 1)) ?_
  intro a
  match a with
  | ⟨0, _⟩ => show e.val = if (625000 : Nat) = 1 then 0 else e.val; rw [if_neg (by omega)]
  | ⟨1, _⟩ => show (0 : Nat) = if (1 : Nat) = 1 then 0 else k.val; rw [if_pos rfl]

/-- The first row of the integer array, cut out as a [1, 625000] slice and flattened, read at e, is the destination
    word of edge e: position e of the vector and position (0, e) of the slice are both row-major position e, and the
    slice starts at row 0, column 0. -/
theorem row_word (ei : IVec S2x625000 32) (e : Fin 625000) :
    shapeCast S625000 (extractStridedSlice S1x625000 ![0, 0] ei slices_S2x625000_S1x625000_0_0) shapeCasts_S1x625000_S625000 (ix1 e)
      = ei (ix2 (0 : Fin 2) e) := by
  refine (shapeCast_apply _ _ (ix1 e) (ix2 (0 : Fin 1) e) ?_).trans ?_
  · rw [Shape.rowMajor_val_one, Shape.rowMajor_val_two]
    show 0 * 625000 + e.val = e.val
    omega
  · refine extractStridedSlice_apply _ ei _ (ix2 (0 : Fin 1) e) (ix2 (0 : Fin 2) e) ?_
    intro a
    match a with
    | ⟨0, _⟩ => rfl
    | ⟨1, _⟩ => show e.val = 0 + e.val; omega

/-- Likewise the second row (the slice starts at row 1, column 0): the source word of edge e. -/
theorem col_word (ei : IVec S2x625000 32) (e : Fin 625000) :
    shapeCast S625000 (extractStridedSlice S1x625000 ![1, 0] ei slices_S2x625000_S1x625000_1_0) shapeCasts_S1x625000_S625000 (ix1 e)
      = ei (ix2 (1 : Fin 2) e) := by
  refine (shapeCast_apply _ _ (ix1 e) (ix2 (0 : Fin 1) e) ?_).trans ?_
  · rw [Shape.rowMajor_val_one, Shape.rowMajor_val_two]
    show 0 * 625000 + e.val = e.val
    omega
  · refine extractStridedSlice_apply _ ei _ (ix2 (0 : Fin 1) e) (ix2 (1 : Fin 2) e) ?_
    intro a
    match a with
    | ⟨0, _⟩ => rfl
    | ⟨1, _⟩ => show e.val = 0 + e.val; omega

/-! ## The two selects read at an edge -/

/-- The masked weights: the weight where the bit is set, and where it is clear the zero word's value, which is 0. -/
theorem weights_apply (ev : FVec Ideal S625000 .f32) (km : IVec S625000 1) (e : Fin 625000) :
    select km ev (broadcastInDim S625000 ![] bcast_S_S625000 (constant (F := Ideal) S_ .f32 0x00000000#32)) (ix1 e)
      = Cert.Spmm.wv ev km (ix1 e) := by
  show (if km (ix1 e) = 1 then ev (ix1 e) else Ideal.ofBits .f32 0x00000000#32) = if km (ix1 e) = 1#1 then ev (ix1 e) else 0
  rw [Ideal.ofBits_zero_f32]
  rfl

/-- The wrap-around of negative source words leaves a word that is not negative as it is: the signed test "word < 0"
    is false, so the select takes its third operand. -/
theorem wrapped_apply (colv : IVec S625000 32) (e : Fin 625000) (h : 0 ≤ (colv (ix1 e)).toInt) :
    select (cmpi .slt colv (broadcastInDim S625000 ![] bcast_S_S625000 (constantI S_ 32 0#32)))
        (addi colv (broadcastInDim S625000 ![] bcast_S_S625000 (constantI S_ 32 100000#32))) colv (ix1 e)
      = colv (ix1 e) := by
  have hz : (0#32 : BitVec 32).toInt = 0 := by decide
  have hne : ¬ IntOp.cmpi .slt (colv (ix1 e)) 0#32 = 1#1 := by
    rw [IntOp.cmpi_slt, hz]; omega
  exact if_neg hne

/-! ## The result is G -/

/-- The program's result, as the composed term of its operations over the four argument arrays, is the
    specification's G, where every source word read signed lies in [0, 100000). -/
theorem result_eq_G (x : FVec Ideal S100000x128 .f32) (ev : FVec Ideal S625000 .f32) (ei : IVec S2x625000 32) (km : IVec S625000 1)
    (hcol : ∀ e : Fin 625000, 0 ≤ (ei (ix2 (1 : Fin 2) e)).toInt ∧ (ei (ix2 (1 : Fin 2) e)).toInt < 100000) :
    (Host.scatterAdd scatter_S100000x128_S625000x1_S625000x128_1_0_0_1 (broadcastInDim S100000x128 ![] bcast_S_S100000x128 (constant S_ .f32 0x00000000#32)) (broadcastInDim S625000x1 ![0] bcast_S625000_S625000x1_0 (shapeCast _ (extractStridedSlice S1x625000 ![0, 0] ei slices_S2x625000_S1x625000_0_0) shapeCasts_S1x625000_S625000)) (mulf (broadcastInDim S625000x128 ![0, 1] bcast_S625000x1_S625000x128_0_1 (broadcastInDim S625000x1 ![0] bcast_S625000_S625000x1_0 (select km ev (broadcastInDim S625000 ![] bcast_S_S625000 (constant S_ .f32 0x00000000#32))))) (Host.gather gather_S100000x128_S625000x1_S625000x128_1_0_n_n_0_1_1128 x (broadcastInDim S625000x1 ![0] bcast_S625000_S625000x1_0 (select (cmpi .slt (shapeCast _ (extractStridedSlice S1x625000 ![1, 0] ei slices_S2x625000_S1x625000_1_0) shapeCasts_S1x625000_S625000) (broadcastInDim S625000 ![] bcast_S_S625000 (constantI S_ 32 0#32))) (addi (shapeCast _ (extractStridedSlice S1x625000 ![1, 0] ei slices_S2x625000_S1x625000_1_0) shapeCasts_S1x625000_S625000) (broadcastInDim S625000 ![] bcast_S_S625000 (constantI S_ 32 100000#32))) (shapeCast _ (extractStridedSlice S1x625000 ![1, 0] ei slices_S2x625000_S1x625000_1_0) shapeCasts_S1x625000_S625000))))) : FVec Ideal S100000x128 .f32)
      = Cert.Spmm.G x ev ei km := by
  funext i
  obtain ⟨n, k, rfl⟩ : ∃ (n : Fin 100000) (k : Fin 128), i = ix2 n k := ⟨i 0, i 1, eq_ix2 i⟩
  -- the accumulation at (n, k): the table's entry plus the sum of the updates whose landing row is n
  refine (scatterAdd_rows_apply _ scatter_S100000x128_S625000x1_S625000x128_1_0_0_1_wf rfl _ _ _ n k).trans ?_
  -- the table the updates land in is zero
  have hzero : broadcastInDim S100000x128 ![] bcast_S_S100000x128 (constant (F := Ideal) S_ .f32 0x00000000#32) (ix2 n k) = (0 : EReal) :=
    Ideal.ofBits_zero_f32
  rw [hzero, zero_add]
  unfold Cert.Spmm.G
  refine Finset.sum_congr (Finset.filter_congr fun e _ => ?_) fun e _ => ?_
  · -- the landing row of edge e is its destination word
    rw [col_of_vec, row_word]
  · -- the update of edge e at column k: the masked weight times column k of the looked-up row
    refine (mulf_apply _ _ (ix2 e k)).trans ?_
    rw [wide_of_col, col_of_vec, weights_apply]
    refine congrArg (fun t => Cert.Spmm.wv ev km (ix1 e) * t) ?_
    refine (gather_rows_apply (by omega) gather_S100000x128_S625000x1_S625000x128_1_0_n_n_0_1_1128
      gather_S100000x128_S625000x1_S625000x128_1_0_n_n_0_1_1128_wf rfl x _ e k).trans ?_
    -- the word the lookup reads for edge e is its source word, the wrap-around having changed nothing
    have hw : broadcastInDim S625000x1 ![0] bcast_S625000_S625000x1_0
          (select
            (cmpi .slt (shapeCast S625000 (extractStridedSlice S1x625000 ![1, 0] ei slices_S2x625000_S1x625000_1_0) shapeCasts_S1x625000_S625000)
              (broadcastInDim S625000 ![] bcast_S_S625000 (constantI S_ 32 0#32)))
            (addi (shapeCast S625000 (extractStridedSlice S1x625000 ![1, 0] ei slices_S2x625000_S1x625000_1_0) shapeCasts_S1x625000_S625000)
              (broadcastInDim S625000 ![] bcast_S_S625000 (constantI S_ 32 100000#32)))
            (shapeCast S625000 (extractStridedSlice S1x625000 ![1, 0] ei slices_S2x625000_S1x625000_1_0) shapeCasts_S1x625000_S625000))
          (ix2 e (0 : Fin 1)) = ei (ix2 (1 : Fin 2) e) := by
      rw [col_of_vec, wrapped_apply _ e (by rw [col_word]; exact (hcol e).1), col_word]
    refine congrArg x (funext fun a => ?_)
    match a with
    | ⟨0, _⟩ => exact Fin.ext (congrArg (fun w : BitVec 32 => min w.toInt.toNat (100000 - 1)) hw)
    | ⟨1, _⟩ => rfl

/-! ## The program's run, with the result named -/

/-- Every weakly fair execution of the reference from a memory whose source words all lie in [0, 100000) terminates
    with the result array at G of the four argument arrays, and the argument arrays unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg)
    (hcol : ∀ c : Dev Cert.ReferenceIdeal.nD, ∀ e : Fin 625000,
      0 ≤ ((m' ((c.tc : Thread Cert.ReferenceIdeal.nD Cert.ReferenceIdeal.τ).loc Cert.ReferenceIdeal.main_arg2) : IVec S2x625000 32) (ix2 (1 : Fin 2) e)).toInt
      ∧ ((m' ((c.tc : Thread Cert.ReferenceIdeal.nD Cert.ReferenceIdeal.τ).loc Cert.ReferenceIdeal.main_arg2) : IVec S2x625000 32) (ix2 (1 : Fin 2) e)).toInt < 100000) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v17) = Cert.Spmm.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans (result_eq_G _ _ _ _ (hcol c)), (h c).2⟩)
    (Cert.ReferenceIdeal.Value.run (F := Ideal) m' ρ')

/-- Every weakly fair execution of the reference, from any memory, terminates with the argument arrays unchanged. -/
theorem frame_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono (fun _ h c => (h c).2)
    (Cert.ReferenceIdeal.Value.run (F := Ideal) m ρ)

end Cert.ReferenceIdeal.RefValue

end
-- ==== Proof.PreDecode.lean ====
/-
  What the precondition says of the source words.

  The precondition is a conjunction of three "all elements" tests; the third one runs over the second row of the
  integer array (the source word of each edge), flattened to a vector, and asks of each word w, read as a signed
  integer, that 0 ≤ w and w < 100000.  An "all elements" test is a reduction by "and" from the constant 1: it is 1
  only if every element is 1.  An "and" of two bits is 1 only if both are, and a signed comparison bit is 1 exactly
  when the comparison of the two words' signed values holds.  So from "the precondition is 1" one reads off, edge by
  edge, that the source word lies in [0, 100000): every source word names a row of the table.
-/
import proofs.«401368_j71373766525042_1_alg».proof.Proof.Gen.Pre_finite_inputs
import proofs.«401368_j71373766525042_1_alg».proof.Proof.Spec
import Idealize.ShloMosaic.Lib.ReduceAll
import Idealize.ShloMosaic.Lib.StableHlo.Predicate
import Idealize.ShloMosaic.Lib.Pipeline.Value
import Idealize.ShloMosaic.Lib.ValueIdx

noncomputable section

namespace Cert.Spmm

open Idealize.ShloMosaic Idealize.ShloMosaic.ValueIdx

/-- The scalar shape has one index. -/
instance subsingleton_scalar_idx : Subsingleton (Cert.Pre_finite_inputs.S_).Idx := ⟨fun a b => funext fun d => d.elim0⟩

/-- The second index row, cut out as a [1, 625000] slice and flattened to a vector, read at e, is the source word of
    edge e: position e of the vector is position (0, e) of the slice (both at row-major position e), and the slice
    starts at row 1, column 0 of the array. -/
theorem col_word (ei : IVec SI 32) (h1 : SI.Slices ![1, 0] ⟨2, ![1, 625000]⟩)
    (h2 : (⟨2, ![1, 625000]⟩ : Shape).ShapeCasts SE) (e : Fin 625000) :
    shapeCast SE (extractStridedSlice (⟨2, ![1, 625000]⟩ : Shape) ![1, 0] ei h1) h2 (ix1 e) = ei (ix2 (1 : Fin 2) e) := by
  refine (shapeCast_apply _ h2 (ix1 e) (ix2 (0 : Fin 1) e) ?_).trans ?_
  · rw [Shape.rowMajor_val_one, Shape.rowMajor_val_two]
    show 0 * 625000 + e.val = e.val
    omega
  · refine extractStridedSlice_apply _ ei h1 (ix2 (0 : Fin 1) e) (ix2 (1 : Fin 2) e) ?_
    intro a
    match a with
    | ⟨0, _⟩ => rfl
    | ⟨1, _⟩ => show e.val = 0 + e.val; omega

/-- Where the precondition holds, every source word, read signed, lies in [0, 100000). -/
theorem col_range_of_pre {F : FTy → Type} [FloatOps F] (x : FVec F SX .f32) (ev : FVec F SE .f32) (ei : IVec SI 32) (km : IVec SE 1)
    (h : Cert.Pre_finite_inputs.fn (F := F) x ev ei km = fun _ => 1#1) :
    ∀ e : Fin 625000, 0 ≤ (ei (ix2 (1 : Fin 2) e)).toInt ∧ (ei (ix2 (1 : Fin 2) e)).toInt < 100000 := by
  intro e
  -- the one element of the scalar result, then the third conjunct, then its element at edge e
  have h0 := congrFun h ix0
  dsimp only [Cert.Pre_finite_inputs.fn, Cert.Pre_finite_inputs.fn_part1] at h0
  have h1 := (IntOp.andi_eq_one.1 h0).2
  have h2 := Host.reduce_andi_all _ _ _ _ ix0 h1 (ix1 e)
  obtain ⟨hge, hlt⟩ := IntOp.andi_eq_one.1 h2
  -- the two comparison bits as comparisons of signed values; the compared word is the source word of edge e
  have hz : (0#32 : BitVec 32).toInt = 0 := by decide
  have hN : (100000#32 : BitVec 32).toInt = 100000 := by decide
  have hge' := IntOp.cmpi_sge.1 hge
  have hlt' := IntOp.cmpi_slt.1 hlt
  rw [col_word ei _ _ e] at hge' hlt'
  -- the other side of each comparison is a constant word broadcast to the vector
  have hge'' : (0#32 : BitVec 32).toInt ≤ (ei (ix2 (1 : Fin 2) e)).toInt := hge'
  have hlt'' : (ei (ix2 (1 : Fin 2) e)).toInt < (100000#32 : BitVec 32).toInt := hlt'
  rw [hz] at hge''
  rw [hN] at hlt''
  exact ⟨hge'', hlt''⟩

end Cert.Spmm

end
-- ==== Proof.lean ====
/-
  The certificate: a sparse matrix product computed as two dense one-hot products, against gather and scatter-add.

  The kernel pads the 625000 edges and the 100000 table rows to whole tiles, forms each edge's message as a
  dense product of a one-hot row (its source word against every table row's number, carrying the masked weight)
  with the table, and each output row as a dense product of a one-hot row (its number against every edge's
  destination word) with the messages; both products run tile by tile with a running sum kept between grid
  points.  The reference gathers the source rows, scales them by the masked weights and scatter-adds them by
  destination.  Over the extended reals the two agree wherever every source word, read signed, lies in
  [0, 100000): then the one-hot row has its single one at the gathered row, zero times anything is zero, one
  times anything is itself, and the padded edges carry zero weight; a destination word outside the table lands
  nowhere on either side.  The precondition states that range, beside the finiteness of the float inputs, which
  the argument never uses.

  The three frames: the two kernel programs run as a list of host stretches and two calls, each call's body
  proved at every grid point in its three kinds (clear and add; add; add and store out) with the running sum's
  contents named between points; the reference's frame is its run with the result dropped.  Nothing was rewritten
  in the idealization, so the preservation claim is trivial.
-/
import proofs.«401368_j71373766525042_1_alg».proof.Defs
import proofs.«401368_j71373766525042_1_alg».proof.Proof.KRun
import proofs.«401368_j71373766525042_1_alg».proof.Proof.KernelValue
import proofs.«401368_j71373766525042_1_alg».proof.Proof.RefValue
import proofs.«401368_j71373766525042_1_alg».proof.Proof.PreDecode
import proofs.«401368_j71373766525042_1_alg».proof.Proof.Gen.Kernel
import proofs.«401368_j71373766525042_1_alg».proof.Proof.Gen.KernelIdeal
import proofs.«401368_j71373766525042_1_alg».proof.Proof.Gen.ReferenceIdeal
import proofs.«401368_j71373766525042_1_alg».proof.Proof.Gen.Pre_finite_inputs

noncomputable section

namespace Cert.Proof

open Idealize.ShloMosaic Idealize.ShloMosaic.ValueIdx Idealize.SL.Sem

/-- The word-level kernel runs and leaves its arguments unchanged. -/
theorem frame_p : Cert.frame_Kernel := fun m ρ _ => Cert.Kernel.Hand.frame m ρ

/-- So does the idealized kernel. -/
theorem frame_pi : Cert.frame_KernelIdeal := fun m ρ _ => Cert.KernelIdeal.Hand.frame m ρ

/-- So does the reference. -/
theorem frame_ri : Cert.frame_ReferenceIdeal := fun m ρ _ => Cert.ReferenceIdeal.RefValue.frame_ri m ρ

/-- The two idealized programs, from memories agreeing on the arguments, end with the same result: the sum, over
    the edges landing on each row, of masked weight times source row. -/
theorem algebraic : Cert.algebraic_KernelIdeal_ReferenceIdeal := by
  intro m ρ m' ρ' hpre hagree
  have hcol : ∀ c : Dev Cert.KernelIdeal.nD, ∀ e : Fin 625000,
      0 ≤ ((m ((c.tc : Thread Cert.KernelIdeal.nD Cert.KernelIdeal.τ).loc Cert.KernelIdeal.main_arg2) : IVec Cert.Spmm.SI 32) (ix2 (1 : Fin 2) e)).toInt
      ∧ ((m ((c.tc : Thread Cert.KernelIdeal.nD Cert.KernelIdeal.τ).loc Cert.KernelIdeal.main_arg2) : IVec Cert.Spmm.SI 32) (ix2 (1 : Fin 2) e)).toInt < 100000 :=
    fun c => Cert.Spmm.col_range_of_pre (F := Ideal) _ _ _ _ (hpre c)
  refine ⟨fun c => Cert.Spmm.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.result_eq_G m c (hcol c)), (h c).2⟩)
      (Cert.KernelIdeal.Hand.run_result m ρ)
  · refine (θ_run Cert.ReferenceIdeal.defs _ _).mono (fun _ h c => ⟨?_, (h c).2⟩)
      (Cert.ReferenceIdeal.RefValue.run_G m' ρ' (fun c e => by rw [(hagree c).2.2.1]; exact hcol c e))
    rw [(h c).1, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
